-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg6 : FVec F S128 .f32) (main_arg7 : FVec F S128x32 .f32) (main_arg8 : FVec F S32 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x32 .f32 := Host.absf main_arg7
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x128 .f32) (main_arg4 : FVec F S128 .f32) (main_arg5 : FVec F S128x128 .f32) (main_arg6 : FVec F S128 .f32) (main_arg7 : FVec F S128x32 .f32) (main_arg8 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩
abbrev S64 : Shape := ⟨1, ![64]⟩
abbrev S100000x1 : Shape := ⟨2, ![100000, 1]⟩
abbrev S1x64 : Shape := ⟨2, ![1, 64]⟩
abbrev S100000x64 : Shape := ⟨2, ![100000, 64]⟩
abbrev S64x128 : Shape := ⟨2, ![64, 128]⟩
abbrev S4000x64 : Shape := ⟨2, ![4000, 64]⟩
abbrev S4000x128 : Shape := ⟨2, ![4000, 128]⟩
abbrev S64x1 : Shape := ⟨2, ![64, 1]⟩
abbrev S1x32 : Shape := ⟨2, ![1, 32]⟩
abbrev S64x32 : Shape := ⟨2, ![64, 32]⟩

abbrev nBuf : Space → Nat
  | .hbm => 102
  | .vmem => 30
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x32, .f32⟩
  | .hbm, ⟨8, _⟩ => ⟨S32, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S100000, .i32⟩
  | .hbm, ⟨14, _⟩ => ⟨S1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S100000x128, .f32⟩
  | .hbm, ⟨46, _⟩ => ⟨S_, .i32⟩
  | .hbm, ⟨47, _⟩ => ⟨S1700000, .i32⟩
  | .hbm, ⟨48, _⟩ => ⟨S1700000, .i1⟩
  | .hbm, ⟨49, _⟩ => ⟨S_, .i32⟩
  | .hbm, ⟨50, _⟩ => ⟨S1700000, .i32⟩
  | .hbm, ⟨51, _⟩ => ⟨S1700000, .i32⟩
  | .hbm, ⟨52, _⟩ => ⟨S1700000, .i32⟩
  | .hbm, ⟨53, _⟩ => ⟨S1700000x1, .i32⟩
  | .hbm, ⟨54, _⟩ => ⟨S1700000x128, .f32⟩
  | .hbm, ⟨55, _⟩ => ⟨S1700000x1, .f32⟩
  | .hbm, ⟨56, _⟩ => ⟨S1700000x128, .f32⟩
  | .hbm, ⟨57, _⟩ => ⟨S1700000x128, .f32⟩
  | .hbm, ⟨58, _⟩ => ⟨S_, .f32⟩
  | .hbm, ⟨59, _⟩ => ⟨S100000x128, .f32⟩
  | .hbm, ⟨60, _⟩ => ⟨S1700000x1, .i32⟩
  | .hbm, ⟨61, _⟩ => ⟨S100000x128, .f32⟩
  | .hbm, ⟨62, _⟩ => ⟨S1x128, .f32⟩
  | .hbm, ⟨63, _⟩ => ⟨S100000x128, .f32⟩
  | .hbm, ⟨64, _⟩ => ⟨S100000x128, .f32⟩
  | .hbm, ⟨65, _⟩ => ⟨S_, .i32⟩
  | .hbm, ⟨66, _⟩ => ⟨S1700000, .i32⟩
  | .hbm, ⟨67, _⟩ => ⟨S1700000, .i1⟩
  | .hbm, ⟨68, _⟩ => ⟨S_, .i32⟩
  | .hbm, ⟨69, _⟩ => ⟨S1700000, .i32⟩
  | .hbm, ⟨70, _⟩ => ⟨S1700000, .i32⟩
  | .hbm, ⟨71, _⟩ => ⟨S1700000, .i32⟩
  | .hbm, ⟨72, _⟩ => ⟨S1700000x1, .i32⟩
  | .hbm, ⟨73, _⟩ => ⟨S1700000x128, .f32⟩
  | .hbm, ⟨74, _⟩ => ⟨S1700000x1, .f32⟩
  | .hbm, ⟨75, _⟩ => ⟨S1700000x128, .f32⟩
  | .hbm, ⟨76, _⟩ => ⟨S1700000x128, .f32⟩
  | .hbm, ⟨77, _⟩ => ⟨S_, .f32⟩
  | .hbm, ⟨78, _⟩ => ⟨S100000x128, .f32⟩
  | .hbm, ⟨79, _⟩ => ⟨S1700000x1, .i32⟩
  | .hbm, ⟨80, _⟩ => ⟨S100000x128, .f32⟩
  | .hbm, ⟨81, _⟩ => ⟨S1x128, .f32⟩
  | .hbm, ⟨82, _⟩ => ⟨S100000x128, .f32⟩
  | .hbm, ⟨83, _⟩ => ⟨S64, .i32⟩
  | .hbm, ⟨84, _⟩ => ⟨S100000x1, .i32⟩
  | .hbm, ⟨85, _⟩ => ⟨S1x64, .i32⟩
  | .hbm, ⟨86, _⟩ => ⟨S100000x64, .i32⟩
  | .hbm, ⟨87, _⟩ => ⟨S100000x64, .i32⟩
  | .hbm, ⟨88, _⟩ => ⟨S100000x64, .i1⟩
  | .hbm, ⟨89, _⟩ => ⟨S100000x64, .bf16⟩
  | .hbm, ⟨90, _⟩ => ⟨S64x128, .f32⟩
  | .hbm, ⟨91, _⟩ => ⟨S100000x64, .f32⟩
  | .hbm, ⟨92, _⟩ => ⟨S_, .f32⟩
  | .hbm, ⟨93, _⟩ => ⟨S64, .f32⟩
  | .hbm, ⟨94, _⟩ => ⟨S_, .f32⟩
  | .hbm, ⟨95, _⟩ => ⟨S64, .f32⟩
  | .hbm, ⟨96, _⟩ => ⟨S64, .f32⟩
  | .hbm, ⟨97, _⟩ => ⟨S64x1, .f32⟩
  | .hbm, ⟨98, _⟩ => ⟨S64x128, .f32⟩
  | .hbm, ⟨99, _⟩ => ⟨S64x128, .f32⟩
  | .hbm, ⟨100, _⟩ => ⟨S1x32, .f32⟩
  | .hbm, ⟨101, _⟩ => ⟨S64x32, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S4000x64, .bf16⟩
  | .local _ .vmem, ⟨21, _⟩ => ⟨S4000x64, .bf16⟩
  | .local _ .vmem, ⟨22, _⟩ => ⟨S4000x128, .f32⟩
  | .local _ .vmem, ⟨23, _⟩ => ⟨S4000x128, .f32⟩
  | .local _ .vmem, ⟨24, _⟩ => ⟨S64x128, .f32⟩
  | .local _ .vmem, ⟨25, _⟩ => ⟨S64x128, .f32⟩
  | .local _ .vmem, ⟨26, _⟩ => ⟨S64x128, .f32⟩
  | .local _ .vmem, ⟨27, _⟩ => ⟨S128x32, .f32⟩
  | .local _ .vmem, ⟨28, _⟩ => ⟨S1x32, .f32⟩
  | .local _ .vmem, ⟨29, _⟩ => ⟨S64x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_c_8 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_11 : Ref sig .tc := ⟨.hbm, 92, rfl⟩
abbrev main_v70 : Ref sig .tc := ⟨.hbm, 93, rfl⟩
abbrev main_cst_12 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg1_1 : Ref sig .tc := ⟨.vmem, 23, rfl⟩
abbrev cc4_stg2_0 : Ref sig .tc := ⟨.vmem, 24, rfl⟩
abbrev cc4_scratch0 : Ref sig .tc := ⟨.vmem, 25, rfl⟩
abbrev cc5_stg0_0 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg3_0 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem1_1 : DmaSem sig := 23
abbrev cc4_sem2_0 : DmaSem sig := 24
abbrev cc5_sem0_0 : DmaSem sig := 25
abbrev cc5_sem1_0 : DmaSem sig := 26
abbrev cc5_sem2_0 : DmaSem sig := 27
abbrev cc5_sem3_0 : DmaSem sig := 28

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![25], ![false]⟩

def k4_cond2 (i : grid4.Coords) : BitVec 1 :=
  let arg0 : BitVec 32 := BitVec.ofNat 32 (i 0).val
  let c24_i32 : BitVec 32 := 24#32
  let v14 : BitVec 1 := Scalar.cmpi .eq arg0 c24_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S4000x64 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 1 → Memref sig .tc .vmem S64x128 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S128x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x32 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  reducesTo_S100000x64_S64_d0 : S100000x64.ReducesTo [0] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  shapeCasts_S32_S1x32 : S32.ShapeCasts S1x32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S64x32 : S1x32.Broadcasts S64x32
  inb_S64x32_S64x32_0_0 : ∀ a, (![0, 0] : Fin 2 → Nat) a + S64x32.size a ≤ S64x32.size a
  h_S64x32 : 0 < S64x32.numel
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x64_S4000x128_S64x128_0_0_1_1_n_n_wf : DotDims.WF S4000x64 S4000x128 S64x128 [0] [0] [1] [1] [] []
  dot_S64x128_S128x32_S64x32_1_0_0_1_n_n_wf : DotDims.WF S64x128 S128x32 S64x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x64.size a ≤ S100000x64.size a
  hwx4_0 : ∀ i : grid4.Coords, EltTy.bits .bf16 = 32 ∨ (Rect.block (s := S100000x64) S4000x64.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4000x128.size a ≤ S100000x128.size a
  hwx4_1 : ∀ i : grid4.Coords, EltTy.bits .f32 = 32 ∨ (Rect.block (s := S100000x128) S4000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x128.size a ≤ S64x128.size a
  hwx4_2 : ∀ i : grid4.Coords, EltTy.bits .f32 = 32 ∨ (Rect.block (s := S64x128) S64x128.size (cc4_transform_2 i) (hinb4_2 i)).WholeWords (EltTy.packing .f32)
  hrank5 : 0 < grid5.rank
  hstage5_0 : ∀ j, (stage5_0 j).IsWhole
  nbuf5_0 : grid5.bufCount reads5_0 true = 1
  hreads5_0 : ∀ i i' : grid5.Coords, (∀ a, reads5_0 a = true → i a = i' a) → cc5_transform_0 i = cc5_transform_0 i'
  hinb5_0 : ∀ (i : grid5.Coords) a, (cc5_transform_0 i a + 1) * S64x128.size a ≤ S64x128.size a
  hwx5_0 : ∀ i : grid5.Coords, EltTy.bits .f32 = 32 ∨ (Rect.block (s := S64x128) S64x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x32.size a ≤ S128x32.size a
  hwx5_1 : ∀ i : grid5.Coords, EltTy.bits .f32 = 32 ∨ (Rect.block (s := S128x32) S128x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x32.size a ≤ S64x32.size a
  hwx5_3 : ∀ i : grid5.Coords, EltTy.bits .f32 = 32 ∨ (Rect.block (s := S64x32) S64x32.size (cc5_transform_3 i) (hinb5_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x64_S4000x128_S64x128_0_0_1_1_n_n : DotDims S4000x64 S4000x128 S64x128 where
  lhsContracting := [0]
  rhsContracting := [0]
  lhsNonContracting := [1]
  rhsNonContracting := [1]
  lhsBatch := []
  rhsBatch := []
  wf := dot_S4000x64_S4000x128_S64x128_0_0_1_1_n_n_wf
def dot_S64x128_S128x32_S64x32_1_0_0_1_n_n : DotDims S64x128 S128x32 S64x32 where
  lhsContracting := [1]
  rhsContracting := [0]
  lhsNonContracting := [0]
  rhsNonContracting := [1]
  lhsBatch := []
  rhsBatch := []
  wf := dot_S64x128_S128x32_S64x32_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v67) S4000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v60) S4000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v68) S64x128.size cc4_transform_2 reads4_2 true true 1 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v75) S64x128.size cc5_transform_0 reads5_0 false true 1 stage5_0 sem5_0
    hrank5 hreads5_0 hinb5_0 nbuf5_0 (Memref.isWhole_whole _) hwx5_0 hstage5_0

abbrev win5_1 : Pipeline.Window sig grid5 :=
  Pipeline.Window.ofSpec (Memref.whole main_arg7) S128x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v77) S64x32.size cc5_transform_3 reads5_3 true true 1 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x128 : Shape := ⟨2, ![128, 128]⟩
abbrev S128 : Shape := ⟨1, ![128]⟩
abbrev S128x32 : Shape := ⟨2, ![128, 32]⟩
abbrev S32 : Shape := ⟨1, ![32]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S64x128 : Shape := ⟨2, ![64, 128]⟩
abbrev S100000x1 : Shape := ⟨2, ![100000, 1]⟩
abbrev S64 : Shape := ⟨1, ![64]⟩
abbrev S64x1 : Shape := ⟨2, ![64, 1]⟩
abbrev S64x32 : Shape := ⟨2, ![64, 32]⟩
abbrev S1x32 : Shape := ⟨2, ![1, 32]⟩

abbrev nBuf : Space → Nat
  | .hbm => 143
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x128, .f32⟩
  | 4 => ⟨S128, .f32⟩
  | 5 => ⟨S128x128, .f32⟩
  | 6 => ⟨S128, .f32⟩
  | 7 => ⟨S128x32, .f32⟩
  | 8 => ⟨S32, .f32⟩
  | 9 => ⟨S1x1600000, .i32⟩
  | 10 => ⟨S1600000, .i32⟩
  | 11 => ⟨S1x1600000, .i32⟩
  | 12 => ⟨S1600000, .i32⟩
  | 13 => ⟨S100000x128, .f32⟩
  | 14 => ⟨S100000, .i32⟩
  | 15 => ⟨S1700000, .i32⟩
  | 16 => ⟨S1700000, .i32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000x128, .f32⟩
  | 55 => ⟨S1700000x1, .f32⟩
  | 56 => ⟨S1700000x128, .f32⟩
  | 57 => ⟨S1700000x128, .f32⟩
  | 58 => ⟨S_, .f32⟩
  | 59 => ⟨S100000x128, .f32⟩
  | 60 => ⟨S1700000x1, .i32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S100000x128, .f32⟩
  | 69 => ⟨S100000, .i32⟩
  | 70 => ⟨S1700000, .i32⟩
  | 71 => ⟨S1700000, .i32⟩
  | 72 => ⟨S_, .f32⟩
  | 73 => ⟨S1700000, .f32⟩
  | 74 => ⟨S_, .f32⟩
  | 75 => ⟨S100000, .f32⟩
  | 76 => ⟨S1700000x1, .i32⟩
  | 77 => ⟨S100000, .f32⟩
  | 78 => ⟨S_, .f32⟩
  | 79 => ⟨S100000, .f32⟩
  | 80 => ⟨S100000, .f32⟩
  | 81 => ⟨S100000, .f32⟩
  | 82 => ⟨S_, .i32⟩
  | 83 => ⟨S1700000, .i32⟩
  | 84 => ⟨S1700000, .i1⟩
  | 85 => ⟨S_, .i32⟩
  | 86 => ⟨S1700000, .i32⟩
  | 87 => ⟨S1700000, .i32⟩
  | 88 => ⟨S1700000, .i32⟩
  | 89 => ⟨S1700000x1, .i32⟩
  | 90 => ⟨S1700000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000x128, .f32⟩
  | 110 => ⟨S1700000x1, .f32⟩
  | 111 => ⟨S1700000x128, .f32⟩
  | 112 => ⟨S1700000x128, .f32⟩
  | 113 => ⟨S_, .f32⟩
  | 114 => ⟨S100000x128, .f32⟩
  | 115 => ⟨S1700000x1, .i32⟩
  | 116 => ⟨S100000x128, .f32⟩
  | 117 => ⟨S1x128, .f32⟩
  | 118 => ⟨S100000x128, .f32⟩
  | 119 => ⟨S100000x128, .f32⟩
  | 120 => ⟨S_, .f32⟩
  | 121 => ⟨S100000x128, .f32⟩
  | 122 => ⟨S100000x128, .f32⟩
  | 123 => ⟨S_, .f32⟩
  | 124 => ⟨S64x128, .f32⟩
  | 125 => ⟨S100000x1, .i32⟩
  | 126 => ⟨S64x128, .f32⟩
  | 127 => ⟨S_, .f32⟩
  | _ => ⟨S100000x128, .f32⟩

abbrev hbmTy0_1 (i : Nat) : BufTy := match i % 128 with
  | 0 => ⟨S100000, .f32⟩
  | 1 => ⟨S_, .f32⟩
  | 2 => ⟨S64, .f32⟩
  | 3 => ⟨S100000x1, .i32⟩
  | 4 => ⟨S64, .f32⟩
  | 5 => ⟨S_, .f32⟩
  | 6 => ⟨S64, .f32⟩
  | 7 => ⟨S64, .f32⟩
  | 8 => ⟨S64x1, .f32⟩
  | 9 => ⟨S64x128, .f32⟩
  | 10 => ⟨S64x128, .f32⟩
  | 11 => ⟨S64x32, .f32⟩
  | 12 => ⟨S1x32, .f32⟩
  | 13 => ⟨S64x32, .f32⟩
  | 14 => ⟨S64x32, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_2 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_call0_cst : Ref sig .tc := ⟨.hbm, 65, rfl⟩
abbrev main_call0_v0 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_cst_8 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_10 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_c_11 : Ref sig .tc := ⟨.hbm, 82, rfl⟩
abbrev main_v58 : Ref sig .tc := ⟨.hbm, 83, rfl⟩
abbrev main_v59 : Ref sig .tc := ⟨.hbm, 84, rfl⟩
abbrev main_c_12 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_c_13 : Ref sig .tc := ⟨.hbm, 91, rfl⟩
abbrev main_v65 : Ref sig .tc := ⟨.hbm, 92, rfl⟩
abbrev main_v66 : Ref sig .tc := ⟨.hbm, 93, rfl⟩
abbrev main_c_14 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_c_15 : Ref sig .tc := ⟨.hbm, 101, rfl⟩
abbrev main_v73 : Ref sig .tc := ⟨.hbm, 102, rfl⟩
abbrev main_v74 : Ref sig .tc := ⟨.hbm, 103, rfl⟩
abbrev main_c_16 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_17 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_call1_cst : Ref sig .tc := ⟨.hbm, 120, rfl⟩
abbrev main_call1_v0 : Ref sig .tc := ⟨.hbm, 121, rfl⟩
abbrev main_v89 : Ref sig .tc := ⟨.hbm, 122, rfl⟩
abbrev main_cst_18 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_cst_19 : Ref sig .tc := ⟨.hbm, 127, rfl⟩
abbrev main_v93 : Ref sig .tc := ⟨.hbm, 128, rfl⟩
abbrev main_cst_20 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_21 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S64x128 : S_.BroadcastsInDim S64x128 (![] : Fin 0 → Fin S64x128.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x128_0_1 : S64x1.BroadcastsInDim S64x128 (![0, 1] : Fin 2 → Fin S64x128.rank)
  bcast_S32_S1x32_1 : S32.BroadcastsInDim S1x32 (![1] : Fin 1 → Fin S1x32.rank)
  bcast_S1x32_S64x32_0_1 : S1x32.BroadcastsInDim S64x32 (![0, 1] : Fin 2 → Fin S64x32.rank)
  dot_S100000x128_S128x128_S100000x128_1_0_0_1_n_n_wf : DotDims.WF S100000x128 S128x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  scatter_S64x128_S100000x1_S100000x128_1_0_0_1_wf : ScatterDims.WF S64x128 S100000x1 S100000x128 [1] [0] [0] 1
  scatter_S64_S100000x1_S100000_n_0_0_1_wf : ScatterDims.WF S64 S100000x1 S100000 [] [0] [0] 1
  dot_S64x128_S128x32_S64x32_1_0_0_1_n_n_wf : DotDims.WF S64x128 S128x32 S64x32 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def scatter_S64x128_S100000x1_S100000x128_1_0_0_1 : ScatterDims S64x128 S100000x1 S100000x128 where
  updateWindowDims := [1]
  insertedWindowDims := [0]
  scatterDimsToOperandDims := [0]
  indexVectorDim := 1
  wf := scatter_S64x128_S100000x1_S100000x128_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf
def dot_S64x128_S128x32_S64x32_1_0_0_1_n_n : DotDims S64x128 S128x32 S64x32 where
  lhsContracting := [1]
  rhsContracting := [0]
  lhsNonContracting := [0]
  rhsNonContracting := [1]
  lhsBatch := []
  rhsBatch := []
  wf := dot_S64x128_S128x32_S64x32_1_0_0_1_n_n_wf

class Facts : Prop extends Facts₀ where

variable [Facts]
-- ==== Proof.FrameBits.Region0.lean ====
/-
  Region 0 of the program (a pallas_call on a grid of 20 row blocks): the frame half of its certificate, at any
  float instance. Window 0 is the row block of the first operand (5000 rows), window 1 the second operand, resident
  whole, window 2 the output's row block. The body loads both input blocks, reads the output buffer once without
  using the value, and stores one payload over the whole output block; so after the body the output's buffer is a
  function of the two input blocks alone, the inputs' buffers are as found, and nothing else is touched.
  Stated at a parameter V, the buffers' contents when the region is entered.
-/
import proofs.«415668_j39204461478219_1_alg».proof.Proof.Gen.Kernel.Launch
import proofs.«415668_j39204461478219_1_alg».proof.Proof.Gen.Kernel.Skeleton
import proofs.«415668_j39204461478219_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or
    not: an unfetched window's block index has not moved since the point that did. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole block of each window, as a rectangle. -/
abbrev rIn0_0 : Rect S5000x128 := Rect.unit (s := S5000x128) ![0, 0] S5000x128.size inb_S5000x128_S5000x128_0_0
abbrev rIn0_1 : Rect S128x128 := Rect.unit (s := S128x128) ![0, 0] S128x128.size inb_S128x128_S128x128_0_0
abbrev rOut0 : Rect S5000x128 := Rect.unit (s := S5000x128) ![0, 0] S5000x128.size inb_S5000x128_S5000x128_0_0

/-- What the body leaves in the output window's buffer, from the two input blocks: its one store, over the whole
    block, of the payload of the two loaded blocks. -/
def out0_2 (x0 : Vec F S5000x128 .f32) (x1 : Vec F S128x128 .f32) : Vec F S5000x128 .f32 :=
  View.canon [⟨rOut0, k0_pay1 (View.ld x0 rIn0_0) (View.ld x1 rIn0_1)⟩]

/-- The one store covers the output block. -/
theorem cover0_2 (p0 : Vec F S5000x128 .f32) (y : S5000x128.Idx) :
    ∃ pc ∈ ([⟨rOut0, p0⟩] : List (View.Piece (Elt F) S5000x128 .f32)), y ∈ pc.1.set :=
  View.cover_of_tiled [⟨rOut0, p0⟩] S5000x128.size (by rfl) y

set_option maxHeartbeats 1000000 in
/-- The body on whole staging buffers, the inputs' at contents x0 and x1 and the output's at anything, runs to a
    state with the inputs' as they were and the output's at `out0_2 x0 x1`. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline on core c: the arrays as the region finds them; after the body at point t each
    input's buffer at its block and the output's at `out0_2` of the two input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.FrameBits.Region1.lean ====
/-
  Region 1 of the program (a pallas_call on a grid of 20 row blocks): the frame half of its certificate, at any
  float instance. Window 0 is the row block of the first operand (5000 rows), window 1 the second operand, resident
  whole, window 2 the output's row block. The body loads both input blocks, reads the output buffer once without
  using the value, and stores one payload over the whole output block; so after the body the output's buffer is a
  function of the two input blocks alone, the inputs' buffers are as found, and nothing else is touched.
  Stated at a parameter V, the buffers' contents when the region is entered.
-/
import proofs.«415668_j39204461478219_1_alg».proof.Proof.Gen.Kernel.Launch
import proofs.«415668_j39204461478219_1_alg».proof.Proof.Gen.Kernel.Skeleton
import proofs.«415668_j39204461478219_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or
    not: an unfetched window's block index has not moved since the point that did. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole block of each window, as a rectangle. -/
abbrev rIn1_0 : Rect S5000x128 := Rect.unit (s := S5000x128) ![0, 0] S5000x128.size inb_S5000x128_S5000x128_0_0
abbrev rIn1_1 : Rect S1x128 := Rect.unit (s := S1x128) ![0, 0] S1x128.size inb_S1x128_S1x128_0_0
abbrev rOut1 : Rect S5000x128 := Rect.unit (s := S5000x128) ![0, 0] S5000x128.size inb_S5000x128_S5000x128_0_0

/-- What the body leaves in the output window's buffer, from the two input blocks: its one store, over the whole
    block, of the payload of the two loaded blocks. -/
def out1_2 (x0 : Vec F S5000x128 .f32) (x1 : Vec F S1x128 .f32) : Vec F S5000x128 .f32 :=
  View.canon [⟨rOut1, k1_pay1 (View.ld x0 rIn1_0) (View.ld x1 rIn1_1)⟩]

/-- The one store covers the output block. -/
theorem cover1_2 (p0 : Vec F S5000x128 .f32) (y : S5000x128.Idx) :
    ∃ pc ∈ ([⟨rOut1, p0⟩] : List (View.Piece (Elt F) S5000x128 .f32)), y ∈ pc.1.set :=
  View.cover_of_tiled [⟨rOut1, p0⟩] S5000x128.size (by rfl) y

set_option maxHeartbeats 1000000 in
/-- The body on whole staging buffers, the inputs' at contents x0 and x1 and the output's at anything, runs to a
    state with the inputs' as they were and the output's at `out1_2 x0 x1`. -/
theorem sound_kernel1 (c : Dev nD) (E : Set ℕ) (i : grid1.Coords) (arg1 : Memref sig .tc .vmem S5000x128 .f32) (harg1 : arg1.IsWhole)
    (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this pipeline on core c: the arrays as the region finds them; after the body at point t each
    input's buffer at its block and the output's at `out1_2` of the two input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.FrameBits.Region2.lean ====
/-
  Region 2 of the program (a pallas_call on a grid of 20 row blocks): the frame half of its certificate, at any
  float instance. Window 0 is the row block of the first operand (5000 rows), window 1 the second operand, resident
  whole, window 2 the output's row block. The body loads both input blocks, reads the output buffer once without
  using the value, and stores one payload over the whole output block; so after the body the output's buffer is a
  function of the two input blocks alone, the inputs' buffers are as found, and nothing else is touched.
  Stated at a parameter V, the buffers' contents when the region is entered.
-/
import proofs.«415668_j39204461478219_1_alg».proof.Proof.Gen.Kernel.Launch
import proofs.«415668_j39204461478219_1_alg».proof.Proof.Gen.Kernel.Skeleton
import proofs.«415668_j39204461478219_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the point fetches it or
    not: an unfetched window's block index has not moved since the point that did. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole block of each window, as a rectangle. -/
abbrev rIn2_0 : Rect S5000x128 := Rect.unit (s := S5000x128) ![0, 0] S5000x128.size inb_S5000x128_S5000x128_0_0
abbrev rIn2_1 : Rect S128x128 := Rect.unit (s := S128x128) ![0, 0] S128x128.size inb_S128x128_S128x128_0_0
abbrev rOut2 : Rect S5000x128 := Rect.unit (s := S5000x128) ![0, 0] S5000x128.size inb_S5000x128_S5000x128_0_0

/-- What the body leaves in the output window's buffer, from the two input blocks: its one store, over the whole
    block, of the payload of the two loaded blocks. -/
def out2_2 (x0 : Vec F S5000x128 .f32) (x1 : Vec F S128x128 .f32) : Vec F S5000x128 .f32 :=
  View.canon [⟨rOut2, k2_pay1 (View.ld x0 rIn2_0) (View.ld x1 rIn2_1)⟩]

/-- The one store covers the output block. -/
theorem cover2_2 (p0 : Vec F S5000x128 .f32) (y : S5000x128.Idx) :
    ∃ pc ∈ ([⟨rOut2, p0⟩] : List (View.Piece (Elt F) S5000x128 .f32)), y ∈ pc.1.set :=
  View.cover_of_tiled [⟨rOut2, p0⟩] S5000x128.size (by rfl) y

set_option maxHeartbeats 1000000 in
/-- The body on whole staging buffers, the inputs' at contents x0 and x1 and the output's at anything, runs to a
    state with the inputs' as they were and the output's at `out2_2 x0 x1`. -/
theorem sound_kernel2 (c : Dev nD) (E : Set ℕ) (i : grid2.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of this pipeline on core c: the arrays as the region finds them; after the body at point t each
    input's buffer at its block and the output's at `out2_2` of the two input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so `sound_kernel2` applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.FrameBits.Region3.lean ====
/-
  Region 3 of the program (a pallas_call on a grid of 20 row blocks): the frame half of its certificate, at any
  float instance. Window 0 is the row block of the first operand (5000 rows), window 1 the second operand, resident
  whole, window 2 the output's row block. The body loads both input blocks, reads the output buffer once without
  using the value, and stores one payload over the whole output block; so after the body the output's buffer is a
  function of the two input blocks alone, the inputs' buffers are as found, and nothing else is touched.
  Stated at a parameter V, the buffers' contents when the region is entered.
-/
import proofs.«415668_j39204461478219_1_alg».proof.Proof.Gen.Kernel.Launch
import proofs.«415668_j39204461478219_1_alg».proof.Proof.Gen.Kernel.Skeleton
import proofs.«415668_j39204461478219_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether the point fetches it or
    not: an unfetched window's block index has not moved since the point that did. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole block of each window, as a rectangle. -/
abbrev rIn3_0 : Rect S5000x128 := Rect.unit (s := S5000x128) ![0, 0] S5000x128.size inb_S5000x128_S5000x128_0_0
abbrev rIn3_1 : Rect S1x128 := Rect.unit (s := S1x128) ![0, 0] S1x128.size inb_S1x128_S1x128_0_0
abbrev rOut3 : Rect S5000x128 := Rect.unit (s := S5000x128) ![0, 0] S5000x128.size inb_S5000x128_S5000x128_0_0

/-- What the body leaves in the output window's buffer, from the two input blocks: its one store, over the whole
    block, of the payload of the two loaded blocks. -/
def out3_2 (x0 : Vec F S5000x128 .f32) (x1 : Vec F S1x128 .f32) : Vec F S5000x128 .f32 :=
  View.canon [⟨rOut3, k3_pay1 (View.ld x0 rIn3_0) (View.ld x1 rIn3_1)⟩]

/-- The one store covers the output block. -/
theorem cover3_2 (p0 : Vec F S5000x128 .f32) (y : S5000x128.Idx) :
    ∃ pc ∈ ([⟨rOut3, p0⟩] : List (View.Piece (Elt F) S5000x128 .f32)), y ∈ pc.1.set :=
  View.cover_of_tiled [⟨rOut3, p0⟩] S5000x128.size (by rfl) y

set_option maxHeartbeats 1000000 in
/-- The body on whole staging buffers, the inputs' at contents x0 and x1 and the output's at anything, runs to a
    state with the inputs' as they were and the output's at `out3_2 x0 x1`. -/
theorem sound_kernel3 (c : Dev nD) (E : Set ℕ) (i : grid3.Coords) (arg1 : Memref sig .tc .vmem S5000x128 .f32) (harg1 : arg1.IsWhole)
    (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of this pipeline on core c: the arrays as the region finds them; after the body at point t each
    input's buffer at its block and the output's at `out3_2` of the two input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so `sound_kernel3` applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.FrameBits.Region4.lean ====
/-
  The pooling region of the program (a pallas_call on a grid of 25 blocks of 4000 nodes): the frame half of its
  certificate, at any float instance. Window 0 is the block of the node-to-graph indicator matrix (4000 rows of 64),
  window 1 the block of node features (4000 rows of 128), window 2 the output (64 rows of 128, one block for the whole
  grid, written back after the last point). The kernel also takes a scratch buffer of the output's shape, which it
  carries from point to point: at the first point it is reset to zero, at every point the product of the transposed
  indicator block with the feature block is added to it, and at the last point it is copied to the output's buffer.
  So the scratch after point n is a fold over the points up to n of one payload, and the output's buffer, stored only
  at the last point, is the scratch there. Stated at a parameter V, the buffers' contents when the region is entered.
-/
import proofs.«415668_j39204461478219_1_alg».proof.Proof.Gen.Kernel.Launch
import proofs.«415668_j39204461478219_1_alg».proof.Proof.Gen.Kernel.Skeleton
import proofs.«415668_j39204461478219_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The scratch buffer, whole. -/
abbrev scM4 : Memref sig .tc .vmem S64x128 .f32 := Memref.whole cc4_scratch0

/-- What the scratch holds after point n: at the first point the accumulation payload over the reset value, at a
    later point the accumulation payload over what the point before left. -/
def sc4 (c : Dev nD) : (n : ℕ) → n < cfg4.N → Vec F S64x128 .f32
  | 0, h => k4_pay2 (iblk4 V c 0 ⟨0, h⟩) (iblk4 V c 1 ⟨0, h⟩) (k4_pay1 (F := F))
  | n + 1, h => k4_pay2 (iblk4 V c 0 ⟨n + 1, h⟩) (iblk4 V c 1 ⟨n + 1, h⟩) (sc4 c n (Nat.lt_of_succ_lt h))

theorem sc4_zero (c : Dev nD) (h : 0 < cfg4.N) :
    sc4 V c 0 h = k4_pay2 (iblk4 V c 0 ⟨0, h⟩) (iblk4 V c 1 ⟨0, h⟩) (k4_pay1 (F := F)) := rfl
theorem sc4_succ (c : Dev nD) (n : ℕ) (h : n + 1 < cfg4.N) :
    sc4 V c (n + 1) h = k4_pay2 (iblk4 V c 0 ⟨n + 1, h⟩) (iblk4 V c 1 ⟨n + 1, h⟩) (sc4 V c n (Nat.lt_of_succ_lt h)) := rfl

/-- The invariant between points: before the first point the scoped rest and the generator register, untouched;
    after point n the scratch at `sc4 n`, the other scoped buffers unopened, the generator register at some state. -/
def Phi4 (c : Dev nD) : (n : ℕ) → n ≤ cfg4.N → sProp 𝕄
  | 0, _ => Pipeline.ΦA spec4 c
  | n + 1, hn => iprop(owns (c : Thread nD τ) scM4 fullShare (sc4 V c n hn)
      ∗ Pipeline.scopedRestBut (Ix := Unit) (Name := ℕ) (U := UR sig nD τ) (Lvl := ℕ) (Val := Elt F) spec4 c [cc4_scratch0]
      ∗ (∃ r, prngReg c r))

theorem Phi4_zero (c : Dev nD) (h : 0 ≤ cfg4.N) : Phi4 V c 0 h = Pipeline.ΦA spec4 c := rfl
theorem Phi4_succ (c : Dev nD) (n : ℕ) (hn : n < cfg4.N) :
    Phi4 V c (n + 1) hn = iprop(owns (c : Thread nD τ) scM4 fullShare (sc4 V c n hn)
      ∗ Pipeline.scopedRestBut (Ix := Unit) (Name := ℕ) (U := UR sig nD τ) (Lvl := ℕ) (Val := Elt F) spec4 c [cc4_scratch0]
      ∗ (∃ r, prngReg c r)) := rfl

/-- The proof data of this pipeline on core c: the arrays as the region finds them; after the body at point t each
    input's buffer at its block and the output's (read only where it is stored, at the last point) at the scratch's
    contents there; the invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => sc4 V c t.val t.isLt
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = sc4 V c t.val t.isLt := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- The condition of the body's first branch (the reset of the scratch), from the grid coordinate. -/
abbrev cond4_0 (i : grid4.Coords) : Prop :=
  (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)
/-- The condition of the body's second branch (the copy of the scratch to the output). -/
abbrev cond4_1 (i : grid4.Coords) : Prop := k4_cond2 i = 1#1
/-- It holds at the last point only. -/
theorem hcond4_1 : ∀ t : Fin cfg4.N, cond4_1 (grid4.coords t) ↔ t.val = 24 :=
  (by decide +kernel : ∀ t : Fin grid4.N, cond4_1 (grid4.coords t) ↔ t.val = 24)

/-- The zero offsets, as a constant function. -/
theorem hz4 : (![0, 0] : Fin 2 → Nat) = fun _ => 0 := funext fun a => by fin_cases a <;> rfl

/-- A list of stores whose last is over the whole block covers the block. -/
theorem cover4 (w : Vec F S64x128 .f32) (L : List (View.Piece (Elt F) S64x128 .f32)) (y : S64x128.Idx) :
    ∃ pc ∈ ((⟨Rect.unit (s := S64x128) ![0, 0] S64x128.size inb_S64x128_S64x128_0_0, w⟩ : View.Piece (Elt F) S64x128 .f32) :: L), y ∈ pc.1.set :=
  ⟨_, List.mem_cons_self, View.mem_set_unit_zero (S := S64x128) hz4 inb_S64x128_S64x128_0_0 y⟩

set_option maxHeartbeats 1000000 in
/-- The body at a middle point, on whole buffers: the inputs' at x0 and x1, the scratch at s; it runs to the inputs'
    as they were and the scratch at the accumulation payload over s. The output's buffer is not touched. -/
theorem sound_kernel4_B (c : Dev nD) (E : Set ℕ) (i : grid4.Coords)
    (arg1 : Memref sig .tc .vmem S4000x64 .bf16) (harg1 : arg1.IsWhole)
    (arg2 : Memref sig .tc .vmem S4000x128 .f32) (harg2 : arg2.IsWhole)
    (arg3 : Memref sig .tc .vmem S64x128 .f32) (harg3 : arg3.IsWhole)
    (arg4 : Memref sig .tc .vmem S64x128 .f32) (harg4 : arg4.IsWhole)
    (hc0 : ¬cond4_0 i) (hc1 : ¬cond4_1 i)
    (x0 : Vec F S4000x64 .bf16) (x1 : Vec F S4000x128 .f32) (s : Vec F S64x128 .f32) (K : PUnit → sProp 𝕄) :
    iprop(owns (c : Thread nD τ) arg1 fullShare x0 ∗ owns (c : Thread nD τ) arg2 fullShare x1 ∗ owns (c : Thread nD τ) arg4 fullShare s
        ∗ (iprop(owns (c : Thread nD τ) arg1 fullShare x0 ∗ owns (c : Thread nD τ) arg2 fullShare x1
            ∗ owns (c : Thread nD τ) arg4 fullShare (k4_pay2 x0 x1 s)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H3
  ipureintro
  rw [View.read_writes_eq_canon _ _ _ (cover4 _ _), View.canon_unit_zero hz4]
  simp only [View.readAt_eq_ld, View.ld_unit_zero (S := S4000x64) hz4, View.ld_unit_zero (S := S4000x128) hz4,
    View.ld_unit_zero (S := S64x128) hz4]

set_option maxHeartbeats 1000000 in
/-- The body at the first point: the scratch, at anything, is reset and accumulated into once. -/
theorem sound_kernel4_A (c : Dev nD) (E : Set ℕ) (i : grid4.Coords)
    (arg1 : Memref sig .tc .vmem S4000x64 .bf16) (harg1 : arg1.IsWhole)
    (arg2 : Memref sig .tc .vmem S4000x128 .f32) (harg2 : arg2.IsWhole)
    (arg3 : Memref sig .tc .vmem S64x128 .f32) (harg3 : arg3.IsWhole)
    (arg4 : Memref sig .tc .vmem S64x128 .f32) (harg4 : arg4.IsWhole)
    (hc0 : cond4_0 i) (hc1 : ¬cond4_1 i)
    (x0 : Vec F S4000x64 .bf16) (x1 : Vec F S4000x128 .f32) (K : PUnit → sProp 𝕄) :
    iprop(owns (c : Thread nD τ) arg1 fullShare x0 ∗ owns (c : Thread nD τ) arg2 fullShare x1 ∗ (∃ d, owns (c : Thread nD τ) arg4 fullShare d)
        ∗ (iprop(owns (c : Thread nD τ) arg1 fullShare x0 ∗ owns (c : Thread nD τ) arg2 fullShare x1
            ∗ owns (c : Thread nD τ) arg4 fullShare (k4_pay2 x0 x1 (k4_pay1 (F := F)))) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%d3, %f3, -, H3⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H3
  ipureintro
  sl_unfold_words
  rw [View.read_writes_eq_canon _ _ _ (cover4 _ _), View.canon_cons_unit_zero (S := S64x128) hz4]
  simp only [View.readAt_eq_ld, View.ld_unit_zero (S := S4000x64) hz4, View.ld_unit_zero (S := S4000x128) hz4,
    View.ld_unit_zero (S := S64x128) hz4, View.readCov_unit_zero (S := S64x128) _ hz4]

set_option maxHeartbeats 1000000 in
/-- The body at the last point: the scratch is accumulated into and copied whole to the output's buffer. -/
theorem sound_kernel4_C (c : Dev nD) (E : Set ℕ) (i : grid4.Coords)
    (arg1 : Memref sig .tc .vmem S4000x64 .bf16) (harg1 : arg1.IsWhole)
    (arg2 : Memref sig .tc .vmem S4000x128 .f32) (harg2 : arg2.IsWhole)
    (arg3 : Memref sig .tc .vmem S64x128 .f32) (harg3 : arg3.IsWhole)
    (arg4 : Memref sig .tc .vmem S64x128 .f32) (harg4 : arg4.IsWhole)
    (hc0 : ¬cond4_0 i) (hc1 : cond4_1 i)
    (x0 : Vec F S4000x64 .bf16) (x1 : Vec F S4000x128 .f32) (s : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare s
        ∗ (iprop(owns (c : Thread nD τ) arg1 fullShare x0 ∗ owns (c : Thread nD τ) arg2 fullShare x1
            ∗ owns (c : Thread nD τ) arg3 fullShare (k4_pay2 x0 x1 s)
            ∗ owns (c : Thread nD τ) arg4 fullShare (k4_pay2 x0 x1 s)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover4 _ _), View.canon_unit_zero hz4, View.readCov_unit_zero (S := S64x128) _ hz4]
    simp only [View.readAt_eq_ld, View.ld_unit_zero (S := S4000x64) hz4, View.ld_unit_zero (S := S4000x128) hz4,
    View.ld_unit_zero (S := S64x128) hz4]
  iexists _; isplitr
  swap; · iexact H3
  ipureintro
  sl_unfold_words
  rw [View.read_writes_eq_canon _ _ _ (cover4 _ _), View.canon_unit_zero hz4]
  simp only [View.readAt_eq_ld, View.ld_unit_zero (S := S4000x64) hz4, View.ld_unit_zero (S := S4000x128) hz4,
    View.ld_unit_zero (S := S64x128) hz4]

/-! ## Where the windows are idle -/

/-- The inputs are never idle. -/
theorem liveAt4_0 : ∀ t : Fin cfg4.N, cfg4.idle 0 (grid4.coords t) = false := fun _ => rfl
theorem liveAt4_1 : ∀ t : Fin cfg4.N, cfg4.idle 1 (grid4.coords t) = false := fun _ => rfl
/-- The output is idle wherever the copy's condition fails, and is not written back there; it is live where it
    holds. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel

/-! ## The invariant and the scratch's contents, by position -/

/-- The region's entry invariant with the scratch named: the scratch at some contents, the other scoped buffers
    unopened, the generator register at some state. -/
theorem PhiA4_eq (c : Dev nD) :
    (Pipeline.ΦA spec4 c : sProp 𝕄)
      = iprop(iprop(iprop((∃ d, owns (c : Thread nD τ) scM4 fullShare d)) ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [scM4, owns_whole]; try rfl

theorem Phi4_first (c : Dev nD) (n : ℕ) (h : n ≤ cfg4.N) (hz : n = 0) : Phi4 V c n h = Pipeline.ΦA spec4 c := by
  subst hz; rfl

theorem Phi4_pos (c : Dev nD) (n : ℕ) (h : n ≤ cfg4.N) (hz : n ≠ 0) :
    Phi4 V c n h = iprop(owns (c : Thread nD τ) scM4 fullShare (sc4 V c (n - 1) (by omega))
      ∗ Pipeline.scopedRestBut (Ix := Unit) (Name := ℕ) (U := UR sig nD τ) (Lvl := ℕ) (Val := Elt F) spec4 c [cc4_scratch0]
      ∗ (∃ r, prngReg c r)) := by
  cases n with
  | zero => exact absurd rfl hz
  | succ n => rfl

theorem sc4_first (c : Dev nD) (t : Fin cfg4.N) (h0 : t.val = 0) :
    sc4 V c t.val t.isLt = k4_pay2 (iblk4 V c 0 t) (iblk4 V c 1 t) (k4_pay1 (F := F)) := by
  obtain ⟨n, hn⟩ := t
  cases n with
  | zero => rfl
  | succ n => exact absurd h0 (Nat.succ_ne_zero n)

theorem sc4_later (c : Dev nD) (t : Fin cfg4.N) (h0 : t.val ≠ 0) :
    sc4 V c t.val t.isLt = k4_pay2 (iblk4 V c 0 t) (iblk4 V c 1 t) (sc4 V c (t.val - 1) (by omega)) := by
  obtain ⟨n, hn⟩ := t
  cases n with
  | zero => exact absurd rfl h0
  | succ n => rfl

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point: the inputs' buffers hold their blocks; the point's position says which of the two
    conditions hold, so which of the three triples applies; the invariant hands the body the scratch at what the
    point before left (at anything at the first point) and takes it back at this point's contents; the output's
    buffer is handed back as found except at the last point, where it leaves at the scratch's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = Phi4 V c (t.val + 1) t.isLt from rfl, Phi4_succ]
  rw [show (dat4 V c).Φ t.castSucc = Phi4 V c t.val (Nat.le_of_lt t.isLt) from rfl]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  have hN : t.val < 25 := lt_of_lt_of_eq t.isLt (show cfg4.N = 25 from N_4)
  by_cases h0 : t.val = 0
  · have hc0 : cond4_0 (grid4.coords t) := (hcond4_0 t).mpr h0
    have hc1 : ¬cond4_1 (grid4.coords t) := fun h => by have := (hcond4_1 t).mp h; omega
    rw [Dat.leavesExact_idle (dat4 V c) 2 t (idleAt4_2 t hc1) (noFlush4_2 t hc1)]
    rw [Phi4_first V c _ _ h0, PhiA4_eq, sc4_first V c t h0]
    iintro ⟨⟨⟨HS, HR⟩, Hg⟩, Ho, ⟨%d0, H0⟩, ⟨%d1, H1⟩, H2⟩
    iapply (sound_kernel4_A c Set.univ _ _ _ _ _ _ _ _ _ hc0 hc1 (iblk4 V c 0 t) (iblk4 V c 1 t) _)
    isplitl [H0]; · iexact H0
    isplitl [H1]; · iexact H1
    isplitl [HS]; · iexact HS
    iintro ⟨H0, H1, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · have hc0 : ¬cond4_0 (grid4.coords t) := fun h => h0 ((hcond4_0 t).mp h)
    rw [Phi4_pos V c _ _ h0, sc4_later V c t h0]
    by_cases h1 : t.val = 24
    · have hc1 : cond4_1 (grid4.coords t) := (hcond4_1 t).mpr h1
      rw [show (dat4 V c).leavesExact 2 t = owns (c : Thread nD τ) (st4_2 t) fullShare ((dat4 V c).after 2 t) from by
        unfold Dat.leavesExact; rw [liveAt4_2 t hc1], after4_2, sc4_later V c t h0]
      iintro ⟨⟨HS, HR, Hg⟩, Ho, ⟨%d0, H0⟩, ⟨%d1, H1⟩, ⟨%d2, H2⟩⟩
      iapply (sound_kernel4_C c Set.univ _ _ _ _ _ _ _ _ _ hc0 hc1 (iblk4 V c 0 t) (iblk4 V c 1 t) (sc4 V c (t.val - 1) (by omega)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc1 : ¬cond4_1 (grid4.coords t) := fun h => h1 ((hcond4_1 t).mp h)
      rw [Dat.leavesExact_idle (dat4 V c) 2 t (idleAt4_2 t hc1) (noFlush4_2 t hc1)]
      iintro ⟨⟨HS, HR, Hg⟩, Ho, ⟨%d0, H0⟩, ⟨%d1, H1⟩, H2⟩
      iapply (sound_kernel4_B c Set.univ _ _ _ _ _ _ _ _ _ hc0 hc1 (iblk4 V c 0 t) (iblk4 V c 1 t) (sc4 V c (t.val - 1) (by omega)) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2

/-- The body obligation, at every point: by the three cases of the body's two conditions (the first point, a middle
    point, the last point). -/
theorem body_obligation4 (c : Dev nD) : BodyObligation (dat4 (F := F) V c) (defs₀ (F := F)) Variants.none () Set.univ := fun t => by
  rw [bigSep_W4, bigSep_W4]
  exact sound_body4 V c t

/-- The invariant before the first point is the scoped rest and the generator register. -/
theorem hin4 (c : Dev nD) : Pipeline.ΦA spec4 c ⊢ (dat4 V c).Φ 0 := by
  rw [show (dat4 V c).Φ 0 = Phi4 V c 0 (Nat.zero_le _) from rfl, Phi4_zero]

/-- The invariant after the last point gives the scoped rest (the scratch put back among it) and the generator
    register. -/
theorem hout4 (c : Dev nD) : (dat4 V c).Φ (Fin.last cfg4.N) ⊢ Pipeline.ΦA spec4 c := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 25 := N_4; omega), PhiA4_eq]
  iintro ⟨HS, HR, Hg⟩
  isplitl [HS HR]
  · isplitl [HS]
    · iexists _; iexact HS
    iexact HR
  iexact Hg

end Cert.Kernel.Hand

end
-- ==== Proof.FrameBits.Region5.lean ====
/-
  The last region of the program (a pallas_call on a grid of one point): the frame half of its certificate, at any
  float instance. Windows 0, 1 and 2 are the three operands, each resident whole (the pooled features, the head's
  weights, the head's bias as a row), window 3 the output. The body loads the three operands, reads the output buffer
  once without using the value, and stores one payload over the whole output; so after the body the output's buffer
  is a function of the three operands alone, the operands' buffers are as found, and nothing else is touched.
  Stated at a parameter V, the buffers' contents when the region is entered.
-/
import proofs.«415668_j39204461478219_1_alg».proof.Proof.Gen.Kernel.Launch
import proofs.«415668_j39204461478219_1_alg».proof.Proof.Gen.Kernel.Skeleton
import proofs.«415668_j39204461478219_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at the point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The whole block of each window, as a rectangle. -/
abbrev rIn5_0 : Rect S64x128 := Rect.unit (s := S64x128) ![0, 0] S64x128.size inb_S64x128_S64x128_0_0
abbrev rIn5_1 : Rect S128x32 := Rect.unit (s := S128x32) ![0, 0] S128x32.size inb_S128x32_S128x32_0_0
abbrev rIn5_2 : Rect S1x32 := Rect.unit (s := S1x32) ![0, 0] S1x32.size inb_S1x32_S1x32_0_0
abbrev rOut5 : Rect S64x32 := Rect.unit (s := S64x32) ![0, 0] S64x32.size inb_S64x32_S64x32_0_0

/-- What the body leaves in the output window's buffer, from the three operands: its one store, over the whole
    block, of the payload of the three loaded blocks. -/
def out5_3 (x0 : Vec F S64x128 .f32) (x1 : Vec F S128x32 .f32) (x2 : Vec F S1x32 .f32) : Vec F S64x32 .f32 :=
  View.canon [⟨rOut5, k5_pay1 (View.ld x0 rIn5_0) (View.ld x1 rIn5_1) (View.ld x2 rIn5_2)⟩]

/-- The one store covers the output block. -/
theorem cover5_3 (p0 : Vec F S64x32 .f32) (y : S64x32.Idx) :
    ∃ pc ∈ ([⟨rOut5, p0⟩] : List (View.Piece (Elt F) S64x32 .f32)), y ∈ pc.1.set :=
  View.cover_of_tiled [⟨rOut5, p0⟩] S64x32.size (by rfl) y

set_option maxHeartbeats 1000000 in
/-- The body on whole staging buffers, the operands' at contents x0, x1, x2 and the output's at anything, runs to a
    state with the operands' as they were and the output's at `out5_3 x0 x1 x2`. -/
theorem sound_kernel5 (c : Dev nD) (E : Set ℕ) (i : grid5.Coords) (arg1 : Memref sig .tc .vmem S64x128 .f32) (harg1 : arg1.IsWhole)
    (arg2 : Memref sig .tc .vmem S128x32 .f32) (harg2 : arg2.IsWhole) (arg3 : Memref sig .tc .vmem S1x32 .f32) (harg3 : arg3.IsWhole)
    (arg4 : Memref sig .tc .vmem S64x32 .f32) (harg4 : arg4.IsWhole)
    (x0 : Vec F S64x128 .f32) (x1 : Vec F S128x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__final_kernel i arg1 harg1 arg2 harg2 arg3 harg3 arg4 harg4) K := by
  simp only [cc5__final_kernel_eq_skeleton]; unfold cc5__final_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The proof data of this pipeline on core c: the arrays as the region finds them; after the body each operand's
    buffer at its block and the output's at `out5_3` of the three; the invariant is the scoped rest and the generator
    register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at the point, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at the point: the operands' buffers hold their blocks, so `sound_kernel5` applies; the invariant and
    the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at the point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.FrameBits.Run.lean ====
/-
  The run of the whole program: its six kernel regions and the host stretches between them, as one weakly fair
  execution from the launch memory. Between two items every unscoped buffer holds a named valuation: the launch
  contents, then the host operations' results folded over them, then — after a region — the region's output array at
  what its write-backs leave and every other buffer as before. Each region is entered from the valuation before it
  and left at the one after it; the core's generator register and its dues ride along. From the run, every unscoped
  buffer's final contents are the last valuation's: the arguments are as launched (the frame), and the result is the
  last region's output array.
-/
import proofs.«415668_j39204461478219_1_alg».proof.Proof.FrameBits.Region0
import proofs.«415668_j39204461478219_1_alg».proof.Proof.FrameBits.Region1
import proofs.«415668_j39204461478219_1_alg».proof.Proof.FrameBits.Region2
import proofs.«415668_j39204461478219_1_alg».proof.Proof.FrameBits.Region3
import proofs.«415668_j39204461478219_1_alg».proof.Proof.FrameBits.Region4
import proofs.«415668_j39204461478219_1_alg».proof.Proof.FrameBits.Region5
import proofs.«415668_j39204461478219_1_alg».proof.Proof.FrameBits.RunCond

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev Vr (W : Dev nD → Valuation τ sig (Elt F)) : (c : Dev nD) → (b : Ref sig .tc) → Buf (Elt F) ((c : Thread nD τ).loc b) :=
  fun c b => W c b

/-! ## The buffers' contents between items -/

/-- After the first host stretch (region 0's entry). -/
abbrev U1 : Dev nD → Valuation τ sig (Elt F) := fun c => V1 m c
/-- Region 0's output array after the region. -/
def o2 (c : Dev nD) : Buf (Elt F) ((c : Thread nD τ).loc main_v29) := (dat0 (Vr (U1 m)) c).arrAt 2 cfg0.N
/-- After region 0. -/
def U2 (c : Dev nD) : Valuation τ sig (Elt F) := Function.update (U1 m c) main_v29 (o2 m c)
/-- After the second host stretch (region 1's entry). -/
abbrev U3 : Dev nD → Valuation τ sig (Elt F) := fun c => StableHlo.after hostOps1 (U2 m c)
def o4 (c : Dev nD) : Buf (Elt F) ((c : Thread nD τ).loc main_v44) := (dat1 (Vr (U3 m)) c).arrAt 2 cfg1.N
/-- After region 1 (region 2's entry). -/
def U4 (c : Dev nD) : Valuation τ sig (Elt F) := Function.update (U3 m c) main_v44 (o4 m c)
def o5 (c : Dev nD) : Buf (Elt F) ((c : Thread nD τ).loc main_v45) := (dat2 (Vr (U4 m)) c).arrAt 2 cfg2.N
/-- After region 2. -/
def U5 (c : Dev nD) : Valuation τ sig (Elt F) := Function.update (U4 m c) main_v45 (o5 m c)
/-- After the third host stretch (region 3's entry). -/
abbrev U6 : Dev nD → Valuation τ sig (Elt F) := fun c => StableHlo.after hostOps3 (U5 m c)
def o7 (c : Dev nD) : Buf (Elt F) ((c : Thread nD τ).loc main_v60) := (dat3 (Vr (U6 m)) c).arrAt 2 cfg3.N
/-- After region 3. -/
def U7 (c : Dev nD) : Valuation τ sig (Elt F) := Function.update (U6 m c) main_v60 (o7 m c)
/-- After the fourth host stretch (region 4's entry). -/
abbrev U8 : Dev nD → Valuation τ sig (Elt F) := fun c => StableHlo.after hostOps4 (U7 m c)
def o9 (c : Dev nD) : Buf (Elt F) ((c : Thread nD τ).loc main_v68) := (dat4 (Vr (U8 m)) c).arrAt 2 cfg4.N
/-- After region 4. -/
def U9 (c : Dev nD) : Valuation τ sig (Elt F) := Function.update (U8 m c) main_v68 (o9 m c)
/-- After the last host stretch (region 5's entry). -/
abbrev U10 : Dev nD → Valuation τ sig (Elt F) := fun c => StableHlo.after hostOps5 (U9 m c)
def o11 (c : Dev nD) : Buf (Elt F) ((c : Thread nD τ).loc main_v77) := (dat5 (Vr (U10 m)) c).arrAt 3 cfg5.N
/-- After region 5: the end. -/
def U11 (c : Dev nD) : Valuation τ sig (Elt F) := Function.update (U10 m c) main_v77 (o11 m c)

/-- What the regions leave in the buffers they may change, as the table the generated valuations are written over:
    entry (J, r) is read only at the six pairs below; elsewhere it is the launch contents. -/
def outs : Outs (F := F) := fun J r c =>
  if h2 : r = main_v29 then h2 ▸ o2 m c
  else if h4 : r = main_v44 then h4 ▸ o4 m c
  else if h5 : r = main_v45 then h5 ▸ o5 m c
  else if h7 : r = main_v60 then h7 ▸ o7 m c
  else if h9 : r = main_v68 then h9 ▸ o9 m c
  else if h11 : r = main_v77 then h11 ▸ o11 m c
  else m ((c : Thread nD τ).loc r)

theorem outs_2 (c : Dev nD) : outs m 2 main_v29 c = o2 m c := by unfold outs; rw [dif_pos rfl]
theorem outs_4 (c : Dev nD) : outs m 4 main_v44 c = o4 m c := by
  unfold outs; rw [dif_neg (by decide), dif_pos rfl]
theorem outs_5 (c : Dev nD) : outs m 5 main_v45 c = o5 m c := by
  unfold outs; rw [dif_neg (by decide), dif_neg (by decide), dif_pos rfl]
theorem outs_7 (c : Dev nD) : outs m 7 main_v60 c = o7 m c := by
  unfold outs; rw [dif_neg (by decide), dif_neg (by decide), dif_neg (by decide), dif_pos rfl]
theorem outs_9 (c : Dev nD) : outs m 9 main_v68 c = o9 m c := by
  unfold outs; rw [dif_neg (by decide), dif_neg (by decide), dif_neg (by decide), dif_neg (by decide), dif_pos rfl]
theorem outs_11 (c : Dev nD) : outs m 11 main_v77 c = o11 m c := by
  unfold outs; rw [dif_neg (by decide), dif_neg (by decide), dif_neg (by decide), dif_neg (by decide), dif_neg (by decide), dif_pos rfl]

/-- The generated valuations over this table are the named ones. -/
theorem V2_eq (c : Dev nD) : V2 m (outs m) c = U2 m c := by
  show Function.update (V1 m c) main_v29 (outs m 2 main_v29 c) = _; rw [outs_2]; rfl
theorem V3_eq (c : Dev nD) : V3 m (outs m) c = U3 m c := by
  show StableHlo.after hostOps1 (V2 m (outs m) c) = _; rw [V2_eq]
theorem V4_eq (c : Dev nD) : V4 m (outs m) c = U4 m c := by
  show Function.update (V3 m (outs m) c) main_v44 (outs m 4 main_v44 c) = _; rw [outs_4, V3_eq]; rfl
theorem V5_eq (c : Dev nD) : V5 m (outs m) c = U5 m c := by
  show Function.update (V4 m (outs m) c) main_v45 (outs m 5 main_v45 c) = _; rw [outs_5, V4_eq]; rfl
theorem V6_eq (c : Dev nD) : V6 m (outs m) c = U6 m c := by
  show StableHlo.after hostOps3 (V5 m (outs m) c) = _; rw [V5_eq]
theorem V7_eq (c : Dev nD) : V7 m (outs m) c = U7 m c := by
  show Function.update (V6 m (outs m) c) main_v60 (outs m 7 main_v60 c) = _; rw [outs_7, V6_eq]; rfl
theorem V8_eq (c : Dev nD) : V8 m (outs m) c = U8 m c := by
  show StableHlo.after hostOps4 (V7 m (outs m) c) = _; rw [V7_eq]
theorem V9_eq (c : Dev nD) : V9 m (outs m) c = U9 m c := by
  show Function.update (V8 m (outs m) c) main_v68 (outs m 9 main_v68 c) = _; rw [outs_9, V8_eq]; rfl
theorem V10_eq (c : Dev nD) : V10 m (outs m) c = U10 m c := by
  show StableHlo.after hostOps5 (V9 m (outs m) c) = _; rw [V9_eq]
theorem V11_eq (c : Dev nD) : V11 m (outs m) c = U11 m c := by
  show Function.update (V10 m (outs m) c) main_v77 (outs m 11 main_v77 c) = _; rw [outs_11, V10_eq]; rfl

/-! ## The proof data family and the thread state -/

/-- Every pipeline's proof data, each at its region's entry contents. -/
def pdats : (p : Fin 6) → (c : Dev nD) → Dat τ (Elt F) Unit ℕ (UR sig nD τ) ℕ (cfgs p) c
  | ⟨0, _⟩ => fun c => dat0 (Vr (U1 m)) c
  | ⟨1, _⟩ => fun c => dat1 (Vr (U3 m)) c
  | ⟨2, _⟩ => fun c => dat2 (Vr (U4 m)) c
  | ⟨3, _⟩ => fun c => dat3 (Vr (U6 m)) c
  | ⟨4, _⟩ => fun c => dat4 (Vr (U8 m)) c
  | ⟨5, _⟩ => fun c => dat5 (Vr (U10 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

/-- At region 0's exit each of its arrays holds what the pipeline leaves: the inputs as entered, the output at
    the folded write-backs. -/
theorem hF0 (c : Dev nD) : ∀ w : Fin cfg0.W, (pdats m 0 c).arrAt w cfg0.N = Vr (U2 m) c (Pipeline.arrRef spec0 w)
  | ⟨0, _⟩ => by
    show (dat0 (Vr (U1 m)) c).arrAt 0 cfg0.N = U2 m c (Proc.devRef .tc (Pipeline.arrRef spec0 0))
    unfold U2
    rw [Function.update_of_ne (StableHlo.devRef_ne_of_ne (by decide)), (dat0 (Vr (U1 m)) c).arrAt_in 0 rfl _]
    exact A_eq0 (Vr (U1 m)) c 0
  | ⟨1, _⟩ => by
    show (dat0 (Vr (U1 m)) c).arrAt 1 cfg0.N = U2 m c (Proc.devRef .tc (Pipeline.arrRef spec0 1))
    unfold U2
    rw [Function.update_of_ne (StableHlo.devRef_ne_of_ne (by decide)), (dat0 (Vr (U1 m)) c).arrAt_in 1 rfl _]
    exact A_eq0 (Vr (U1 m)) c 1
  | ⟨2, _⟩ => by
    show (dat0 (Vr (U1 m)) c).arrAt 2 cfg0.N = U2 m c (Proc.devRef .tc main_v29)
    unfold U2; rw [Function.update_self]; rfl
/-- and every other buffer what it held at entry. -/
theorem hrest0 (c : Dev nD) : ∀ b, b ∉ Finset.univ.image (Pipeline.arrRef spec0) → Vr (U2 m) c b = Vr (U1 m) c b := by
  intro b hb
  have hne : b ≠ main_v29 := fun e => hb (Finset.mem_image.mpr ⟨2, Finset.mem_univ _, e ▸ rfl⟩)
  show U2 m c (Proc.devRef .tc b) = U1 m c (Proc.devRef .tc b)
  unfold U2
  exact Function.update_of_ne (StableHlo.devRef_ne_of_ne hne) _ _

/-- At region 1's exit each of its arrays holds what the pipeline leaves: the inputs as entered, the output at
    the folded write-backs. -/
theorem hF1 (c : Dev nD) : ∀ w : Fin cfg1.W, (pdats m 1 c).arrAt w cfg1.N = Vr (U4 m) c (Pipeline.arrRef spec1 w)
  | ⟨0, _⟩ => by
    show (dat1 (Vr (U3 m)) c).arrAt 0 cfg1.N = U4 m c (Proc.devRef .tc (Pipeline.arrRef spec1 0))
    unfold U4
    rw [Function.update_of_ne (StableHlo.devRef_ne_of_ne (by decide)), (dat1 (Vr (U3 m)) c).arrAt_in 0 rfl _]
    exact A_eq1 (Vr (U3 m)) c 0
  | ⟨1, _⟩ => by
    show (dat1 (Vr (U3 m)) c).arrAt 1 cfg1.N = U4 m c (Proc.devRef .tc (Pipeline.arrRef spec1 1))
    unfold U4
    rw [Function.update_of_ne (StableHlo.devRef_ne_of_ne (by decide)), (dat1 (Vr (U3 m)) c).arrAt_in 1 rfl _]
    exact A_eq1 (Vr (U3 m)) c 1
  | ⟨2, _⟩ => by
    show (dat1 (Vr (U3 m)) c).arrAt 2 cfg1.N = U4 m c (Proc.devRef .tc main_v44)
    unfold U4; rw [Function.update_self]; rfl
/-- and every other buffer what it held at entry. -/
theorem hrest1 (c : Dev nD) : ∀ b, b ∉ Finset.univ.image (Pipeline.arrRef spec1) → Vr (U4 m) c b = Vr (U3 m) c b := by
  intro b hb
  have hne : b ≠ main_v44 := fun e => hb (Finset.mem_image.mpr ⟨2, Finset.mem_univ _, e ▸ rfl⟩)
  show U4 m c (Proc.devRef .tc b) = U3 m c (Proc.devRef .tc b)
  unfold U4
  exact Function.update_of_ne (StableHlo.devRef_ne_of_ne hne) _ _

/-- At region 2's exit each of its arrays holds what the pipeline leaves: the inputs as entered, the output at
    the folded write-backs. -/
theorem hF2 (c : Dev nD) : ∀ w : Fin cfg2.W, (pdats m 2 c).arrAt w cfg2.N = Vr (U5 m) c (Pipeline.arrRef spec2 w)
  | ⟨0, _⟩ => by
    show (dat2 (Vr (U4 m)) c).arrAt 0 cfg2.N = U5 m c (Proc.devRef .tc (Pipeline.arrRef spec2 0))
    unfold U5
    rw [Function.update_of_ne (StableHlo.devRef_ne_of_ne (by decide)), (dat2 (Vr (U4 m)) c).arrAt_in 0 rfl _]
    exact A_eq2 (Vr (U4 m)) c 0
  | ⟨1, _⟩ => by
    show (dat2 (Vr (U4 m)) c).arrAt 1 cfg2.N = U5 m c (Proc.devRef .tc (Pipeline.arrRef spec2 1))
    unfold U5
    rw [Function.update_of_ne (StableHlo.devRef_ne_of_ne (by decide)), (dat2 (Vr (U4 m)) c).arrAt_in 1 rfl _]
    exact A_eq2 (Vr (U4 m)) c 1
  | ⟨2, _⟩ => by
    show (dat2 (Vr (U4 m)) c).arrAt 2 cfg2.N = U5 m c (Proc.devRef .tc main_v45)
    unfold U5; rw [Function.update_self]; rfl
/-- and every other buffer what it held at entry. -/
theorem hrest2 (c : Dev nD) : ∀ b, b ∉ Finset.univ.image (Pipeline.arrRef spec2) → Vr (U5 m) c b = Vr (U4 m) c b := by
  intro b hb
  have hne : b ≠ main_v45 := fun e => hb (Finset.mem_image.mpr ⟨2, Finset.mem_univ _, e ▸ rfl⟩)
  show U5 m c (Proc.devRef .tc b) = U4 m c (Proc.devRef .tc b)
  unfold U5
  exact Function.update_of_ne (StableHlo.devRef_ne_of_ne hne) _ _

/-- At region 3's exit each of its arrays holds what the pipeline leaves: the inputs as entered, the output at
    the folded write-backs. -/
theorem hF3 (c : Dev nD) : ∀ w : Fin cfg3.W, (pdats m 3 c).arrAt w cfg3.N = Vr (U7 m) c (Pipeline.arrRef spec3 w)
  | ⟨0, _⟩ => by
    show (dat3 (Vr (U6 m)) c).arrAt 0 cfg3.N = U7 m c (Proc.devRef .tc (Pipeline.arrRef spec3 0))
    unfold U7
    rw [Function.update_of_ne (StableHlo.devRef_ne_of_ne (by decide)), (dat3 (Vr (U6 m)) c).arrAt_in 0 rfl _]
    exact A_eq3 (Vr (U6 m)) c 0
  | ⟨1, _⟩ => by
    show (dat3 (Vr (U6 m)) c).arrAt 1 cfg3.N = U7 m c (Proc.devRef .tc (Pipeline.arrRef spec3 1))
    unfold U7
    rw [Function.update_of_ne (StableHlo.devRef_ne_of_ne (by decide)), (dat3 (Vr (U6 m)) c).arrAt_in 1 rfl _]
    exact A_eq3 (Vr (U6 m)) c 1
  | ⟨2, _⟩ => by
    show (dat3 (Vr (U6 m)) c).arrAt 2 cfg3.N = U7 m c (Proc.devRef .tc main_v60)
    unfold U7; rw [Function.update_self]; rfl
/-- and every other buffer what it held at entry. -/
theorem hrest3 (c : Dev nD) : ∀ b, b ∉ Finset.univ.image (Pipeline.arrRef spec3) → Vr (U7 m) c b = Vr (U6 m) c b := by
  intro b hb
  have hne : b ≠ main_v60 := fun e => hb (Finset.mem_image.mpr ⟨2, Finset.mem_univ _, e ▸ rfl⟩)
  show U7 m c (Proc.devRef .tc b) = U6 m c (Proc.devRef .tc b)
  unfold U7
  exact Function.update_of_ne (StableHlo.devRef_ne_of_ne hne) _ _

/-- At region 4's exit each of its arrays holds what the pipeline leaves: the inputs as entered, the output at
    the folded write-backs. -/
theorem hF4 (c : Dev nD) : ∀ w : Fin cfg4.W, (pdats m 4 c).arrAt w cfg4.N = Vr (U9 m) c (Pipeline.arrRef spec4 w)
  | ⟨0, _⟩ => by
    show (dat4 (Vr (U8 m)) c).arrAt 0 cfg4.N = U9 m c (Proc.devRef .tc (Pipeline.arrRef spec4 0))
    unfold U9
    rw [Function.update_of_ne (StableHlo.devRef_ne_of_ne (by decide)), (dat4 (Vr (U8 m)) c).arrAt_in 0 rfl _]
    exact A_eq4 (Vr (U8 m)) c 0
  | ⟨1, _⟩ => by
    show (dat4 (Vr (U8 m)) c).arrAt 1 cfg4.N = U9 m c (Proc.devRef .tc (Pipeline.arrRef spec4 1))
    unfold U9
    rw [Function.update_of_ne (StableHlo.devRef_ne_of_ne (by decide)), (dat4 (Vr (U8 m)) c).arrAt_in 1 rfl _]
    exact A_eq4 (Vr (U8 m)) c 1
  | ⟨2, _⟩ => by
    show (dat4 (Vr (U8 m)) c).arrAt 2 cfg4.N = U9 m c (Proc.devRef .tc main_v68)
    unfold U9; rw [Function.update_self]; rfl
/-- and every other buffer what it held at entry. -/
theorem hrest4 (c : Dev nD) : ∀ b, b ∉ Finset.univ.image (Pipeline.arrRef spec4) → Vr (U9 m) c b = Vr (U8 m) c b := by
  intro b hb
  have hne : b ≠ main_v68 := fun e => hb (Finset.mem_image.mpr ⟨2, Finset.mem_univ _, e ▸ rfl⟩)
  show U9 m c (Proc.devRef .tc b) = U8 m c (Proc.devRef .tc b)
  unfold U9
  exact Function.update_of_ne (StableHlo.devRef_ne_of_ne hne) _ _

/-- At region 5's exit each of its arrays holds what the pipeline leaves: the inputs as entered, the output at
    the folded write-backs. -/
theorem hF5 (c : Dev nD) : ∀ w : Fin cfg5.W, (pdats m 5 c).arrAt w cfg5.N = Vr (U11 m) c (Pipeline.arrRef spec5 w)
  | ⟨0, _⟩ => by
    show (dat5 (Vr (U10 m)) c).arrAt 0 cfg5.N = U11 m c (Proc.devRef .tc (Pipeline.arrRef spec5 0))
    unfold U11
    rw [Function.update_of_ne (StableHlo.devRef_ne_of_ne (by decide)), (dat5 (Vr (U10 m)) c).arrAt_in 0 rfl _]
    exact A_eq5 (Vr (U10 m)) c 0
  | ⟨1, _⟩ => by
    show (dat5 (Vr (U10 m)) c).arrAt 1 cfg5.N = U11 m c (Proc.devRef .tc (Pipeline.arrRef spec5 1))
    unfold U11
    rw [Function.update_of_ne (StableHlo.devRef_ne_of_ne (by decide)), (dat5 (Vr (U10 m)) c).arrAt_in 1 rfl _]
    exact A_eq5 (Vr (U10 m)) c 1
  | ⟨2, _⟩ => by
    show (dat5 (Vr (U10 m)) c).arrAt 2 cfg5.N = U11 m c (Proc.devRef .tc (Pipeline.arrRef spec5 2))
    unfold U11
    rw [Function.update_of_ne (StableHlo.devRef_ne_of_ne (by decide)), (dat5 (Vr (U10 m)) c).arrAt_in 2 rfl _]
    exact A_eq5 (Vr (U10 m)) c 2
  | ⟨3, _⟩ => by
    show (dat5 (Vr (U10 m)) c).arrAt 3 cfg5.N = U11 m c (Proc.devRef .tc main_v77)
    unfold U11; rw [Function.update_self]; rfl
/-- and every other buffer what it held at entry. -/
theorem hrest5 (c : Dev nD) : ∀ b, b ∉ Finset.univ.image (Pipeline.arrRef spec5) → Vr (U11 m) c b = Vr (U10 m) c b := by
  intro b hb
  have hne : b ≠ main_v77 := fun e => hb (Finset.mem_image.mpr ⟨3, Finset.mem_univ _, e ▸ rfl⟩)
  show U11 m c (Proc.devRef .tc b) = U10 m c (Proc.devRef .tc b)
  unfold U11
  exact Function.update_of_ne (StableHlo.devRef_ne_of_ne hne) _ _

/-! ## The regions as segments -/

set_option backward.isDefEq.respectTransparency.types false in
/-- Region 0 over the thread state: entered from every unscoped buffer at `U1`, left at `U2`. Its arrays are
    split out of the unscoped buffers and put back at the exit contents; the generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr (U1 m)) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (Vr (U1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr (U1 m) c) (Vr (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `U3`, left at `U4`. Its arrays are
    split out of the unscoped buffers and put back at the exit contents; the generator register goes into the region's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr (U3 m)) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (Vr (U3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr (U3 m) c) (Vr (U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `U4`, left at `U5`. Its arrays are
    split out of the unscoped buffers and put back at the exit contents; the generator register goes into the region's
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr (U4 m)) c).loose
  hwaits := Pipeline.hwaits_of_owed_zero _ _ _ _ L lv 2 fun _ _ => rfl
  pre c := iprop(StableHlo.held (c : Thread nD τ) (Pipeline.ucRefs τ sig) (U4 m c) ∗ R c)
  post c := iprop(StableHlo.held (c : Thread nD τ) (Pipeline.ucRefs τ sig) (U5 m c) ∗ R c)
  X c := iprop(∃ r, prngReg c r)
  Y c := iprop(∃ r, prngReg c r)
  Z c := Pipeline.unscopedRest (Ix := Unit) (Name := ℕ) (U := UR sig nD τ) (Lvl := ℕ) spec2 c (Vr (U4 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vr (U4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vr (U4 m) c) (Vr (U5 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `U6`, left at `U7`. Its arrays are
    split out of the unscoped buffers and put back at the exit contents; the generator register goes into the region's
    invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vr (U6 m)) c).loose
  hwaits := Pipeline.hwaits_of_owed_zero _ _ _ _ L lv 3 fun _ _ => rfl
  pre c := iprop(StableHlo.held (c : Thread nD τ) (Pipeline.ucRefs τ sig) (U6 m c) ∗ R c)
  post c := iprop(StableHlo.held (c : Thread nD τ) (Pipeline.ucRefs τ sig) (U7 m c) ∗ R c)
  X c := iprop(∃ r, prngReg c r)
  Y c := iprop(∃ r, prngReg c r)
  Z c := Pipeline.unscopedRest (Ix := Unit) (Name := ℕ) (U := UR sig nD τ) (Lvl := ℕ) spec3 c (Vr (U6 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vr (U6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vr (U6 m) c) (Vr (U7 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `U8`, left at `U9`. Its arrays are
    split out of the unscoped buffers and put back at the exit contents; the generator register goes into the region's
    invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vr (U8 m)) c).loose
  hwaits := Pipeline.hwaits_of_owed_zero _ _ _ _ L lv 4 fun _ _ => rfl
  pre c := iprop(StableHlo.held (c : Thread nD τ) (Pipeline.ucRefs τ sig) (U8 m c) ∗ R c)
  post c := iprop(StableHlo.held (c : Thread nD τ) (Pipeline.ucRefs τ sig) (U9 m c) ∗ R c)
  X c := iprop(∃ r, prngReg c r)
  Y c := iprop(∃ r, prngReg c r)
  Z c := Pipeline.unscopedRest (Ix := Unit) (Name := ℕ) (U := UR sig nD τ) (Lvl := ℕ) spec4 c (Vr (U8 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vr (U8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (Vr (U8 m)) c).Φ 0 from rfl]
    iintro ⟨Hp, -, Hr⟩
    iapply (hin4 (Vr (U8 m)) c)
    unfold Pipeline.ΦA
    isplitl [Hr]; · iexact Hr
    iexact Hp
  hout c := by
    rw [Pipeline.ownSems0_none, show (pdats m 4 c).Φ (Fin.last _) = (dat4 (Vr (U8 m)) c).Φ (Fin.last cfg4.N) from rfl]
    refine (hout4 (Vr (U8 m)) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vr (U8 m) c) (Vr (U9 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `U10`, left at `U11`. Its arrays are
    split out of the unscoped buffers and put back at the exit contents; the generator register goes into the region's
    invariant and comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vr (U10 m)) c).loose
  hwaits := Pipeline.hwaits_of_owed_zero _ _ _ _ L lv 5 fun _ _ => rfl
  pre c := iprop(StableHlo.held (c : Thread nD τ) (Pipeline.ucRefs τ sig) (U10 m c) ∗ R c)
  post c := iprop(StableHlo.held (c : Thread nD τ) (Pipeline.ucRefs τ sig) (U11 m c) ∗ R c)
  X c := iprop(∃ r, prngReg c r)
  Y c := iprop(∃ r, prngReg c r)
  Z c := Pipeline.unscopedRest (Ix := Unit) (Name := ℕ) (U := UR sig nD τ) (Lvl := ℕ) spec5 c (Vr (U10 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vr (U10 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vr (U10 m) c) (Vr (U11 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from memory m with zero counters terminates, nothing faulting, and every
    final memory holds each unscoped buffer at the last valuation. -/
theorem run_all (ρ : Dev nD → PrngReg) :
    θ_run defs (onTc (τ := τ) (main (F := F))) ⟨m, fun _ => 0, ρ⟩ (fun r => ∀ c : Dev nD, ∀ b ∈ Pipeline.ucRefs τ sig,
      r.2.mem (((c : Thread nD τ)).1, b) = U11 m c b) := by
  have h := run_cond (F := F) m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V2_eq]; exact .rfl)
    (reg1 m) (fun c => by rw [V3_eq]; exact .rfl) (fun c => by rw [V4_eq]; exact .rfl)
    (reg2 m) (fun c => by rw [V4_eq]; exact .rfl) (fun c => by rw [V5_eq]; exact .rfl)
    (reg3 m) (fun c => by rw [V6_eq]; exact .rfl) (fun c => by rw [V7_eq]; exact .rfl)
    (reg4 m) (fun c => by rw [V8_eq]; exact .rfl) (fun c => by rw [V9_eq]; exact .rfl)
    (reg5 m) (fun c => by rw [V10_eq]; exact .rfl) (fun c => by rw [V11_eq]; exact .rfl)
  exact (θ_run defs _ _).mono (fun r hr c b hb => (hr c b hb).trans (by rw [V11_eq])) h

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No item writes an argument: the last valuation holds each as launched. -/
theorem U11_arg0 (c : Dev nD) : U11 m c main_arg0 = m ((c : Thread nD τ).loc main_arg0) := (congrFun (V11_eq m c).symm _).trans (V11_main_arg0 m (outs m) c)
theorem U11_arg1 (c : Dev nD) : U11 m c main_arg1 = m ((c : Thread nD τ).loc main_arg1) := (congrFun (V11_eq m c).symm _).trans (V11_main_arg1 m (outs m) c)
theorem U11_arg2 (c : Dev nD) : U11 m c main_arg2 = m ((c : Thread nD τ).loc main_arg2) := (congrFun (V11_eq m c).symm _).trans (V11_main_arg2 m (outs m) c)
theorem U11_arg3 (c : Dev nD) : U11 m c main_arg3 = m ((c : Thread nD τ).loc main_arg3) := (congrFun (V11_eq m c).symm _).trans (V11_main_arg3 m (outs m) c)
theorem U11_arg4 (c : Dev nD) : U11 m c main_arg4 = m ((c : Thread nD τ).loc main_arg4) := (congrFun (V11_eq m c).symm _).trans (V11_main_arg4 m (outs m) c)
theorem U11_arg5 (c : Dev nD) : U11 m c main_arg5 = m ((c : Thread nD τ).loc main_arg5) := (congrFun (V11_eq m c).symm _).trans (V11_main_arg5 m (outs m) c)
theorem U11_arg6 (c : Dev nD) : U11 m c main_arg6 = m ((c : Thread nD τ).loc main_arg6) := (congrFun (V11_eq m c).symm _).trans (V11_main_arg6 m (outs m) c)
theorem U11_arg7 (c : Dev nD) : U11 m c main_arg7 = m ((c : Thread nD τ).loc main_arg7) := (congrFun (V11_eq m c).symm _).trans (V11_main_arg7 m (outs m) c)
theorem U11_arg8 (c : Dev nD) : U11 m c main_arg8 = m ((c : Thread nD τ).loc main_arg8) := (congrFun (V11_eq m c).symm _).trans (V11_main_arg8 m (outs m) c)
/-- The result buffer ends at the last region's output array. -/
theorem U11_result (c : Dev nD) : U11 m c main_v77 = o11 m c := by
  unfold U11; exact Function.update_self _ _ _

/-- The run with the result named: the result buffer ends at the last region's output array and the arguments as
    launched. -/
theorem run_result (ρ : Dev nD → PrngReg) :
    θ_run defs (onTc (τ := τ) (main (F := F))) ⟨m, fun _ => 0, ρ⟩ (fun r => ∀ c : Dev nD,
      r.2.mem ((c.tc : Thread nD τ).loc main_v77) = o11 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v77 (by decide))).trans (U11_result m c),
     (h c _ (mem_uc main_arg0 (by decide))).trans (U11_arg0 m c),
     (h c _ (mem_uc main_arg1 (by decide))).trans (U11_arg1 m c),
     (h c _ (mem_uc main_arg2 (by decide))).trans (U11_arg2 m c),
     (h c _ (mem_uc main_arg3 (by decide))).trans (U11_arg3 m c),
     (h c _ (mem_uc main_arg4 (by decide))).trans (U11_arg4 m c),
     (h c _ (mem_uc main_arg5 (by decide))).trans (U11_arg5 m c),
     (h c _ (mem_uc main_arg6 (by decide))).trans (U11_arg6 m c),
     (h c _ (mem_uc main_arg7 (by decide))).trans (U11_arg7 m c),
     (h c _ (mem_uc main_arg8 (by decide))).trans (U11_arg8 m c)⟩) (run_all m ρ)

/-- The frame: the program runs to the end, faults nowhere, and leaves its arguments as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_result m ρ)

end Cert.Kernel.Hand

end
-- ==== Proof.FrameIdeal.Region0.lean ====
/-
  Region 0 of the program (a pallas_call on a grid of 20 row blocks): the frame half of its certificate, at any
  float instance. Window 0 is the row block of the first operand (5000 rows), window 1 the second operand, resident
  whole, window 2 the output's row block. The body loads both input blocks, reads the output buffer once without
  using the value, and stores one payload over the whole output block; so after the body the output's buffer is a
  function of the two input blocks alone, the inputs' buffers are as found, and nothing else is touched.
  Stated at a parameter V, the buffers' contents when the region is entered.
-/
import proofs.«415668_j39204461478219_1_alg».proof.Proof.Gen.KernelIdeal.Launch
import proofs.«415668_j39204461478219_1_alg».proof.Proof.Gen.KernelIdeal.Skeleton
import proofs.«415668_j39204461478219_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or
    not: an unfetched window's block index has not moved since the point that did. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The whole block of each window, as a rectangle. -/
abbrev rIn0_0 : Rect S5000x128 := Rect.unit (s := S5000x128) ![0, 0] S5000x128.size inb_S5000x128_S5000x128_0_0
abbrev rIn0_1 : Rect S128x128 := Rect.unit (s := S128x128) ![0, 0] S128x128.size inb_S128x128_S128x128_0_0
abbrev rOut0 : Rect S5000x128 := Rect.unit (s := S5000x128) ![0, 0] S5000x128.size inb_S5000x128_S5000x128_0_0

/-- What the body leaves in the output window's buffer, from the two input blocks: its one store, over the whole
    block, of the payload of the two loaded blocks. -/
def out0_2 (x0 : Vec F S5000x128 .f32) (x1 : Vec F S128x128 .f32) : Vec F S5000x128 .f32 :=
  View.canon [⟨rOut0, k0_pay1 (View.ld x0 rIn0_0) (View.ld x1 rIn0_1)⟩]

/-- The one store covers the output block. -/
theorem cover0_2 (p0 : Vec F S5000x128 .f32) (y : S5000x128.Idx) :
    ∃ pc ∈ ([⟨rOut0, p0⟩] : List (View.Piece (Elt F) S5000x128 .f32)), y ∈ pc.1.set :=
  View.cover_of_tiled [⟨rOut0, p0⟩] S5000x128.size (by rfl) y

set_option maxHeartbeats 1000000 in
/-- The body on whole staging buffers, the inputs' at contents x0 and x1 and the output's at anything, runs to a
    state with the inputs' as they were and the output's at `out0_2 x0 x1`. -/
theorem sound_kernel0 (c : Dev nD) (E : Set ℕ) (i : grid0.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of this pipeline on core c: the arrays as the region finds them; after the body at point t each
    input's buffer at its block and the output's at `out0_2` of the two input blocks; the invariant is the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) :
    (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point t, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so `sound_kernel0` applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.FrameIdeal.Region1.lean ====
/-
  Region 1 of the program (a pallas_call on a grid of 20 row blocks): the frame half of its certificate, at any
  float instance. Window 0 is the row block of the first operand (5000 rows), window 1 the second operand, resident
  whole, window 2 the output's row block. The body loads both input blocks, reads the output buffer once without
  using the value, and stores one payload over the whole output block; so after the body the output's buffer is a
  function of the two input blocks alone, the inputs' buffers are as found, and nothing else is touched.
  Stated at a parameter V, the buffers' contents when the region is entered.
-/
import proofs.«415668_j39204461478219_1_alg».proof.Proof.Gen.KernelIdeal.Launch
import proofs.«415668_j39204461478219_1_alg».proof.Proof.Gen.KernelIdeal.Skeleton
import proofs.«415668_j39204461478219_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or
    not: an unfetched window's block index has not moved since the point that did. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The whole block of each window, as a rectangle. -/
abbrev rIn1_0 : Rect S5000x128 := Rect.unit (s := S5000x128) ![0, 0] S5000x128.size inb_S5000x128_S5000x128_0_0
abbrev rIn1_1 : Rect S1x128 := Rect.unit (s := S1x128) ![0, 0] S1x128.size inb_S1x128_S1x128_0_0
abbrev rOut1 : Rect S5000x128 := Rect.unit (s := S5000x128) ![0, 0] S5000x128.size inb_S5000x128_S5000x128_0_0

/-- What the body leaves in the output window's buffer, from the two input blocks: its one store, over the whole
    block, of the payload of the two loaded blocks. -/
def out1_2 (x0 : Vec F S5000x128 .f32) (x1 : Vec F S1x128 .f32) : Vec F S5000x128 .f32 :=
  View.canon [⟨rOut1, k1_pay1 (View.ld x0 rIn1_0) (View.ld x1 rIn1_1)⟩]

/-- The one store covers the output block. -/
theorem cover1_2 (p0 : Vec F S5000x128 .f32) (y : S5000x128.Idx) :
    ∃ pc ∈ ([⟨rOut1, p0⟩] : List (View.Piece (Elt F) S5000x128 .f32)), y ∈ pc.1.set :=
  View.cover_of_tiled [⟨rOut1, p0⟩] S5000x128.size (by rfl) y

set_option maxHeartbeats 1000000 in
/-- The body on whole staging buffers, the inputs' at contents x0 and x1 and the output's at anything, runs to a
    state with the inputs' as they were and the output's at `out1_2 x0 x1`. -/
theorem sound_kernel1 (c : Dev nD) (E : Set ℕ) (i : grid1.Coords) (arg1 : Memref sig .tc .vmem S5000x128 .f32) (harg1 : arg1.IsWhole)
    (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out1_2 x0 x1)) -∗ K ⟨⟩))
      ⊢ wp frame (wpE (defs₀ (F := F)) Variants.none c none) E (cc1__bias_relu_kernel i arg1 harg1 arg2 harg2 arg3 harg3) K := by
  simp only [cc1__bias_relu_kernel_eq_skeleton]; unfold cc1__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-- The proof data of this pipeline on core c: the arrays as the region finds them; after the body at point t each
    input's buffer at its block and the output's at `out1_2` of the two input blocks; the invariant is the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) :
    (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so `sound_kernel1` applies; the invariant and
    the core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.FrameIdeal.Region2.lean ====
/-
  Region 2 of the program (a pallas_call on a grid of 20 row blocks): the frame half of its certificate, at any
  float instance. Window 0 is the row block of the first operand (5000 rows), window 1 the second operand, resident
  whole, window 2 the output's row block. The body loads both input blocks, reads the output buffer once without
  using the value, and stores one payload over the whole output block; so after the body the output's buffer is a
  function of the two input blocks alone, the inputs' buffers are as found, and nothing else is touched.
  Stated at a parameter V, the buffers' contents when the region is entered.
-/
import proofs.«415668_j39204461478219_1_alg».proof.Proof.Gen.KernelIdeal.Launch
import proofs.«415668_j39204461478219_1_alg».proof.Proof.Gen.KernelIdeal.Skeleton
import proofs.«415668_j39204461478219_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, whether the point fetches it or
    not: an unfetched window's block index has not moved since the point that did. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- The whole block of each window, as a rectangle. -/
abbrev rIn2_0 : Rect S5000x128 := Rect.unit (s := S5000x128) ![0, 0] S5000x128.size inb_S5000x128_S5000x128_0_0
abbrev rIn2_1 : Rect S128x128 := Rect.unit (s := S128x128) ![0, 0] S128x128.size inb_S128x128_S128x128_0_0
abbrev rOut2 : Rect S5000x128 := Rect.unit (s := S5000x128) ![0, 0] S5000x128.size inb_S5000x128_S5000x128_0_0

/-- What the body leaves in the output window's buffer, from the two input blocks: its one store, over the whole
    block, of the payload of the two loaded blocks. -/
def out2_2 (x0 : Vec F S5000x128 .f32) (x1 : Vec F S128x128 .f32) : Vec F S5000x128 .f32 :=
  View.canon [⟨rOut2, k2_pay1 (View.ld x0 rIn2_0) (View.ld x1 rIn2_1)⟩]

/-- The one store covers the output block. -/
theorem cover2_2 (p0 : Vec F S5000x128 .f32) (y : S5000x128.Idx) :
    ∃ pc ∈ ([⟨rOut2, p0⟩] : List (View.Piece (Elt F) S5000x128 .f32)), y ∈ pc.1.set :=
  View.cover_of_tiled [⟨rOut2, p0⟩] S5000x128.size (by rfl) y

set_option maxHeartbeats 1000000 in
/-- The body on whole staging buffers, the inputs' at contents x0 and x1 and the output's at anything, runs to a
    state with the inputs' as they were and the output's at `out2_2 x0 x1`. -/
theorem sound_kernel2 (c : Dev nD) (E : Set ℕ) (i : grid2.Coords) (arg1 : Memref sig .tc .vmem S5000x128 .f32) (harg1 : arg1.IsWhole)
    (arg2 : Memref sig .tc .vmem S128x128 .f32) (harg2 : arg2.IsWhole) (arg3 : Memref sig .tc .vmem S5000x128 .f32) (harg3 : arg3.IsWhole)
    (x0 : Vec F S5000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out2_2 x0 x1)) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover2_2 _)

/-- The proof data of this pipeline on core c: the arrays as the region finds them; after the body at point t each
    input's buffer at its block and the output's at `out2_2` of the two input blocks; the invariant is the scoped
    rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) :
    (dat2 V c).after 2 t = out2_2 (iblk2 V c 0 t) (iblk2 V c 1 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-- What the body is called with at point t, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t))

/-- The body at any point: the inputs' buffers hold their blocks, so `sound_kernel2` applies; the invariant and
    the core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).Φ t.succ = (dat2 V c).Φ t.castSucc from rfl,
    show (dat2 V c).owesAt () t.succ = (dat2 V c).owesAt () t.castSucc from rfl,
    after2_0, after2_1, after2_2]
  iintro ⟨HΦ, Ho, ⟨%d0, H0⟩, ⟨%d1, H1⟩, ⟨%d2, H2⟩⟩
  iapply (sound_kernel2 c Set.univ _ _ _ _ _ _ _ (iblk2 V c 0 t) (iblk2 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.FrameIdeal.Region3.lean ====
/-
  Region 3 of the program (a pallas_call on a grid of 20 row blocks): the frame half of its certificate, at any
  float instance. Window 0 is the row block of the first operand (5000 rows), window 1 the second operand, resident
  whole, window 2 the output's row block. The body loads both input blocks, reads the output buffer once without
  using the value, and stores one payload over the whole output block; so after the body the output's buffer is a
  function of the two input blocks alone, the inputs' buffers are as found, and nothing else is touched.
  Stated at a parameter V, the buffers' contents when the region is entered.
-/
import proofs.«415668_j39204461478219_1_alg».proof.Proof.Gen.KernelIdeal.Launch
import proofs.«415668_j39204461478219_1_alg».proof.Proof.Gen.KernelIdeal.Skeleton
import proofs.«415668_j39204461478219_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, whether the point fetches it or
    not: an unfetched window's block index has not moved since the point that did. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- The whole block of each window, as a rectangle. -/
abbrev rIn3_0 : Rect S5000x128 := Rect.unit (s := S5000x128) ![0, 0] S5000x128.size inb_S5000x128_S5000x128_0_0
abbrev rIn3_1 : Rect S1x128 := Rect.unit (s := S1x128) ![0, 0] S1x128.size inb_S1x128_S1x128_0_0
abbrev rOut3 : Rect S5000x128 := Rect.unit (s := S5000x128) ![0, 0] S5000x128.size inb_S5000x128_S5000x128_0_0

/-- What the body leaves in the output window's buffer, from the two input blocks: its one store, over the whole
    block, of the payload of the two loaded blocks. -/
def out3_2 (x0 : Vec F S5000x128 .f32) (x1 : Vec F S1x128 .f32) : Vec F S5000x128 .f32 :=
  View.canon [⟨rOut3, k3_pay1 (View.ld x0 rIn3_0) (View.ld x1 rIn3_1)⟩]

/-- The one store covers the output block. -/
theorem cover3_2 (p0 : Vec F S5000x128 .f32) (y : S5000x128.Idx) :
    ∃ pc ∈ ([⟨rOut3, p0⟩] : List (View.Piece (Elt F) S5000x128 .f32)), y ∈ pc.1.set :=
  View.cover_of_tiled [⟨rOut3, p0⟩] S5000x128.size (by rfl) y

set_option maxHeartbeats 1000000 in
/-- The body on whole staging buffers, the inputs' at contents x0 and x1 and the output's at anything, runs to a
    state with the inputs' as they were and the output's at `out3_2 x0 x1`. -/
theorem sound_kernel3 (c : Dev nD) (E : Set ℕ) (i : grid3.Coords) (arg1 : Memref sig .tc .vmem S5000x128 .f32) (harg1 : arg1.IsWhole)
    (arg2 : Memref sig .tc .vmem S1x128 .f32) (harg2 : arg2.IsWhole) (arg3 : Memref sig .tc .vmem S5000x128 .f32) (harg3 : arg3.IsWhole)
    (x0 : Vec F S5000x128 .f32) (x1 : Vec F S1x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1
            ∗ owns (c : Thread nD τ) arg3 fullShare (out3_2 x0 x1)) -∗ K ⟨⟩))
      ⊢ wp frame (wpE (defs₀ (F := F)) Variants.none c none) E (cc3__bias_relu_kernel i arg1 harg1 arg2 harg2 arg3 harg3) K := by
  simp only [cc3__bias_relu_kernel_eq_skeleton]; unfold cc3__bias_relu_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-- The proof data of this pipeline on core c: the arrays as the region finds them; after the body at point t each
    input's buffer at its block and the output's at `out3_2` of the two input blocks; the invariant is the scoped
    rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) :
    (dat3 V c).after 2 t = out3_2 (iblk3 V c 0 t) (iblk3 V c 1 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-- What the body is called with at point t, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' buffers hold their blocks, so `sound_kernel3` applies; the invariant and
    the core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.FrameIdeal.Region4.lean ====
/-
  The pooling region of the program (a pallas_call on a grid of 25 blocks of 4000 nodes): the frame half of its
  certificate, at any float instance. Window 0 is the block of the node-to-graph indicator matrix (4000 rows of 64),
  window 1 the block of node features (4000 rows of 128), window 2 the output (64 rows of 128, one block for the whole
  grid, written back after the last point). The kernel also takes a scratch buffer of the output's shape, which it
  carries from point to point: at the first point it is reset to zero, at every point the product of the transposed
  indicator block with the feature block is added to it, and at the last point it is copied to the output's buffer.
  So the scratch after point n is a fold over the points up to n of one payload, and the output's buffer, stored only
  at the last point, is the scratch there. Stated at a parameter V, the buffers' contents when the region is entered.
-/
import proofs.«415668_j39204461478219_1_alg».proof.Proof.Gen.KernelIdeal.Launch
import proofs.«415668_j39204461478219_1_alg».proof.Proof.Gen.KernelIdeal.Skeleton
import proofs.«415668_j39204461478219_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- The scratch buffer, whole. -/
abbrev scM4 : Memref sig .tc .vmem S64x128 .f32 := Memref.whole cc4_scratch0

/-- What the scratch holds after point n: at the first point the accumulation payload over the reset value, at a
    later point the accumulation payload over what the point before left. -/
def sc4 (c : Dev nD) : (n : ℕ) → n < cfg4.N → Vec F S64x128 .f32
  | 0, h => k4_pay2 (iblk4 V c 0 ⟨0, h⟩) (iblk4 V c 1 ⟨0, h⟩) (k4_pay1 (F := F))
  | n + 1, h => k4_pay2 (iblk4 V c 0 ⟨n + 1, h⟩) (iblk4 V c 1 ⟨n + 1, h⟩) (sc4 c n (Nat.lt_of_succ_lt h))

theorem sc4_zero (c : Dev nD) (h : 0 < cfg4.N) :
    sc4 V c 0 h = k4_pay2 (iblk4 V c 0 ⟨0, h⟩) (iblk4 V c 1 ⟨0, h⟩) (k4_pay1 (F := F)) := rfl
theorem sc4_succ (c : Dev nD) (n : ℕ) (h : n + 1 < cfg4.N) :
    sc4 V c (n + 1) h = k4_pay2 (iblk4 V c 0 ⟨n + 1, h⟩) (iblk4 V c 1 ⟨n + 1, h⟩) (sc4 V c n (Nat.lt_of_succ_lt h)) := rfl

/-- The invariant between points: before the first point the scoped rest and the generator register, untouched;
    after point n the scratch at `sc4 n`, the other scoped buffers unopened, the generator register at some state. -/
def Phi4 (c : Dev nD) : (n : ℕ) → n ≤ cfg4.N → sProp 𝕄
  | 0, _ => Pipeline.ΦA spec4 c
  | n + 1, hn => iprop(owns (c : Thread nD τ) scM4 fullShare (sc4 V c n hn)
      ∗ Pipeline.scopedRestBut (Ix := Unit) (Name := ℕ) (U := UR sig nD τ) (Lvl := ℕ) (Val := Elt F) spec4 c [cc4_scratch0]
      ∗ (∃ r, prngReg c r))

theorem Phi4_zero (c : Dev nD) (h : 0 ≤ cfg4.N) : Phi4 V c 0 h = Pipeline.ΦA spec4 c := rfl
theorem Phi4_succ (c : Dev nD) (n : ℕ) (hn : n < cfg4.N) :
    Phi4 V c (n + 1) hn = iprop(owns (c : Thread nD τ) scM4 fullShare (sc4 V c n hn)
      ∗ Pipeline.scopedRestBut (Ix := Unit) (Name := ℕ) (U := UR sig nD τ) (Lvl := ℕ) (Val := Elt F) spec4 c [cc4_scratch0]
      ∗ (∃ r, prngReg c r)) := rfl

/-- The proof data of this pipeline on core c: the arrays as the region finds them; after the body at point t each
    input's buffer at its block and the output's (read only where it is stored, at the last point) at the scratch's
    contents there; the invariant `Phi4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => sc4 V c t.val t.isLt
  Φ t := Phi4 V c t.val (Nat.le_of_lt_succ t.isLt)
  q _ := fullShare
  owed _ := 0

theorem A_eq4 (c : Dev nD) (w : Fin cfg4.W) : (dat4 V c).A w = V c (Pipeline.arrRef spec4 w) := by
  dsimp only [dat4]
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = sc4 V c t.val t.isLt := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- The condition of the body's first branch (the reset of the scratch), from the grid coordinate. -/
abbrev cond4_0 (i : grid4.Coords) : Prop :=
  (Scalar.cmpi .ne (Scalar.extui (Scalar.cmpi .eq (BitVec.ofNat 32 (i 0).val) 0#32)) 0#32) = 1#1
/-- It holds at the first point only. -/
theorem hcond4_0 : ∀ t : Fin cfg4.N, cond4_0 (grid4.coords t) ↔ t.val = 0 :=
  (by decide +kernel : ∀ t : Fin grid4.N, cond4_0 (grid4.coords t) ↔ t.val = 0)
/-- The condition of the body's second branch (the copy of the scratch to the output). -/
abbrev cond4_1 (i : grid4.Coords) : Prop := k4_cond2 i = 1#1
/-- It holds at the last point only. -/
theorem hcond4_1 : ∀ t : Fin cfg4.N, cond4_1 (grid4.coords t) ↔ t.val = 24 :=
  (by decide +kernel : ∀ t : Fin grid4.N, cond4_1 (grid4.coords t) ↔ t.val = 24)

/-- The zero offsets, as a constant function. -/
theorem hz4 : (![0, 0] : Fin 2 → Nat) = fun _ => 0 := funext fun a => by fin_cases a <;> rfl

/-- A list of stores whose last is over the whole block covers the block. -/
theorem cover4 (w : Vec F S64x128 .f32) (L : List (View.Piece (Elt F) S64x128 .f32)) (y : S64x128.Idx) :
    ∃ pc ∈ ((⟨Rect.unit (s := S64x128) ![0, 0] S64x128.size inb_S64x128_S64x128_0_0, w⟩ : View.Piece (Elt F) S64x128 .f32) :: L), y ∈ pc.1.set :=
  ⟨_, List.mem_cons_self, View.mem_set_unit_zero (S := S64x128) hz4 inb_S64x128_S64x128_0_0 y⟩

set_option maxHeartbeats 1000000 in
/-- The body at a middle point, on whole buffers: the inputs' at x0 and x1, the scratch at s; it runs to the inputs'
    as they were and the scratch at the accumulation payload over s. The output's buffer is not touched. -/
theorem sound_kernel4_B (c : Dev nD) (E : Set ℕ) (i : grid4.Coords)
    (arg1 : Memref sig .tc .vmem S4000x64 .bf16) (harg1 : arg1.IsWhole)
    (arg2 : Memref sig .tc .vmem S4000x128 .f32) (harg2 : arg2.IsWhole)
    (arg3 : Memref sig .tc .vmem S64x128 .f32) (harg3 : arg3.IsWhole)
    (arg4 : Memref sig .tc .vmem S64x128 .f32) (harg4 : arg4.IsWhole)
    (hc0 : ¬cond4_0 i) (hc1 : ¬cond4_1 i)
    (x0 : Vec F S4000x64 .bf16) (x1 : Vec F S4000x128 .f32) (s : Vec F S64x128 .f32) (K : PUnit → sProp 𝕄) :
    iprop(owns (c : Thread nD τ) arg1 fullShare x0 ∗ owns (c : Thread nD τ) arg2 fullShare x1 ∗ owns (c : Thread nD τ) arg4 fullShare s
        ∗ (iprop(owns (c : Thread nD τ) arg1 fullShare x0 ∗ owns (c : Thread nD τ) arg2 fullShare x1
            ∗ owns (c : Thread nD τ) arg4 fullShare (k4_pay2 x0 x1 s)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H3
  ipureintro
  rw [View.read_writes_eq_canon _ _ _ (cover4 _ _), View.canon_unit_zero hz4]
  simp only [View.readAt_eq_ld, View.ld_unit_zero (S := S4000x64) hz4, View.ld_unit_zero (S := S4000x128) hz4,
    View.ld_unit_zero (S := S64x128) hz4]

set_option maxHeartbeats 1000000 in
/-- The body at the first point: the scratch, at anything, is reset and accumulated into once. -/
theorem sound_kernel4_A (c : Dev nD) (E : Set ℕ) (i : grid4.Coords)
    (arg1 : Memref sig .tc .vmem S4000x64 .bf16) (harg1 : arg1.IsWhole)
    (arg2 : Memref sig .tc .vmem S4000x128 .f32) (harg2 : arg2.IsWhole)
    (arg3 : Memref sig .tc .vmem S64x128 .f32) (harg3 : arg3.IsWhole)
    (arg4 : Memref sig .tc .vmem S64x128 .f32) (harg4 : arg4.IsWhole)
    (hc0 : cond4_0 i) (hc1 : ¬cond4_1 i)
    (x0 : Vec F S4000x64 .bf16) (x1 : Vec F S4000x128 .f32) (K : PUnit → sProp 𝕄) :
    iprop(owns (c : Thread nD τ) arg1 fullShare x0 ∗ owns (c : Thread nD τ) arg2 fullShare x1 ∗ (∃ d, owns (c : Thread nD τ) arg4 fullShare d)
        ∗ (iprop(owns (c : Thread nD τ) arg1 fullShare x0 ∗ owns (c : Thread nD τ) arg2 fullShare x1
            ∗ owns (c : Thread nD τ) arg4 fullShare (k4_pay2 x0 x1 (k4_pay1 (F := F)))) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%d3, %f3, -, H3⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact H3
  ipureintro
  sl_unfold_words
  rw [View.read_writes_eq_canon _ _ _ (cover4 _ _), View.canon_cons_unit_zero (S := S64x128) hz4]
  simp only [View.readAt_eq_ld, View.ld_unit_zero (S := S4000x64) hz4, View.ld_unit_zero (S := S4000x128) hz4,
    View.ld_unit_zero (S := S64x128) hz4, View.readCov_unit_zero (S := S64x128) _ hz4]

set_option maxHeartbeats 1000000 in
/-- The body at the last point: the scratch is accumulated into and copied whole to the output's buffer. -/
theorem sound_kernel4_C (c : Dev nD) (E : Set ℕ) (i : grid4.Coords)
    (arg1 : Memref sig .tc .vmem S4000x64 .bf16) (harg1 : arg1.IsWhole)
    (arg2 : Memref sig .tc .vmem S4000x128 .f32) (harg2 : arg2.IsWhole)
    (arg3 : Memref sig .tc .vmem S64x128 .f32) (harg3 : arg3.IsWhole)
    (arg4 : Memref sig .tc .vmem S64x128 .f32) (harg4 : arg4.IsWhole)
    (hc0 : ¬cond4_0 i) (hc1 : cond4_1 i)
    (x0 : Vec F S4000x64 .bf16) (x1 : Vec F S4000x128 .f32) (s : Vec F S64x128 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare s
        ∗ (iprop(owns (c : Thread nD τ) arg1 fullShare x0 ∗ owns (c : Thread nD τ) arg2 fullShare x1
            ∗ owns (c : Thread nD τ) arg3 fullShare (k4_pay2 x0 x1 s)
            ∗ owns (c : Thread nD τ) arg4 fullShare (k4_pay2 x0 x1 s)) -∗ K ⟨⟩))
      ⊢ wp frame (wpE (defs₀ (F := F)) Variants.none c none) E (cc4__pool_kernel i arg1 harg1 arg2 harg2 arg3 harg3 arg4 harg4) K := by
  simp only [cc4__pool_kernel_eq_skeleton]; unfold cc4__pool_kernel_skel
  unfold owns
  iintro ⟨⟨%f0, %hf0, H0⟩, ⟨%f1, %hf1, H1⟩, ⟨%d2, %f2, -, H2⟩, ⟨%f3, %hf3, H3⟩, Hk⟩
  subst hf0; subst hf1; subst hf3
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    sl_unfold_words
    rw [View.read_writes_eq_canon _ _ _ (cover4 _ _), View.canon_unit_zero hz4, View.readCov_unit_zero (S := S64x128) _ hz4]
    simp only [View.readAt_eq_ld, View.ld_unit_zero (S := S4000x64) hz4, View.ld_unit_zero (S := S4000x128) hz4,
    View.ld_unit_zero (S := S64x128) hz4]
  iexists _; isplitr
  swap; · iexact H3
  ipureintro
  sl_unfold_words
  rw [View.read_writes_eq_canon _ _ _ (cover4 _ _), View.canon_unit_zero hz4]
  simp only [View.readAt_eq_ld, View.ld_unit_zero (S := S4000x64) hz4, View.ld_unit_zero (S := S4000x128) hz4,
    View.ld_unit_zero (S := S64x128) hz4]

/-! ## Where the windows are idle -/

/-- The inputs are never idle. -/
theorem liveAt4_0 : ∀ t : Fin cfg4.N, cfg4.idle 0 (grid4.coords t) = false := fun _ => rfl
theorem liveAt4_1 : ∀ t : Fin cfg4.N, cfg4.idle 1 (grid4.coords t) = false := fun _ => rfl
/-- The output is idle wherever the copy's condition fails, and is not written back there; it is live where it
    holds. -/
theorem idleAt4_2 : ∀ t : Fin cfg4.N, ¬cond4_1 (grid4.coords t) → cfg4.idle 2 (grid4.coords t) = true := by decide +kernel
theorem noFlush4_2 : ∀ t : Fin cfg4.N, ¬cond4_1 (grid4.coords t) → (cfg4.win 2).flush t = false := by decide +kernel
theorem liveAt4_2 : ∀ t : Fin cfg4.N, cond4_1 (grid4.coords t) → cfg4.idle 2 (grid4.coords t) = false := by decide +kernel

/-! ## The invariant and the scratch's contents, by position -/

/-- The region's entry invariant with the scratch named: the scratch at some contents, the other scoped buffers
    unopened, the generator register at some state. -/
theorem PhiA4_eq (c : Dev nD) :
    (Pipeline.ΦA spec4 c : sProp 𝕄)
      = iprop(iprop(iprop((∃ d, owns (c : Thread nD τ) scM4 fullShare d)) ∗ Pipeline.scopedRestBut (Ix := Unit) (Name := ℕ) (U := UR sig nD τ) (Lvl := ℕ) (Val := Elt F) spec4 c [cc4_scratch0])
          ∗ (∃ r, prngReg c r)) := by
  unfold Pipeline.ΦA; rw [scopedRest4_split]; simp only [scM4, owns_whole]; try rfl

theorem Phi4_first (c : Dev nD) (n : ℕ) (h : n ≤ cfg4.N) (hz : n = 0) : Phi4 V c n h = Pipeline.ΦA spec4 c := by
  subst hz; rfl

theorem Phi4_pos (c : Dev nD) (n : ℕ) (h : n ≤ cfg4.N) (hz : n ≠ 0) :
    Phi4 V c n h = iprop(owns (c : Thread nD τ) scM4 fullShare (sc4 V c (n - 1) (by omega))
      ∗ Pipeline.scopedRestBut (Ix := Unit) (Name := ℕ) (U := UR sig nD τ) (Lvl := ℕ) (Val := Elt F) spec4 c [cc4_scratch0]
      ∗ (∃ r, prngReg c r)) := by
  cases n with
  | zero => exact absurd rfl hz
  | succ n => rfl

theorem sc4_first (c : Dev nD) (t : Fin cfg4.N) (h0 : t.val = 0) :
    sc4 V c t.val t.isLt = k4_pay2 (iblk4 V c 0 t) (iblk4 V c 1 t) (k4_pay1 (F := F)) := by
  obtain ⟨n, hn⟩ := t
  cases n with
  | zero => rfl
  | succ n => exact absurd h0 (Nat.succ_ne_zero n)

theorem sc4_later (c : Dev nD) (t : Fin cfg4.N) (h0 : t.val ≠ 0) :
    sc4 V c t.val t.isLt = k4_pay2 (iblk4 V c 0 t) (iblk4 V c 1 t) (sc4 V c (t.val - 1) (by omega)) := by
  obtain ⟨n, hn⟩ := t
  cases n with
  | zero => exact absurd rfl h0
  | succ n => rfl

/-! ## The body obligation, at a generic point -/

/-- What the body is called with at point t, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4000000 in
/-- The body at any point: the inputs' buffers hold their blocks; the point's position says which of the two
    conditions hold, so which of the three triples applies; the invariant hands the body the scratch at what the
    point before left (at anything at the first point) and takes it back at this point's contents; the output's
    buffer is handed back as found except at the last point, where it leaves at the scratch's contents. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = Phi4 V c (t.val + 1) t.isLt from rfl, Phi4_succ]
  rw [show (dat4 V c).Φ t.castSucc = Phi4 V c t.val (Nat.le_of_lt t.isLt) from rfl]
  rw [show (dat4 V c).leavesExact 0 t = owns (c : Thread nD τ) (st4_0 t) fullShare ((dat4 V c).after 0 t) from by
    unfold Dat.leavesExact; rw [liveAt4_0 t], after4_0]
  rw [show (dat4 V c).leavesExact 1 t = owns (c : Thread nD τ) (st4_1 t) fullShare ((dat4 V c).after 1 t) from by
    unfold Dat.leavesExact; rw [liveAt4_1 t], after4_1]
  have hN : t.val < 25 := lt_of_lt_of_eq t.isLt (show cfg4.N = 25 from N_4)
  by_cases h0 : t.val = 0
  · have hc0 : cond4_0 (grid4.coords t) := (hcond4_0 t).mpr h0
    have hc1 : ¬cond4_1 (grid4.coords t) := fun h => by have := (hcond4_1 t).mp h; omega
    rw [Dat.leavesExact_idle (dat4 V c) 2 t (idleAt4_2 t hc1) (noFlush4_2 t hc1)]
    rw [Phi4_first V c _ _ h0, PhiA4_eq, sc4_first V c t h0]
    iintro ⟨⟨⟨HS, HR⟩, Hg⟩, Ho, ⟨%d0, H0⟩, ⟨%d1, H1⟩, H2⟩
    iapply (sound_kernel4_A c Set.univ _ _ _ _ _ _ _ _ _ hc0 hc1 (iblk4 V c 0 t) (iblk4 V c 1 t) _)
    isplitl [H0]; · iexact H0
    isplitl [H1]; · iexact H1
    isplitl [HS]; · iexact HS
    iintro ⟨H0, H1, HS⟩
    isplitl [HS HR Hg]
    · isplitl [HS]; · iexact HS
      isplitl [HR]; · iexact HR
      iexact Hg
    isplitl [Ho]; · iexact Ho
    isplitl [H0]; · iexact H0
    isplitl [H1]; · iexact H1
    iexact H2
  · have hc0 : ¬cond4_0 (grid4.coords t) := fun h => h0 ((hcond4_0 t).mp h)
    rw [Phi4_pos V c _ _ h0, sc4_later V c t h0]
    by_cases h1 : t.val = 24
    · have hc1 : cond4_1 (grid4.coords t) := (hcond4_1 t).mpr h1
      rw [show (dat4 V c).leavesExact 2 t = owns (c : Thread nD τ) (st4_2 t) fullShare ((dat4 V c).after 2 t) from by
        unfold Dat.leavesExact; rw [liveAt4_2 t hc1], after4_2, sc4_later V c t h0]
      iintro ⟨⟨HS, HR, Hg⟩, Ho, ⟨%d0, H0⟩, ⟨%d1, H1⟩, ⟨%d2, H2⟩⟩
      iapply (sound_kernel4_C c Set.univ _ _ _ _ _ _ _ _ _ hc0 hc1 (iblk4 V c 0 t) (iblk4 V c 1 t) (sc4 V c (t.val - 1) (by omega)) _)
      isplitl [H0]; · iexact H0
      isplitl [H1]; · iexact H1
      isplitl [H2]; · iexists _; iexact H2
      isplitl [HS]; · iexact HS
      iintro ⟨H0, H1, H2, HS⟩
      isplitl [HS HR Hg]
      · isplitl [HS]; · iexact HS
        isplitl [HR]; · iexact HR
        iexact Hg
      isplitl [Ho]; · iexact Ho
      isplitl [H0]; · iexact H0
      isplitl [H1]; · iexact H1
      iexact H2
    · have hc1 : ¬cond4_1 (grid4.coords t) := fun h => h1 ((hcond4_1 t).mp h)
      rw [Dat.leavesExact_idle (dat4 V c) 2 t (idleAt4_2 t hc1) (noFlush4_2 t hc1)]
      iintro ⟨⟨HS, HR, Hg⟩, Ho, ⟨%d0, H0⟩, ⟨%d1, H1⟩, H2⟩
      iapply (sound_kernel4_B c Set.univ _ _ _ _ _ _ _ _ _ hc0 hc1 (iblk4 V c 0 t) (iblk4 V c 1 t) (sc4 V c (t.val - 1) (by omega)) _)
      isplitl [H0]; · iexact H0
      isplitl [H1]; · iexact H1
      isplitl [HS]; · iexact HS
      iintro ⟨H0, H1, HS⟩
      isplitl [HS HR Hg]
      · isplitl [HS]; · iexact HS
        isplitl [HR]; · iexact HR
        iexact Hg
      isplitl [Ho]; · iexact Ho
      isplitl [H0]; · iexact H0
      isplitl [H1]; · iexact H1
      iexact H2

/-- The body obligation, at every point: by the three cases of the body's two conditions (the first point, a middle
    point, the last point). -/
theorem body_obligation4 (c : Dev nD) : BodyObligation (dat4 (F := F) V c) (defs₀ (F := F)) Variants.none () Set.univ := fun t => by
  rw [bigSep_W4, bigSep_W4]
  exact sound_body4 V c t

/-- The invariant before the first point is the scoped rest and the generator register. -/
theorem hin4 (c : Dev nD) : Pipeline.ΦA spec4 c ⊢ (dat4 V c).Φ 0 := by
  rw [show (dat4 V c).Φ 0 = Phi4 V c 0 (Nat.zero_le _) from rfl, Phi4_zero]

/-- The invariant after the last point gives the scoped rest (the scratch put back among it) and the generator
    register. -/
theorem hout4 (c : Dev nD) : (dat4 V c).Φ (Fin.last cfg4.N) ⊢ Pipeline.ΦA spec4 c := by
  rw [show (dat4 V c).Φ (Fin.last cfg4.N) = Phi4 V c (Fin.last cfg4.N).val (Nat.le_of_lt_succ (Fin.last cfg4.N).isLt) from rfl,
    Phi4_pos V c _ _ (by rw [Fin.val_last]; have : cfg4.N = 25 := N_4; omega), PhiA4_eq]
  iintro ⟨HS, HR, Hg⟩
  isplitl [HS HR]
  · isplitl [HS]
    · iexists _; iexact HS
    iexact HR
  iexact Hg

end Cert.KernelIdeal.Hand

end
-- ==== Proof.FrameIdeal.Region5.lean ====
/-
  The last region of the program (a pallas_call on a grid of one point): the frame half of its certificate, at any
  float instance. Windows 0, 1 and 2 are the three operands, each resident whole (the pooled features, the head's
  weights, the head's bias as a row), window 3 the output. The body loads the three operands, reads the output buffer
  once without using the value, and stores one payload over the whole output; so after the body the output's buffer
  is a function of the three operands alone, the operands' buffers are as found, and nothing else is touched.
  Stated at a parameter V, the buffers' contents when the region is entered.
-/
import proofs.«415668_j39204461478219_1_alg».proof.Proof.Gen.KernelIdeal.Launch
import proofs.«415668_j39204461478219_1_alg».proof.Proof.Gen.KernelIdeal.Skeleton
import proofs.«415668_j39204461478219_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-- Window w's block at point t, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at the point. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- The whole block of each window, as a rectangle. -/
abbrev rIn5_0 : Rect S64x128 := Rect.unit (s := S64x128) ![0, 0] S64x128.size inb_S64x128_S64x128_0_0
abbrev rIn5_1 : Rect S128x32 := Rect.unit (s := S128x32) ![0, 0] S128x32.size inb_S128x32_S128x32_0_0
abbrev rIn5_2 : Rect S1x32 := Rect.unit (s := S1x32) ![0, 0] S1x32.size inb_S1x32_S1x32_0_0
abbrev rOut5 : Rect S64x32 := Rect.unit (s := S64x32) ![0, 0] S64x32.size inb_S64x32_S64x32_0_0

/-- What the body leaves in the output window's buffer, from the three operands: its one store, over the whole
    block, of the payload of the three loaded blocks. -/
def out5_3 (x0 : Vec F S64x128 .f32) (x1 : Vec F S128x32 .f32) (x2 : Vec F S1x32 .f32) : Vec F S64x32 .f32 :=
  View.canon [⟨rOut5, k5_pay1 (View.ld x0 rIn5_0) (View.ld x1 rIn5_1) (View.ld x2 rIn5_2)⟩]

/-- The one store covers the output block. -/
theorem cover5_3 (p0 : Vec F S64x32 .f32) (y : S64x32.Idx) :
    ∃ pc ∈ ([⟨rOut5, p0⟩] : List (View.Piece (Elt F) S64x32 .f32)), y ∈ pc.1.set :=
  View.cover_of_tiled [⟨rOut5, p0⟩] S64x32.size (by rfl) y

set_option maxHeartbeats 1000000 in
/-- The body on whole staging buffers, the operands' at contents x0, x1, x2 and the output's at anything, runs to a
    state with the operands' as they were and the output's at `out5_3 x0 x1 x2`. -/
theorem sound_kernel5 (c : Dev nD) (E : Set ℕ) (i : grid5.Coords) (arg1 : Memref sig .tc .vmem S64x128 .f32) (harg1 : arg1.IsWhole)
    (arg2 : Memref sig .tc .vmem S128x32 .f32) (harg2 : arg2.IsWhole) (arg3 : Memref sig .tc .vmem S1x32 .f32) (harg3 : arg3.IsWhole)
    (arg4 : Memref sig .tc .vmem S64x32 .f32) (harg4 : arg4.IsWhole)
    (x0 : Vec F S64x128 .f32) (x1 : Vec F S128x32 .f32) (x2 : Vec F S1x32 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out5_3 x0 x1 x2)) -∗ K ⟨⟩))
      ⊢ wp frame (wpE (defs₀ (F := F)) Variants.none c none) E (cc5__final_kernel i arg1 harg1 arg2 harg2 arg3 harg3 arg4 harg4) K := by
  simp only [cc5__final_kernel_eq_skeleton]; unfold cc5__final_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-- The proof data of this pipeline on core c: the arrays as the region finds them; after the body each operand's
    buffer at its block and the output's at `out5_3` of the three; the invariant is the scoped rest and the generator
    register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem A_eq5 (c : Dev nD) (w : Fin cfg5.W) : (dat5 V c).A w = V c (Pipeline.arrRef spec5 w) := by
  dsimp only [dat5]
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) :
    (dat5 V c).after 3 t = out5_3 (iblk5 V c 0 t) (iblk5 V c 1 t) (iblk5 V c 2 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-- What the body is called with at the point, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at the point: the operands' buffers hold their blocks, so `sound_kernel5` applies; the invariant and
    the core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ _ _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body obligation, at the point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.FrameIdeal.Run.lean ====
/-
  The run of the whole program: its six kernel regions and the host stretches between them, as one weakly fair
  execution from the launch memory. Between two items every unscoped buffer holds a named valuation: the launch
  contents, then the host operations' results folded over them, then — after a region — the region's output array at
  what its write-backs leave and every other buffer as before. Each region is entered from the valuation before it
  and left at the one after it; the core's generator register and its dues ride along. From the run, every unscoped
  buffer's final contents are the last valuation's: the arguments are as launched (the frame), and the result is the
  last region's output array.
-/
import proofs.«415668_j39204461478219_1_alg».proof.Proof.FrameIdeal.Region0
import proofs.«415668_j39204461478219_1_alg».proof.Proof.FrameIdeal.Region1
import proofs.«415668_j39204461478219_1_alg».proof.Proof.FrameIdeal.Region2
import proofs.«415668_j39204461478219_1_alg».proof.Proof.FrameIdeal.Region3
import proofs.«415668_j39204461478219_1_alg».proof.Proof.FrameIdeal.Region4
import proofs.«415668_j39204461478219_1_alg».proof.Proof.FrameIdeal.Region5
import proofs.«415668_j39204461478219_1_alg».proof.Proof.FrameIdeal.RunCond

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- A valuation read at the TensorCore's references. -/
abbrev Vr (W : Dev nD → Valuation τ sig (Elt F)) : (c : Dev nD) → (b : Ref sig .tc) → Buf (Elt F) ((c : Thread nD τ).loc b) :=
  fun c b => W c b

/-! ## The buffers' contents between items -/

/-- After the first host stretch (region 0's entry). -/
abbrev U1 : Dev nD → Valuation τ sig (Elt F) := fun c => V1 m c
/-- Region 0's output array after the region. -/
def o2 (c : Dev nD) : Buf (Elt F) ((c : Thread nD τ).loc main_v29) := (dat0 (Vr (U1 m)) c).arrAt 2 cfg0.N
/-- After region 0. -/
def U2 (c : Dev nD) : Valuation τ sig (Elt F) := Function.update (U1 m c) main_v29 (o2 m c)
/-- After the second host stretch (region 1's entry). -/
abbrev U3 : Dev nD → Valuation τ sig (Elt F) := fun c => StableHlo.after hostOps1 (U2 m c)
def o4 (c : Dev nD) : Buf (Elt F) ((c : Thread nD τ).loc main_v44) := (dat1 (Vr (U3 m)) c).arrAt 2 cfg1.N
/-- After region 1 (region 2's entry). -/
def U4 (c : Dev nD) : Valuation τ sig (Elt F) := Function.update (U3 m c) main_v44 (o4 m c)
def o5 (c : Dev nD) : Buf (Elt F) ((c : Thread nD τ).loc main_v45) := (dat2 (Vr (U4 m)) c).arrAt 2 cfg2.N
/-- After region 2. -/
def U5 (c : Dev nD) : Valuation τ sig (Elt F) := Function.update (U4 m c) main_v45 (o5 m c)
/-- After the third host stretch (region 3's entry). -/
abbrev U6 : Dev nD → Valuation τ sig (Elt F) := fun c => StableHlo.after hostOps3 (U5 m c)
def o7 (c : Dev nD) : Buf (Elt F) ((c : Thread nD τ).loc main_v60) := (dat3 (Vr (U6 m)) c).arrAt 2 cfg3.N
/-- After region 3. -/
def U7 (c : Dev nD) : Valuation τ sig (Elt F) := Function.update (U6 m c) main_v60 (o7 m c)
/-- After the fourth host stretch (region 4's entry). -/
abbrev U8 : Dev nD → Valuation τ sig (Elt F) := fun c => StableHlo.after hostOps4 (U7 m c)
def o9 (c : Dev nD) : Buf (Elt F) ((c : Thread nD τ).loc main_v68) := (dat4 (Vr (U8 m)) c).arrAt 2 cfg4.N
/-- After region 4. -/
def U9 (c : Dev nD) : Valuation τ sig (Elt F) := Function.update (U8 m c) main_v68 (o9 m c)
/-- After the last host stretch (region 5's entry). -/
abbrev U10 : Dev nD → Valuation τ sig (Elt F) := fun c => StableHlo.after hostOps5 (U9 m c)
def o11 (c : Dev nD) : Buf (Elt F) ((c : Thread nD τ).loc main_v77) := (dat5 (Vr (U10 m)) c).arrAt 3 cfg5.N
/-- After region 5: the end. -/
def U11 (c : Dev nD) : Valuation τ sig (Elt F) := Function.update (U10 m c) main_v77 (o11 m c)

/-- What the regions leave in the buffers they may change, as the table the generated valuations are written over:
    entry (J, r) is read only at the six pairs below; elsewhere it is the launch contents. -/
def outs : Outs (F := F) := fun J r c =>
  if h2 : r = main_v29 then h2 ▸ o2 m c
  else if h4 : r = main_v44 then h4 ▸ o4 m c
  else if h5 : r = main_v45 then h5 ▸ o5 m c
  else if h7 : r = main_v60 then h7 ▸ o7 m c
  else if h9 : r = main_v68 then h9 ▸ o9 m c
  else if h11 : r = main_v77 then h11 ▸ o11 m c
  else m ((c : Thread nD τ).loc r)

theorem outs_2 (c : Dev nD) : outs m 2 main_v29 c = o2 m c := by unfold outs; rw [dif_pos rfl]
theorem outs_4 (c : Dev nD) : outs m 4 main_v44 c = o4 m c := by
  unfold outs; rw [dif_neg (by decide), dif_pos rfl]
theorem outs_5 (c : Dev nD) : outs m 5 main_v45 c = o5 m c := by
  unfold outs; rw [dif_neg (by decide), dif_neg (by decide), dif_pos rfl]
theorem outs_7 (c : Dev nD) : outs m 7 main_v60 c = o7 m c := by
  unfold outs; rw [dif_neg (by decide), dif_neg (by decide), dif_neg (by decide), dif_pos rfl]
theorem outs_9 (c : Dev nD) : outs m 9 main_v68 c = o9 m c := by
  unfold outs; rw [dif_neg (by decide), dif_neg (by decide), dif_neg (by decide), dif_neg (by decide), dif_pos rfl]
theorem outs_11 (c : Dev nD) : outs m 11 main_v77 c = o11 m c := by
  unfold outs; rw [dif_neg (by decide), dif_neg (by decide), dif_neg (by decide), dif_neg (by decide), dif_neg (by decide), dif_pos rfl]

/-- The generated valuations over this table are the named ones. -/
theorem V2_eq (c : Dev nD) : V2 m (outs m) c = U2 m c := by
  show Function.update (V1 m c) main_v29 (outs m 2 main_v29 c) = _; rw [outs_2]; rfl
theorem V3_eq (c : Dev nD) : V3 m (outs m) c = U3 m c := by
  show StableHlo.after hostOps1 (V2 m (outs m) c) = _; rw [V2_eq]
theorem V4_eq (c : Dev nD) : V4 m (outs m) c = U4 m c := by
  show Function.update (V3 m (outs m) c) main_v44 (outs m 4 main_v44 c) = _; rw [outs_4, V3_eq]; rfl
theorem V5_eq (c : Dev nD) : V5 m (outs m) c = U5 m c := by
  show Function.update (V4 m (outs m) c) main_v45 (outs m 5 main_v45 c) = _; rw [outs_5, V4_eq]; rfl
theorem V6_eq (c : Dev nD) : V6 m (outs m) c = U6 m c := by
  show StableHlo.after hostOps3 (V5 m (outs m) c) = _; rw [V5_eq]
theorem V7_eq (c : Dev nD) : V7 m (outs m) c = U7 m c := by
  show Function.update (V6 m (outs m) c) main_v60 (outs m 7 main_v60 c) = _; rw [outs_7, V6_eq]; rfl
theorem V8_eq (c : Dev nD) : V8 m (outs m) c = U8 m c := by
  show StableHlo.after hostOps4 (V7 m (outs m) c) = _; rw [V7_eq]
theorem V9_eq (c : Dev nD) : V9 m (outs m) c = U9 m c := by
  show Function.update (V8 m (outs m) c) main_v68 (outs m 9 main_v68 c) = _; rw [outs_9, V8_eq]; rfl
theorem V10_eq (c : Dev nD) : V10 m (outs m) c = U10 m c := by
  show StableHlo.after hostOps5 (V9 m (outs m) c) = _; rw [V9_eq]
theorem V11_eq (c : Dev nD) : V11 m (outs m) c = U11 m c := by
  show Function.update (V10 m (outs m) c) main_v77 (outs m 11 main_v77 c) = _; rw [outs_11, V10_eq]; rfl

/-! ## The proof data family and the thread state -/

/-- Every pipeline's proof data, each at its region's entry contents. -/
def pdats : (p : Fin 6) → (c : Dev nD) → Dat τ (Elt F) Unit ℕ (UR sig nD τ) ℕ (cfgs p) c
  | ⟨0, _⟩ => fun c => dat0 (Vr (U1 m)) c
  | ⟨1, _⟩ => fun c => dat1 (Vr (U3 m)) c
  | ⟨2, _⟩ => fun c => dat2 (Vr (U4 m)) c
  | ⟨3, _⟩ => fun c => dat3 (Vr (U6 m)) c
  | ⟨4, _⟩ => fun c => dat4 (Vr (U8 m)) c
  | ⟨5, _⟩ => fun c => dat5 (Vr (U10 m)) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its dues, at
    nothing. -/
abbrev R (c : Dev nD) : sProp 𝕄 := iprop((∃ r, prngReg c r) ∗ ∃ W, owes (c : Thread nD τ) (0 : CellTallies nD τ sig Unit) W)

/-- At region 0's exit each of its arrays holds what the pipeline leaves: the inputs as entered, the output at
    the folded write-backs. -/
theorem hF0 (c : Dev nD) : ∀ w : Fin cfg0.W, (pdats m 0 c).arrAt w cfg0.N = Vr (U2 m) c (Pipeline.arrRef spec0 w)
  | ⟨0, _⟩ => by
    show (dat0 (Vr (U1 m)) c).arrAt 0 cfg0.N = U2 m c (Proc.devRef .tc (Pipeline.arrRef spec0 0))
    unfold U2
    rw [Function.update_of_ne (StableHlo.devRef_ne_of_ne (by decide)), (dat0 (Vr (U1 m)) c).arrAt_in 0 rfl _]
    exact A_eq0 (Vr (U1 m)) c 0
  | ⟨1, _⟩ => by
    show (dat0 (Vr (U1 m)) c).arrAt 1 cfg0.N = U2 m c (Proc.devRef .tc (Pipeline.arrRef spec0 1))
    unfold U2
    rw [Function.update_of_ne (StableHlo.devRef_ne_of_ne (by decide)), (dat0 (Vr (U1 m)) c).arrAt_in 1 rfl _]
    exact A_eq0 (Vr (U1 m)) c 1
  | ⟨2, _⟩ => by
    show (dat0 (Vr (U1 m)) c).arrAt 2 cfg0.N = U2 m c (Proc.devRef .tc main_v29)
    unfold U2; rw [Function.update_self]; rfl
/-- and every other buffer what it held at entry. -/
theorem hrest0 (c : Dev nD) : ∀ b, b ∉ Finset.univ.image (Pipeline.arrRef spec0) → Vr (U2 m) c b = Vr (U1 m) c b := by
  intro b hb
  have hne : b ≠ main_v29 := fun e => hb (Finset.mem_image.mpr ⟨2, Finset.mem_univ _, e ▸ rfl⟩)
  show U2 m c (Proc.devRef .tc b) = U1 m c (Proc.devRef .tc b)
  unfold U2
  exact Function.update_of_ne (StableHlo.devRef_ne_of_ne hne) _ _

/-- At region 1's exit each of its arrays holds what the pipeline leaves: the inputs as entered, the output at
    the folded write-backs. -/
theorem hF1 (c : Dev nD) : ∀ w : Fin cfg1.W, (pdats m 1 c).arrAt w cfg1.N = Vr (U4 m) c (Pipeline.arrRef spec1 w)
  | ⟨0, _⟩ => by
    show (dat1 (Vr (U3 m)) c).arrAt 0 cfg1.N = U4 m c (Proc.devRef .tc (Pipeline.arrRef spec1 0))
    unfold U4
    rw [Function.update_of_ne (StableHlo.devRef_ne_of_ne (by decide)), (dat1 (Vr (U3 m)) c).arrAt_in 0 rfl _]
    exact A_eq1 (Vr (U3 m)) c 0
  | ⟨1, _⟩ => by
    show (dat1 (Vr (U3 m)) c).arrAt 1 cfg1.N = U4 m c (Proc.devRef .tc (Pipeline.arrRef spec1 1))
    unfold U4
    rw [Function.update_of_ne (StableHlo.devRef_ne_of_ne (by decide)), (dat1 (Vr (U3 m)) c).arrAt_in 1 rfl _]
    exact A_eq1 (Vr (U3 m)) c 1
  | ⟨2, _⟩ => by
    show (dat1 (Vr (U3 m)) c).arrAt 2 cfg1.N = U4 m c (Proc.devRef .tc main_v44)
    unfold U4; rw [Function.update_self]; rfl
/-- and every other buffer what it held at entry. -/
theorem hrest1 (c : Dev nD) : ∀ b, b ∉ Finset.univ.image (Pipeline.arrRef spec1) → Vr (U4 m) c b = Vr (U3 m) c b := by
  intro b hb
  have hne : b ≠ main_v44 := fun e => hb (Finset.mem_image.mpr ⟨2, Finset.mem_univ _, e ▸ rfl⟩)
  show U4 m c (Proc.devRef .tc b) = U3 m c (Proc.devRef .tc b)
  unfold U4
  exact Function.update_of_ne (StableHlo.devRef_ne_of_ne hne) _ _

/-- At region 2's exit each of its arrays holds what the pipeline leaves: the inputs as entered, the output at
    the folded write-backs. -/
theorem hF2 (c : Dev nD) : ∀ w : Fin cfg2.W, (pdats m 2 c).arrAt w cfg2.N = Vr (U5 m) c (Pipeline.arrRef spec2 w)
  | ⟨0, _⟩ => by
    show (dat2 (Vr (U4 m)) c).arrAt 0 cfg2.N = U5 m c (Proc.devRef .tc (Pipeline.arrRef spec2 0))
    unfold U5
    rw [Function.update_of_ne (StableHlo.devRef_ne_of_ne (by decide)), (dat2 (Vr (U4 m)) c).arrAt_in 0 rfl _]
    exact A_eq2 (Vr (U4 m)) c 0
  | ⟨1, _⟩ => by
    show (dat2 (Vr (U4 m)) c).arrAt 1 cfg2.N = U5 m c (Proc.devRef .tc (Pipeline.arrRef spec2 1))
    unfold U5
    rw [Function.update_of_ne (StableHlo.devRef_ne_of_ne (by decide)), (dat2 (Vr (U4 m)) c).arrAt_in 1 rfl _]
    exact A_eq2 (Vr (U4 m)) c 1
  | ⟨2, _⟩ => by
    show (dat2 (Vr (U4 m)) c).arrAt 2 cfg2.N = U5 m c (Proc.devRef .tc main_v45)
    unfold U5; rw [Function.update_self]; rfl
/-- and every other buffer what it held at entry. -/
theorem hrest2 (c : Dev nD) : ∀ b, b ∉ Finset.univ.image (Pipeline.arrRef spec2) → Vr (U5 m) c b = Vr (U4 m) c b := by
  intro b hb
  have hne : b ≠ main_v45 := fun e => hb (Finset.mem_image.mpr ⟨2, Finset.mem_univ _, e ▸ rfl⟩)
  show U5 m c (Proc.devRef .tc b) = U4 m c (Proc.devRef .tc b)
  unfold U5
  exact Function.update_of_ne (StableHlo.devRef_ne_of_ne hne) _ _

/-- At region 3's exit each of its arrays holds what the pipeline leaves: the inputs as entered, the output at
    the folded write-backs. -/
theorem hF3 (c : Dev nD) : ∀ w : Fin cfg3.W, (pdats m 3 c).arrAt w cfg3.N = Vr (U7 m) c (Pipeline.arrRef spec3 w)
  | ⟨0, _⟩ => by
    show (dat3 (Vr (U6 m)) c).arrAt 0 cfg3.N = U7 m c (Proc.devRef .tc (Pipeline.arrRef spec3 0))
    unfold U7
    rw [Function.update_of_ne (StableHlo.devRef_ne_of_ne (by decide)), (dat3 (Vr (U6 m)) c).arrAt_in 0 rfl _]
    exact A_eq3 (Vr (U6 m)) c 0
  | ⟨1, _⟩ => by
    show (dat3 (Vr (U6 m)) c).arrAt 1 cfg3.N = U7 m c (Proc.devRef .tc (Pipeline.arrRef spec3 1))
    unfold U7
    rw [Function.update_of_ne (StableHlo.devRef_ne_of_ne (by decide)), (dat3 (Vr (U6 m)) c).arrAt_in 1 rfl _]
    exact A_eq3 (Vr (U6 m)) c 1
  | ⟨2, _⟩ => by
    show (dat3 (Vr (U6 m)) c).arrAt 2 cfg3.N = U7 m c (Proc.devRef .tc main_v60)
    unfold U7; rw [Function.update_self]; rfl
/-- and every other buffer what it held at entry. -/
theorem hrest3 (c : Dev nD) : ∀ b, b ∉ Finset.univ.image (Pipeline.arrRef spec3) → Vr (U7 m) c b = Vr (U6 m) c b := by
  intro b hb
  have hne : b ≠ main_v60 := fun e => hb (Finset.mem_image.mpr ⟨2, Finset.mem_univ _, e ▸ rfl⟩)
  show U7 m c (Proc.devRef .tc b) = U6 m c (Proc.devRef .tc b)
  unfold U7
  exact Function.update_of_ne (StableHlo.devRef_ne_of_ne hne) _ _

/-- At region 4's exit each of its arrays holds what the pipeline leaves: the inputs as entered, the output at
    the folded write-backs. -/
theorem hF4 (c : Dev nD) : ∀ w : Fin cfg4.W, (pdats m 4 c).arrAt w cfg4.N = Vr (U9 m) c (Pipeline.arrRef spec4 w)
  | ⟨0, _⟩ => by
    show (dat4 (Vr (U8 m)) c).arrAt 0 cfg4.N = U9 m c (Proc.devRef .tc (Pipeline.arrRef spec4 0))
    unfold U9
    rw [Function.update_of_ne (StableHlo.devRef_ne_of_ne (by decide)), (dat4 (Vr (U8 m)) c).arrAt_in 0 rfl _]
    exact A_eq4 (Vr (U8 m)) c 0
  | ⟨1, _⟩ => by
    show (dat4 (Vr (U8 m)) c).arrAt 1 cfg4.N = U9 m c (Proc.devRef .tc (Pipeline.arrRef spec4 1))
    unfold U9
    rw [Function.update_of_ne (StableHlo.devRef_ne_of_ne (by decide)), (dat4 (Vr (U8 m)) c).arrAt_in 1 rfl _]
    exact A_eq4 (Vr (U8 m)) c 1
  | ⟨2, _⟩ => by
    show (dat4 (Vr (U8 m)) c).arrAt 2 cfg4.N = U9 m c (Proc.devRef .tc main_v68)
    unfold U9; rw [Function.update_self]; rfl
/-- and every other buffer what it held at entry. -/
theorem hrest4 (c : Dev nD) : ∀ b, b ∉ Finset.univ.image (Pipeline.arrRef spec4) → Vr (U9 m) c b = Vr (U8 m) c b := by
  intro b hb
  have hne : b ≠ main_v68 := fun e => hb (Finset.mem_image.mpr ⟨2, Finset.mem_univ _, e ▸ rfl⟩)
  show U9 m c (Proc.devRef .tc b) = U8 m c (Proc.devRef .tc b)
  unfold U9
  exact Function.update_of_ne (StableHlo.devRef_ne_of_ne hne) _ _

/-- At region 5's exit each of its arrays holds what the pipeline leaves: the inputs as entered, the output at
    the folded write-backs. -/
theorem hF5 (c : Dev nD) : ∀ w : Fin cfg5.W, (pdats m 5 c).arrAt w cfg5.N = Vr (U11 m) c (Pipeline.arrRef spec5 w)
  | ⟨0, _⟩ => by
    show (dat5 (Vr (U10 m)) c).arrAt 0 cfg5.N = U11 m c (Proc.devRef .tc (Pipeline.arrRef spec5 0))
    unfold U11
    rw [Function.update_of_ne (StableHlo.devRef_ne_of_ne (by decide)), (dat5 (Vr (U10 m)) c).arrAt_in 0 rfl _]
    exact A_eq5 (Vr (U10 m)) c 0
  | ⟨1, _⟩ => by
    show (dat5 (Vr (U10 m)) c).arrAt 1 cfg5.N = U11 m c (Proc.devRef .tc (Pipeline.arrRef spec5 1))
    unfold U11
    rw [Function.update_of_ne (StableHlo.devRef_ne_of_ne (by decide)), (dat5 (Vr (U10 m)) c).arrAt_in 1 rfl _]
    exact A_eq5 (Vr (U10 m)) c 1
  | ⟨2, _⟩ => by
    show (dat5 (Vr (U10 m)) c).arrAt 2 cfg5.N = U11 m c (Proc.devRef .tc (Pipeline.arrRef spec5 2))
    unfold U11
    rw [Function.update_of_ne (StableHlo.devRef_ne_of_ne (by decide)), (dat5 (Vr (U10 m)) c).arrAt_in 2 rfl _]
    exact A_eq5 (Vr (U10 m)) c 2
  | ⟨3, _⟩ => by
    show (dat5 (Vr (U10 m)) c).arrAt 3 cfg5.N = U11 m c (Proc.devRef .tc main_v77)
    unfold U11; rw [Function.update_self]; rfl
/-- and every other buffer what it held at entry. -/
theorem hrest5 (c : Dev nD) : ∀ b, b ∉ Finset.univ.image (Pipeline.arrRef spec5) → Vr (U11 m) c b = Vr (U10 m) c b := by
  intro b hb
  have hne : b ≠ main_v77 := fun e => hb (Finset.mem_image.mpr ⟨3, Finset.mem_univ _, e ▸ rfl⟩)
  show U11 m c (Proc.devRef .tc b) = U10 m c (Proc.devRef .tc b)
  unfold U11
  exact Function.update_of_ne (StableHlo.devRef_ne_of_ne hne) _ _

/-! ## The regions as segments -/

set_option backward.isDefEq.respectTransparency.types false in
/-- Region 0 over the thread state: entered from every unscoped buffer at `U1`, left at `U2`. Its arrays are
    split out of the unscoped buffers and put back at the exit contents; the generator register goes into the region's
    invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr (U1 m)) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := UR sig nD τ) (Lvl := ℕ) spec0 c (Vr (U1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr (U1 m) c) (Vr (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `U3`, left at `U4`. Its arrays are
    split out of the unscoped buffers and put back at the exit contents; the generator register goes into the region's
    invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr (U3 m)) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := UR sig nD τ) (Lvl := ℕ) spec1 c (Vr (U3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr (U3 m) c) (Vr (U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `U4`, left at `U5`. Its arrays are
    split out of the unscoped buffers and put back at the exit contents; the generator register goes into the region's
    invariant and comes back; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr (U4 m)) c).loose
  hwaits := Pipeline.hwaits_of_owed_zero _ _ _ _ L lv 2 fun _ _ => rfl
  pre c := iprop(StableHlo.held (c : Thread nD τ) (Pipeline.ucRefs τ sig) (U4 m c) ∗ R c)
  post c := iprop(StableHlo.held (c : Thread nD τ) (Pipeline.ucRefs τ sig) (U5 m c) ∗ R c)
  X c := iprop(∃ r, prngReg c r)
  Y c := iprop(∃ r, prngReg c r)
  Z c := Pipeline.unscopedRest (Ix := Unit) (Name := ℕ) (U := UR sig nD τ) (Lvl := ℕ) spec2 c (Vr (U4 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (Vr (U4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (Vr (U4 m) c) (Vr (U5 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at `U6`, left at `U7`. Its arrays are
    split out of the unscoped buffers and put back at the exit contents; the generator register goes into the region's
    invariant and comes back; nothing is owed; the kernel has no semaphore of its own. -/
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (Vr (U6 m)) c).loose
  hwaits := Pipeline.hwaits_of_owed_zero _ _ _ _ L lv 3 fun _ _ => rfl
  pre c := iprop(StableHlo.held (c : Thread nD τ) (Pipeline.ucRefs τ sig) (U6 m c) ∗ R c)
  post c := iprop(StableHlo.held (c : Thread nD τ) (Pipeline.ucRefs τ sig) (U7 m c) ∗ R c)
  X c := iprop(∃ r, prngReg c r)
  Y c := iprop(∃ r, prngReg c r)
  Z c := Pipeline.unscopedRest (Ix := Unit) (Name := ℕ) (U := UR sig nD τ) (Lvl := ℕ) spec3 c (Vr (U6 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (Vr (U6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (Vr (U6 m) c) (Vr (U7 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at `U8`, left at `U9`. Its arrays are
    split out of the unscoped buffers and put back at the exit contents; the generator register goes into the region's
    invariant and comes back; nothing is owed; the kernel has no semaphore of its own. -/
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (Vr (U8 m)) c).loose
  hwaits := Pipeline.hwaits_of_owed_zero _ _ _ _ L lv 4 fun _ _ => rfl
  pre c := iprop(StableHlo.held (c : Thread nD τ) (Pipeline.ucRefs τ sig) (U8 m c) ∗ R c)
  post c := iprop(StableHlo.held (c : Thread nD τ) (Pipeline.ucRefs τ sig) (U9 m c) ∗ R c)
  X c := iprop(∃ r, prngReg c r)
  Y c := iprop(∃ r, prngReg c r)
  Z c := Pipeline.unscopedRest (Ix := Unit) (Name := ℕ) (U := UR sig nD τ) (Lvl := ℕ) spec4 c (Vr (U8 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (Vr (U8 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (Vr (U8 m)) c).Φ 0 from rfl]
    iintro ⟨Hp, -, Hr⟩
    iapply (hin4 (Vr (U8 m)) c)
    unfold Pipeline.ΦA
    isplitl [Hr]; · iexact Hr
    iexact Hp
  hout c := by
    rw [Pipeline.ownSems0_none, show (pdats m 4 c).Φ (Fin.last _) = (dat4 (Vr (U8 m)) c).Φ (Fin.last cfg4.N) from rfl]
    refine (hout4 (Vr (U8 m)) c).trans ?_
    unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (Vr (U8 m) c) (Vr (U9 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at `U10`, left at `U11`. Its arrays are
    split out of the unscoped buffers and put back at the exit contents; the generator register goes into the region's
    invariant and comes back; nothing is owed; the kernel has no semaphore of its own. -/
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (Vr (U10 m)) c).loose
  hwaits := Pipeline.hwaits_of_owed_zero _ _ _ _ L lv 5 fun _ _ => rfl
  pre c := iprop(StableHlo.held (c : Thread nD τ) (Pipeline.ucRefs τ sig) (U10 m c) ∗ R c)
  post c := iprop(StableHlo.held (c : Thread nD τ) (Pipeline.ucRefs τ sig) (U11 m c) ∗ R c)
  X c := iprop(∃ r, prngReg c r)
  Y c := iprop(∃ r, prngReg c r)
  Z c := Pipeline.unscopedRest (Ix := Unit) (Name := ℕ) (U := UR sig nD τ) (Lvl := ℕ) spec5 c (Vr (U10 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (Vr (U10 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (Vr (U10 m) c) (Vr (U11 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

set_option backward.isDefEq.respectTransparency.types false in
/-- Every weakly fair execution of @main from memory m with zero counters terminates, nothing faulting, and every
    final memory holds each unscoped buffer at the last valuation. -/
theorem run_all (ρ : Dev nD → PrngReg) :
    θ_run defs (onTc (τ := τ) (main (F := F))) ⟨m, fun _ => 0, ρ⟩ (fun r => ∀ c : Dev nD, ∀ b ∈ Pipeline.ucRefs τ sig,
      r.2.mem (((c : Thread nD τ)).1, b) = U11 m c b) := by
  have h := run_cond (F := F) m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by iintro ⟨-, HO⟩; iexact HO)
    (reg0 m) (fun c => .rfl) (fun c => by rw [V2_eq]; exact .rfl)
    (reg1 m) (fun c => by rw [V3_eq]; exact .rfl) (fun c => by rw [V4_eq]; exact .rfl)
    (reg2 m) (fun c => by rw [V4_eq]; exact .rfl) (fun c => by rw [V5_eq]; exact .rfl)
    (reg3 m) (fun c => by rw [V6_eq]; exact .rfl) (fun c => by rw [V7_eq]; exact .rfl)
    (reg4 m) (fun c => by rw [V8_eq]; exact .rfl) (fun c => by rw [V9_eq]; exact .rfl)
    (reg5 m) (fun c => by rw [V10_eq]; exact .rfl) (fun c => by rw [V11_eq]; exact .rfl)
  exact (θ_run defs _ _).mono (fun r hr c b hb => (hr c b hb).trans (by rw [V11_eq])) h

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No item writes an argument: the last valuation holds each as launched. -/
theorem U11_arg0 (c : Dev nD) : U11 m c main_arg0 = m ((c : Thread nD τ).loc main_arg0) := (congrFun (V11_eq m c).symm _).trans (V11_main_arg0 m (outs m) c)
theorem U11_arg1 (c : Dev nD) : U11 m c main_arg1 = m ((c : Thread nD τ).loc main_arg1) := (congrFun (V11_eq m c).symm _).trans (V11_main_arg1 m (outs m) c)
theorem U11_arg2 (c : Dev nD) : U11 m c main_arg2 = m ((c : Thread nD τ).loc main_arg2) := (congrFun (V11_eq m c).symm _).trans (V11_main_arg2 m (outs m) c)
theorem U11_arg3 (c : Dev nD) : U11 m c main_arg3 = m ((c : Thread nD τ).loc main_arg3) := (congrFun (V11_eq m c).symm _).trans (V11_main_arg3 m (outs m) c)
theorem U11_arg4 (c : Dev nD) : U11 m c main_arg4 = m ((c : Thread nD τ).loc main_arg4) := (congrFun (V11_eq m c).symm _).trans (V11_main_arg4 m (outs m) c)
theorem U11_arg5 (c : Dev nD) : U11 m c main_arg5 = m ((c : Thread nD τ).loc main_arg5) := (congrFun (V11_eq m c).symm _).trans (V11_main_arg5 m (outs m) c)
theorem U11_arg6 (c : Dev nD) : U11 m c main_arg6 = m ((c : Thread nD τ).loc main_arg6) := (congrFun (V11_eq m c).symm _).trans (V11_main_arg6 m (outs m) c)
theorem U11_arg7 (c : Dev nD) : U11 m c main_arg7 = m ((c : Thread nD τ).loc main_arg7) := (congrFun (V11_eq m c).symm _).trans (V11_main_arg7 m (outs m) c)
theorem U11_arg8 (c : Dev nD) : U11 m c main_arg8 = m ((c : Thread nD τ).loc main_arg8) := (congrFun (V11_eq m c).symm _).trans (V11_main_arg8 m (outs m) c)
/-- The result buffer ends at the last region's output array. -/
theorem U11_result (c : Dev nD) : U11 m c main_v77 = o11 m c := by
  unfold U11; exact Function.update_self _ _ _

/-- The run with the result named: the result buffer ends at the last region's output array and the arguments as
    launched. -/
theorem run_result (ρ : Dev nD → PrngReg) :
    θ_run defs (onTc (τ := τ) (main (F := F))) ⟨m, fun _ => 0, ρ⟩ (fun r => ∀ c : Dev nD,
      r.2.mem ((c.tc : Thread nD τ).loc main_v77) = o11 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v77 (by decide))).trans (U11_result m c),
     (h c _ (mem_uc main_arg0 (by decide))).trans (U11_arg0 m c),
     (h c _ (mem_uc main_arg1 (by decide))).trans (U11_arg1 m c),
     (h c _ (mem_uc main_arg2 (by decide))).trans (U11_arg2 m c),
     (h c _ (mem_uc main_arg3 (by decide))).trans (U11_arg3 m c),
     (h c _ (mem_uc main_arg4 (by decide))).trans (U11_arg4 m c),
     (h c _ (mem_uc main_arg5 (by decide))).trans (U11_arg5 m c),
     (h c _ (mem_uc main_arg6 (by decide))).trans (U11_arg6 m c),
     (h c _ (mem_uc main_arg7 (by decide))).trans (U11_arg7 m c),
     (h c _ (mem_uc main_arg8 (by decide))).trans (U11_arg8 m c)⟩) (run_all m ρ)

/-- The frame: the program runs to the end, faults nowhere, and leaves its arguments as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => (h c).2) (run_result m ρ)

end Cert.KernelIdeal.Hand

end
-- ==== Proof.Spec.lean ====
/-
  The four dense steps of the network as functions of whole arrays over the extended reals, index by index:
  a row-block-free statement of what each kernel region computes, which both programs are compared against.

  * `lin x w`: the product of the node features (100000 rows of 128) with a square weight matrix; entry (p, q) is
    the sum over k of x (p, k) * w (k, q).
  * `biasRelu a b`: a bias row added to every row of a, then the positive part; entry (p, q) is max (a (p, q) + b (0, q)) 0.
  * `poolSum oh h`: the indicator matrix (100000 rows of 64) transposed times the features; entry (g, q) is the sum
    over nodes n of oh (n, g) * h (n, q).
  * `head g w b`: the pooled features (64 rows of 128) times the head's weights (128 rows of 32) plus the bias row;
    entry (g, q) is the sum over k of g (g, k) * w (k, q), plus b (0, q).
-/
import Idealize.ShloMosaic.Lib.ValueIdx
import Idealize.ShloMosaic.PureOps.Ideal

noncomputable section

namespace Cert.Spec

open Idealize.ShloMosaic Idealize.ShloMosaic.ValueIdx

abbrev SN : Shape := ⟨2, ![100000, 128]⟩
abbrev SW : Shape := ⟨2, ![128, 128]⟩
abbrev SB : Shape := ⟨2, ![1, 128]⟩
abbrev SOH : Shape := ⟨2, ![100000, 64]⟩
abbrev SG : Shape := ⟨2, ![64, 128]⟩
abbrev SWf : Shape := ⟨2, ![128, 32]⟩
abbrev SBf : Shape := ⟨2, ![1, 32]⟩
abbrev SO : Shape := ⟨2, ![64, 32]⟩

/-- The features times a weight matrix. -/
def lin (x : SN.Idx → EReal) (w : SW.Idx → EReal) : SN.Idx → EReal :=
  fun i => ∑ k : Fin 128, x (ix2 (⟨(i 0).val, idx2_lt0 i⟩ : Fin 100000) k) * w (ix2 k (⟨(i 1).val, idx2_lt1 i⟩ : Fin 128))

theorem lin_apply (x : SN.Idx → EReal) (w : SW.Idx → EReal) (p : Fin 100000) (q : Fin 128) :
    lin x w (ix2 p q) = ∑ k : Fin 128, x (ix2 p k) * w (ix2 k q) := rfl

/-- A bias row added to every row, then the positive part. -/
def biasRelu (a : SN.Idx → EReal) (b : SB.Idx → EReal) : SN.Idx → EReal :=
  fun i => max (a i + b (ix2 (0 : Fin 1) (⟨(i 1).val, idx2_lt1 i⟩ : Fin 128))) 0

theorem biasRelu_apply (a : SN.Idx → EReal) (b : SB.Idx → EReal) (p : Fin 100000) (q : Fin 128) :
    biasRelu a b (ix2 p q) = max (a (ix2 p q) + b (ix2 (0 : Fin 1) q)) 0 := rfl

/-- The indicator matrix transposed times the features. -/
def poolSum (oh : SOH.Idx → EReal) (h : SN.Idx → EReal) : SG.Idx → EReal :=
  fun i => ∑ n : Fin 100000, oh (ix2 n (⟨(i 0).val, idx2_lt0 i⟩ : Fin 64)) * h (ix2 n (⟨(i 1).val, idx2_lt1 i⟩ : Fin 128))

theorem poolSum_apply (oh : SOH.Idx → EReal) (h : SN.Idx → EReal) (g : Fin 64) (q : Fin 128) :
    poolSum oh h (ix2 g q) = ∑ n : Fin 100000, oh (ix2 n g) * h (ix2 n q) := rfl

/-- The pooled features times the head's weights, plus the bias row. -/
def head (g : SG.Idx → EReal) (w : SWf.Idx → EReal) (b : SBf.Idx → EReal) : SO.Idx → EReal :=
  fun i => (∑ k : Fin 128, g (ix2 (⟨(i 0).val, idx2_lt0 i⟩ : Fin 64) k) * w (ix2 k (⟨(i 1).val, idx2_lt1 i⟩ : Fin 32)))
    + b (ix2 (0 : Fin 1) (⟨(i 1).val, idx2_lt1 i⟩ : Fin 32))

theorem head_apply (g : SG.Idx → EReal) (w : SWf.Idx → EReal) (b : SBf.Idx → EReal) (r : Fin 64) (q : Fin 32) :
    head g w b (ix2 r q) = (∑ k : Fin 128, g (ix2 r k) * w (ix2 k q)) + b (ix2 (0 : Fin 1) q) := rfl

end Cert.Spec

end
-- ==== Proof.LibPlainMatmul.lean ====
/-
  A plain matrix product [M, K] x [K, N] into the zero accumulator, read at an entry, over the extended reals.

  With dimension numbers "contract the left operand's axis 1 with the right operand's axis 0, no batch axes"
  (`DotDims.plain M K N`) the product's entry (r, c) is the sum over k of a (r, k) * b (k, c): the left operand is read at
  the output's row and the contraction coordinate, the right one at the contraction coordinate and the output's column.
  Stated at any extents, with indices written by their coordinates.
-/
import Idealize.ShloMosaic.Lib.ValueIdx
import Idealize.ShloMosaic.PureOps.Ideal.Laws

noncomputable section

namespace Cert.PlainMatmul

open Idealize.ShloMosaic Idealize.ShloMosaic.ValueIdx

variable {M K N : ℕ}

/-- The left operand's row coordinate is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column coordinate is the contraction coordinate. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction coordinate. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- Entry (r, c) of the product into the zero accumulator is the sum over k of a (r, k) * b (k, c). -/
theorem apply (prec : Option ContractPrecision) {φ₁ φ₂ : FTy} (a : FVec Ideal ⟨2, ![M, K]⟩ φ₁) (b : FVec Ideal ⟨2, ![K, N]⟩ φ₂)
    (r : Fin M) (c : Fin N) :
    FloatOps.matmul (DotDims.plain M K N) prec a b (constant ⟨2, ![M, N]⟩ .f32 0x00000000#32) (ix2 r c)
      = ∑ k : Fin K, a (ix2 r k) * b (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun x => Fin.ext (by
      match x with
      | ⟨0, _⟩ => exact lhs_row _ _
      | ⟨1, _⟩ => exact (lhs_col _ _).trans hk)
  have er : (DotDims.plain M K N).rhsIdx (ix2 r c) ((contrEquiv1 (DotDims.plain M K N) K rfl rfl).symm k) = ix2 k c :=
    funext fun x => Fin.ext (by
      match x with
      | ⟨0, _⟩ => exact (rhs_row _ _).trans hk
      | ⟨1, _⟩ => exact rhs_col _ _)
  rw [el, er]

end Cert.PlainMatmul

end
-- ==== Proof.ValueIdeal.Lin.lean ====
/-
  The two linear regions read as whole arrays over the extended reals: after the region every row block of the output
  array holds the product of that row block of the first operand with the weight matrix (the change of float format
  before the product is the identity there, and the product goes into a zero accumulator), and the row blocks tile
  the array; so the output array is `Spec.lin` of the two operand arrays as the region found them.
-/
import proofs.«415668_j39204461478219_1_alg».proof.Proof.FrameIdeal.Region0
import proofs.«415668_j39204461478219_1_alg».proof.Proof.FrameIdeal.Region2
import proofs.«415668_j39204461478219_1_alg».proof.Proof.Spec
import proofs.«415668_j39204461478219_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the TensorCore's buffer contents when the region is entered, over the extended reals
variable (V : (c : Dev nD) → (b : Ref sig .tc) → Buf (Elt Ideal) ((c : Thread nD τ).loc b))

/-- The offsets of a whole-block rectangle are all zero. -/
theorem offs_zero : (![0, 0] : Fin 2 → Nat) = fun _ => 0 := funext fun a => by
  match a with
  | ⟨0, _⟩ => rfl
  | ⟨1, _⟩ => rfl

/-- The kernel's dimension numbers are those of a plain product of a 5000×128 by a 128×128 matrix. -/
theorem dot_plain : dot_S5000x128_S128x128_S5000x128_1_0_0_1_n_n = DotDims.plain 5000 128 128 := rfl

/-! ## Region 0 -/

/-- Entry (p, q) of the body's payload: the change of float format is the identity on extended reals, and the
    product into the zero accumulator is the sum over k of x0 (p, k) * x1 (k, q). -/
theorem pay0_apply (x0 : Vec Ideal S5000x128 .f32) (x1 : Vec Ideal S128x128 .f32) (p : Fin 5000) (q : Fin 128) :
    k0_pay1 (F := Ideal) x0 x1 (ix2 p q) = ∑ k : Fin 128, x0 (ix2 p k) * x1 (ix2 k q) := by
  unfold k0_pay1
  exact Cert.PlainMatmul.apply (M := 5000) (K := 128) (N := 128) none
    (truncf (F := Ideal) .bf16 x0 bitsLt_bf16_f32) (truncf (F := Ideal) .bf16 x1 bitsLt_bf16_f32) p q

/-- A block's payload at an entry is `Spec.lin` of the whole arrays at the entry's place in the array, once row
    (j 0) of the first block is the array's row (i 0) and column (j 1) of the second block is the weights' column (i 1). -/
theorem lin_block0 (A : Cert.Spec.SN.Idx → EReal) (W : Cert.Spec.SW.Idx → EReal)
    (x0 : Vec Ideal S5000x128 .f32) (x1 : Vec Ideal S128x128 .f32) (j : S5000x128.Idx) (i : Cert.Spec.SN.Idx)
    (h0 : ∀ k : Fin 128, x0 (ix2 (j 0) k) = A (ix2 (⟨(i 0).val, idx2_lt0 i⟩ : Fin 100000) k))
    (h1 : ∀ k : Fin 128, x1 (ix2 k (j 1)) = W (ix2 k (⟨(i 1).val, idx2_lt1 i⟩ : Fin 128))) :
    k0_pay1 (F := Ideal) x0 x1 j = Cert.Spec.lin A W i := by
  refine ((congrArg (k0_pay1 (F := Ideal) x0 x1) (eq_ix2 (n0 := 5000) (n1 := 128) j)).trans
    (pay0_apply x0 x1 (j 0) (j 1))).trans ?_
  exact Finset.sum_congr rfl fun k _ => by rw [h0 k, h1 k]

/-- The printed index maps over the grid: the first operand's and the output's row blocks are the grid point's, in
    the one column block; the weights' block is the whole matrix. -/
theorem idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every row block of the output is some point's. -/
theorem idx_onto0 : ∀ q0 : Fin 20, ∃ t : Fin cfg0.N, win0_2.index t = ![q0.val, 0] :=
  (by decide +kernel : ∀ q0 : Fin 20, ∃ t : Fin grid0.N, win0_2.index t = ![q0.val, 0])

/-- What point t writes back is block t of `Spec.lin` of the two operand arrays. -/
theorem flushed0_eq (c : Dev nD) (t : Fin cfg0.N) :
    (dat0 (F := Ideal) V c).flushed 2 t
      = ((cfg0.win 2).blk t).view.read (Elt Ideal) (Cert.Spec.lin (V c main_arg0) (V c main_arg3)) := by
  show (cfg0.win 2).cut (grid0.coords t) ((dat0 (F := Ideal) V c).after 2 t) = _
  rw [after0_2]
  unfold out0_2
  rw [View.canon_unit_zero offs_zero]
  simp only [View.ld_unit_zero (S := S5000x128) offs_zero, View.ld_unit_zero (S := S128x128) offs_zero]
  obtain ⟨e0, e1, e2, e3, e4, e5⟩ := idx_facts0 t
  funext j
  refine lin_block0 (V c main_arg0) (V c main_arg3) (iblk0 V c 0 t) (iblk0 V c 1 t) j (((cfg0.win 2).blk t).view.emb j) ?_ ?_
  · intro k
    show V c main_arg0 (((cfg0.win 0).blk t).view.emb (ix2 (j 0) k)) = V c main_arg0 _
    refine congrArg _ (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 128 + 1 * k.val = k.val; omega
  · intro k
    show V c main_arg3 (((cfg0.win 1).blk t).view.emb (ix2 k (j 1))) = V c main_arg3 _
    refine congrArg _ (funext fun a => Fin.ext ?_)
    match a with
    | ⟨0, _⟩ => show win0_1.index t (0 : Fin 2) * 128 + 1 * k.val = k.val; omega
    | ⟨1, _⟩ => show win0_1.index t (1 : Fin 2) * 128 + 1 * (j 1).val = win0_2.index t (1 : Fin 2) * 128 + 1 * (j 1).val; omega

/-- An index of the output array is in point t's block iff each coordinate is in the block's range on its axis. -/
theorem mem_blk0 (t : Fin cfg0.N) (i : S100000x128.Idx) :
    i ∈ ((cfg0.win 2).blk t).view.set ↔ ∀ a : Fin 2, win0_2.index t a * S5000x128.size a ≤ (i a).val
      ∧ (i a).val < win0_2.index t a * S5000x128.size a + S5000x128.size a := by
  show i ∈ ((View.whole main_v29).slice (win0_2.rect t)).set ↔ _
  rw [View.set_slice_whole, Rect.mem_set_unit]
  exact Iff.rfl

/-- The twenty row blocks tile the output array: row r is in block r / 5000. -/
theorem cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := idx_onto0 ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After region 0 its output array is the features times the first weight matrix. -/
theorem lin0_final (c : Dev nD) :
    (dat0 (F := Ideal) V c).arrAt 2 cfg0.N = Cert.Spec.lin (V c main_arg0) (V c main_arg3) :=
  (dat0 (F := Ideal) V c).arrAt_eq_of_cover 2 (Cert.Spec.lin (V c main_arg0) (V c main_arg3))
    (fun t _ => flushed0_eq V c t) cover0

/-! ## Region 2 -/

/-- Entry (p, q) of the body's payload: the cast of the first block to its own shape and the change of float format
    are the identity on extended reals, and the product into the zero accumulator is the sum over k of
    x0 (p, k) * x1 (k, q). -/
theorem pay2_apply (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 k q) := by
  unfold k2_pay1
  refine (Cert.PlainMatmul.apply (M := 5000) (K := 128) (N := 128) none
    (truncf (F := Ideal) .bf16 (shapeCast S5000x128 x0 shapeCasts_S5000x128_S5000x128) bitsLt_bf16_f32)
    (truncf (F := Ideal) .bf16 x1 bitsLt_bf16_f32) p q).trans ?_
  refine Finset.sum_congr rfl fun k _ => ?_
  exact congrArg (fun z => z * x1 (ix2 k q)) (congrFun (shapeCast_self x0 shapeCasts_S5000x128_S5000x128) (ix2 p k))

/-- A block's payload at an entry is `Spec.lin` of the whole arrays at the entry's place in the array, once row
    (j 0) of the first block is the array's row (i 0) and column (j 1) of the second block is the weights' column (i 1). -/
theorem lin_block2 (A : Cert.Spec.SN.Idx → EReal) (W : Cert.Spec.SW.Idx → EReal)
    (x0 : Vec Ideal S5000x128 .f32) (x1 : Vec Ideal S128x128 .f32) (j : S5000x128.Idx) (i : Cert.Spec.SN.Idx)
    (h0 : ∀ k : Fin 128, x0 (ix2 (j 0) k) = A (ix2 (⟨(i 0).val, idx2_lt0 i⟩ : Fin 100000) k))
    (h1 : ∀ k : Fin 128, x1 (ix2 k (j 1)) = W (ix2 k (⟨(i 1).val, idx2_lt1 i⟩ : Fin 128))) :
    k2_pay1 (F := Ideal) x0 x1 j = Cert.Spec.lin A W i := by
  refine ((congrArg (k2_pay1 (F := Ideal) x0 x1) (eq_ix2 (n0 := 5000) (n1 := 128) j)).trans
    (pay2_apply x0 x1 (j 0) (j 1))).trans ?_
  exact Finset.sum_congr rfl fun k _ => by rw [h0 k, h1 k]

/-- The printed index maps over the grid: the first operand's and the output's row blocks are the grid point's, in
    the one column block; the weights' block is the whole matrix. -/
theorem idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 19 :=
  (by decide +kernel : ∀ t : Fin grid2.N, _)

/-- Every row block of the output is some point's. -/
theorem idx_onto2 : ∀ q0 : Fin 20, ∃ t : Fin cfg2.N, win2_2.index t = ![q0.val, 0] :=
  (by decide +kernel : ∀ q0 : Fin 20, ∃ t : Fin grid2.N, win2_2.index t = ![q0.val, 0])

/-- What point t writes back is block t of `Spec.lin` of the two operand arrays. -/
theorem flushed2_eq (c : Dev nD) (t : Fin cfg2.N) :
    (dat2 (F := Ideal) V c).flushed 2 t
      = ((cfg2.win 2).blk t).view.read (Elt Ideal) (Cert.Spec.lin (V c main_v44) (V c main_arg5)) := by
  show (cfg2.win 2).cut (grid2.coords t) ((dat2 (F := Ideal) V c).after 2 t) = _
  rw [after2_2]
  unfold out2_2
  rw [View.canon_unit_zero offs_zero]
  simp only [View.ld_unit_zero (S := S5000x128) offs_zero, View.ld_unit_zero (S := S128x128) offs_zero]
  obtain ⟨e0, e1, e2, e3, e4, e5⟩ := idx_facts2 t
  funext j
  refine lin_block2 (V c main_v44) (V c main_arg5) (iblk2 V c 0 t) (iblk2 V c 1 t) j (((cfg2.win 2).blk t).view.emb j) ?_ ?_
  · intro k
    show V c main_v44 (((cfg2.win 0).blk t).view.emb (ix2 (j 0) k)) = V c main_v44 _
    refine congrArg _ (funext fun a => Fin.ext ?_)
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 128 + 1 * k.val = k.val; omega
  · intro k
    show V c main_arg5 (((cfg2.win 1).blk t).view.emb (ix2 k (j 1))) = V c main_arg5 _
    refine congrArg _ (funext fun a => Fin.ext ?_)
    match a with
    | ⟨0, _⟩ => show win2_1.index t (0 : Fin 2) * 128 + 1 * k.val = k.val; omega
    | ⟨1, _⟩ => show win2_1.index t (1 : Fin 2) * 128 + 1 * (j 1).val = win2_2.index t (1 : Fin 2) * 128 + 1 * (j 1).val; omega

/-- An index of the output array is in point t's block iff each coordinate is in the block's range on its axis. -/
theorem mem_blk2 (t : Fin cfg2.N) (i : S100000x128.Idx) :
    i ∈ ((cfg2.win 2).blk t).view.set ↔ ∀ a : Fin 2, win2_2.index t a * S5000x128.size a ≤ (i a).val
      ∧ (i a).val < win2_2.index t a * S5000x128.size a + S5000x128.size a := by
  show i ∈ ((View.whole main_v45).slice (win2_2.rect t)).set ↔ _
  rw [View.set_slice_whole, Rect.mem_set_unit]
  exact Iff.rfl

/-- The twenty row blocks tile the output array: row r is in block r / 5000. -/
theorem cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := idx_onto2 ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After region 2 its output array is the first layer's features times the second weight matrix. -/
theorem lin2_final (c : Dev nD) :
    (dat2 (F := Ideal) V c).arrAt 2 cfg2.N = Cert.Spec.lin (V c main_v44) (V c main_arg5) :=
  (dat2 (F := Ideal) V c).arrAt_eq_of_cover 2 (Cert.Spec.lin (V c main_v44) (V c main_arg5))
    (fun t _ => flushed2_eq V c t) cover2

end Cert.KernelIdeal.Hand

end
-- ==== Proof.ValueIdeal.Relu.lean ====
/-
  The two bias-and-positive-part regions read as whole arrays over the extended reals: after the region every row
  block of the output array holds, entry by entry, the positive part of the aggregated features plus the bias row,
  and the row blocks tile the array; so the output array is `Spec.biasRelu` of the two operand arrays as the region
  found them.
-/
import proofs.«415668_j39204461478219_1_alg».proof.Proof.FrameIdeal.Region1
import proofs.«415668_j39204461478219_1_alg».proof.Proof.FrameIdeal.Region3
import proofs.«415668_j39204461478219_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the TensorCore's buffer contents when the region is entered, over the extended reals
variable (V : (c : Dev nD) → (b : Ref sig .tc) → Buf (Elt Ideal) ((c : Thread nD τ).loc b))

/-- The origin of a rank-2 array, as the constant function zero. -/
theorem origin2 : (![0, 0] : Fin 2 → Nat) = fun _ => 0 := funext fun a => by fin_cases a <;> rfl

/-! ## Region 1: the first bias row added and the positive part taken -/

/-- One entry of the block the body stores: the aggregate's entry plus the bias row's entry in the same column,
    then the maximum with zero. The two reshapes are to the shapes the operands already have, the row is repeated
    down the 5000 rows, and the constant's word is the real number zero. -/
theorem biasRelu1_entry (x0 : Vec Ideal S5000x128 .f32) (x1 : Vec Ideal S1x128 .f32) (p : Fin 5000) (q : Fin 128) :
    k1_pay1 x0 x1 (ix2 p q) = max (x0 (ix2 p q) + x1 (ix2 (0 : Fin 1) q)) 0 := by
  unfold k1_pay1
  rw [maximumf_apply, addf_apply, broadcast_apply, shapeCast_self, shapeCast_self]
  rw [broadcastTo_apply x1 _ (ix2 p q) (ix2 (0 : Fin 1) q) (fun a => by
    match a with
    | ⟨0, _⟩ => rfl
    | ⟨1, _⟩ => rfl)]
  show max _ (Ideal.ofBits .f32 0x00000000#32) = _
  rw [Ideal.ofBits_zero_f32]

/-- Where each window's block sits at grid point t: the aggregate's and the output's are row block t, the bias
    row's is the whole row. -/
theorem rowBlock1_index : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

/-- The aggregate's block at point t is rows 5000 t … 5000 t + 4999 of the first aggregate. -/
theorem agg1_block_entry (c : Dev nD) (t : Fin cfg1.N) (x : S5000x128.Idx) (k : S100000x128.Idx)
    (hk0 : (k 0).val = 5000 * t.val + (x 0).val) (hk1 : (k 1).val = (x 1).val) :
    (iblk1 V c 0 t : Vec Ideal S5000x128 .f32) x = (V c main_v42 : S100000x128.Idx → Elt Ideal .f32) k := by
  obtain ⟨e0, e1, e2, e3, e4, e5⟩ := rowBlock1_index t
  unfold iblk1
  rw [View.read_apply]
  show V c main_v42 _ = V c main_v42 _
  congr 1
  funext a
  apply Fin.ext
  match a with
  | ⟨0, _⟩ => show win1_0.index t 0 * 5000 + 1 * (x 0).val = (k 0).val; rw [e0, hk0]; omega
  | ⟨1, _⟩ => show win1_0.index t 1 * 128 + 1 * (x 1).val = (k 1).val; rw [e1, hk1]; omega

/-- The bias row's block at every point is the whole row. -/
theorem bias1_block_entry (c : Dev nD) (t : Fin cfg1.N) (x : S1x128.Idx) (k : S1x128.Idx)
    (hk1 : (k 1).val = (x 1).val) :
    (iblk1 V c 1 t : Vec Ideal S1x128 .f32) x = (V c main_v43 : S1x128.Idx → Elt Ideal .f32) k := by
  obtain ⟨e0, e1, e2, e3, e4, e5⟩ := rowBlock1_index t
  unfold iblk1
  rw [View.read_apply]
  show V c main_v43 _ = V c main_v43 _
  congr 1
  funext a
  apply Fin.ext
  match a with
  | ⟨0, _⟩ =>
    show win1_1.index t 0 * 1 + 1 * (x 0).val = (k 0).val
    have hx : (x 0).val < 1 := (x 0).isLt
    have hk : (k 0).val < 1 := (k 0).isLt
    rw [e2]; omega
  | ⟨1, _⟩ => show win1_1.index t 1 * 128 + 1 * (x 1).val = (k 1).val; rw [e3, hk1]; omega

/-- What point t writes back is row block t of `Spec.biasRelu` of the two operand arrays: entry (p, q) of the block
    is entry (5000 t + p, q) of the array, on both sides. -/
theorem rowBlock1_written (c : Dev nD) (t : Fin cfg1.N) :
    (dat1 (F := Ideal) V c).flushed 2 t
      = ((cfg1.win 2).blk t).view.read (Elt Ideal) (Cert.Spec.biasRelu (V c main_v42) (V c main_v43)) := by
  show (cfg1.win 2).cut (grid1.coords t) ((dat1 V c).after 2 t) = _
  rw [after1_2]
  unfold out1_2
  rw [View.canon_unit_zero origin2]
  simp only [View.ld_unit_zero (S := S5000x128) origin2, View.ld_unit_zero (S := S1x128) origin2]
  funext j
  obtain ⟨p, q, rfl⟩ : ∃ (p : Fin 5000) (q : Fin 128), j = ix2 p q := ⟨j 0, j 1, eq_ix2 j⟩
  rw [View.read_apply]
  show k1_pay1 (iblk1 V c 0 t) (iblk1 V c 1 t) (ix2 p q) = _
  refine (biasRelu1_entry _ _ p q).trans ?_
  obtain ⟨e0, e1, e2, e3, e4, e5⟩ := rowBlock1_index t
  have hk0 : ((((cfg1.win 2).blk t).view.emb (ix2 p q)) 0).val = 5000 * t.val + p.val := by
    show win1_2.index t 0 * 5000 + 1 * p.val = _; rw [e4]; omega
  have hk1 : ((((cfg1.win 2).blk t).view.emb (ix2 p q)) 1).val = q.val := by
    show win1_2.index t 1 * 128 + 1 * q.val = _; rw [e5]; omega
  show _ = Spec.biasRelu (V c main_v42) (V c main_v43) (((cfg1.win 2).blk t).view.emb (ix2 p q))
  exact congrArg₂ (fun u v : EReal => max (u + v) 0)
    (agg1_block_entry V c t (ix2 p q) _ hk0 hk1)
    (bias1_block_entry V c t (ix2 (0 : Fin 1) q) _ hk1)

/-- An index of the output array is in point t's block iff each coordinate is in the block's range on its axis. -/
theorem mem_rowBlock1 (t : Fin cfg1.N) (i : S100000x128.Idx) :
    i ∈ ((cfg1.win 2).blk t).view.set ↔ ∀ a : Fin 2, win1_2.index t a * S5000x128.size a ≤ (i a).val
      ∧ (i a).val < win1_2.index t a * S5000x128.size a + S5000x128.size a := by
  show i ∈ ((View.whole main_v44).slice (win1_2.rect t)).set ↔ _
  rw [View.set_slice_whole, Rect.mem_set_unit]
  exact Iff.rfl

/-- The twenty row blocks tile the output array: row r is in block r / 5000. -/
theorem rowBlocks1_tile (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  obtain ⟨t, ht⟩ : ∃ t : Fin cfg1.N, t.val = (i 0).val / 5000 := ⟨⟨(i 0).val / 5000, by rw [hN]; omega⟩, rfl⟩
  obtain ⟨e0, e1, e2, e3, e4, e5⟩ := rowBlock1_index t
  refine ⟨t, flush1_2 t, ?_⟩
  rw [mem_rowBlock1]
  intro a
  match a with
  | ⟨0, _⟩ =>
    show win1_2.index t 0 * 5000 ≤ (i 0).val ∧ (i 0).val < win1_2.index t 0 * 5000 + 5000
    rw [e4, ht]; omega
  | ⟨1, _⟩ =>
    show win1_2.index t 1 * 128 ≤ (i 1).val ∧ (i 1).val < win1_2.index t 1 * 128 + 128
    rw [e5]; omega

/-- After region 1 its output array is the positive part of the first aggregate plus the first bias row. -/
theorem relu1_final (c : Dev nD) :
    (dat1 (F := Ideal) V c).arrAt 2 cfg1.N = Cert.Spec.biasRelu (V c main_v42) (V c main_v43) :=
  (dat1 V c).arrAt_eq_of_cover 2 (Cert.Spec.biasRelu (V c main_v42) (V c main_v43))
    (fun t _ => rowBlock1_written V c t) rowBlocks1_tile

/-! ## Region 3: the second bias row added and the positive part taken -/

/-- One entry of the block the body stores: the aggregate's entry plus the bias row's entry in the same column,
    then the maximum with zero. The two reshapes are to the shapes the operands already have, the row is repeated
    down the 5000 rows, and the constant's word is the real number zero. -/
theorem biasRelu3_entry (x0 : Vec Ideal S5000x128 .f32) (x1 : Vec Ideal S1x128 .f32) (p : Fin 5000) (q : Fin 128) :
    k3_pay1 x0 x1 (ix2 p q) = max (x0 (ix2 p q) + x1 (ix2 (0 : Fin 1) q)) 0 := by
  unfold k3_pay1
  rw [maximumf_apply, addf_apply, broadcast_apply, shapeCast_self, shapeCast_self]
  rw [broadcastTo_apply x1 _ (ix2 p q) (ix2 (0 : Fin 1) q) (fun a => by
    match a with
    | ⟨0, _⟩ => rfl
    | ⟨1, _⟩ => rfl)]
  show max _ (Ideal.ofBits .f32 0x00000000#32) = _
  rw [Ideal.ofBits_zero_f32]

/-- Where each window's block sits at grid point t: the aggregate's and the output's are row block t, the bias
    row's is the whole row. -/
theorem rowBlock3_index : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = t.val
    ∧ win3_2.index t (1 : Fin 2) = 0 :=
  (by decide +kernel : ∀ t : Fin grid3.N, _)

/-- The aggregate's block at point t is rows 5000 t … 5000 t + 4999 of the second aggregate. -/
theorem agg3_block_entry (c : Dev nD) (t : Fin cfg3.N) (x : S5000x128.Idx) (k : S100000x128.Idx)
    (hk0 : (k 0).val = 5000 * t.val + (x 0).val) (hk1 : (k 1).val = (x 1).val) :
    (iblk3 V c 0 t : Vec Ideal S5000x128 .f32) x = (V c main_v58 : S100000x128.Idx → Elt Ideal .f32) k := by
  obtain ⟨e0, e1, e2, e3, e4, e5⟩ := rowBlock3_index t
  unfold iblk3
  rw [View.read_apply]
  show V c main_v58 _ = V c main_v58 _
  congr 1
  funext a
  apply Fin.ext
  match a with
  | ⟨0, _⟩ => show win3_0.index t 0 * 5000 + 1 * (x 0).val = (k 0).val; rw [e0, hk0]; omega
  | ⟨1, _⟩ => show win3_0.index t 1 * 128 + 1 * (x 1).val = (k 1).val; rw [e1, hk1]; omega

/-- The bias row's block at every point is the whole row. -/
theorem bias3_block_entry (c : Dev nD) (t : Fin cfg3.N) (x : S1x128.Idx) (k : S1x128.Idx)
    (hk1 : (k 1).val = (x 1).val) :
    (iblk3 V c 1 t : Vec Ideal S1x128 .f32) x = (V c main_v59 : S1x128.Idx → Elt Ideal .f32) k := by
  obtain ⟨e0, e1, e2, e3, e4, e5⟩ := rowBlock3_index t
  unfold iblk3
  rw [View.read_apply]
  show V c main_v59 _ = V c main_v59 _
  congr 1
  funext a
  apply Fin.ext
  match a with
  | ⟨0, _⟩ =>
    show win3_1.index t 0 * 1 + 1 * (x 0).val = (k 0).val
    have hx : (x 0).val < 1 := (x 0).isLt
    have hk : (k 0).val < 1 := (k 0).isLt
    rw [e2]; omega
  | ⟨1, _⟩ => show win3_1.index t 1 * 128 + 1 * (x 1).val = (k 1).val; rw [e3, hk1]; omega

/-- What point t writes back is row block t of `Spec.biasRelu` of the two operand arrays: entry (p, q) of the block
    is entry (5000 t + p, q) of the array, on both sides. -/
theorem rowBlock3_written (c : Dev nD) (t : Fin cfg3.N) :
    (dat3 (F := Ideal) V c).flushed 2 t
      = ((cfg3.win 2).blk t).view.read (Elt Ideal) (Cert.Spec.biasRelu (V c main_v58) (V c main_v59)) := by
  show (cfg3.win 2).cut (grid3.coords t) ((dat3 V c).after 2 t) = _
  rw [after3_2]
  unfold out3_2
  rw [View.canon_unit_zero origin2]
  simp only [View.ld_unit_zero (S := S5000x128) origin2, View.ld_unit_zero (S := S1x128) origin2]
  funext j
  obtain ⟨p, q, rfl⟩ : ∃ (p : Fin 5000) (q : Fin 128), j = ix2 p q := ⟨j 0, j 1, eq_ix2 j⟩
  rw [View.read_apply]
  show k3_pay1 (iblk3 V c 0 t) (iblk3 V c 1 t) (ix2 p q) = _
  refine (biasRelu3_entry _ _ p q).trans ?_
  obtain ⟨e0, e1, e2, e3, e4, e5⟩ := rowBlock3_index t
  have hk0 : ((((cfg3.win 2).blk t).view.emb (ix2 p q)) 0).val = 5000 * t.val + p.val := by
    show win3_2.index t 0 * 5000 + 1 * p.val = _; rw [e4]; omega
  have hk1 : ((((cfg3.win 2).blk t).view.emb (ix2 p q)) 1).val = q.val := by
    show win3_2.index t 1 * 128 + 1 * q.val = _; rw [e5]; omega
  show _ = Spec.biasRelu (V c main_v58) (V c main_v59) (((cfg3.win 2).blk t).view.emb (ix2 p q))
  exact congrArg₂ (fun u v : EReal => max (u + v) 0)
    (agg3_block_entry V c t (ix2 p q) _ hk0 hk1)
    (bias3_block_entry V c t (ix2 (0 : Fin 1) q) _ hk1)

/-- An index of the output array is in point t's block iff each coordinate is in the block's range on its axis. -/
theorem mem_rowBlock3 (t : Fin cfg3.N) (i : S100000x128.Idx) :
    i ∈ ((cfg3.win 2).blk t).view.set ↔ ∀ a : Fin 2, win3_2.index t a * S5000x128.size a ≤ (i a).val
      ∧ (i a).val < win3_2.index t a * S5000x128.size a + S5000x128.size a := by
  show i ∈ ((View.whole main_v60).slice (win3_2.rect t)).set ↔ _
  rw [View.set_slice_whole, Rect.mem_set_unit]
  exact Iff.rfl

/-- The twenty row blocks tile the output array: row r is in block r / 5000. -/
theorem rowBlocks3_tile (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨e0, e1, e2, e3, e4, e5⟩ := rowBlock3_index t
  refine ⟨t, flush3_2 t, ?_⟩
  rw [mem_rowBlock3]
  intro a
  match a with
  | ⟨0, _⟩ =>
    show win3_2.index t 0 * 5000 ≤ (i 0).val ∧ (i 0).val < win3_2.index t 0 * 5000 + 5000
    rw [e4, ht]; omega
  | ⟨1, _⟩ =>
    show win3_2.index t 1 * 128 ≤ (i 1).val ∧ (i 1).val < win3_2.index t 1 * 128 + 128
    rw [e5]; omega

/-- After region 3 its output array is the positive part of the second aggregate plus the second bias row. -/
theorem relu3_final (c : Dev nD) :
    (dat3 (F := Ideal) V c).arrAt 2 cfg3.N = Cert.Spec.biasRelu (V c main_v58) (V c main_v59) :=
  (dat3 V c).arrAt_eq_of_cover 2 (Cert.Spec.biasRelu (V c main_v58) (V c main_v59))
    (fun t _ => rowBlock3_written V c t) rowBlocks3_tile

end Cert.KernelIdeal.Hand

end
-- ==== Proof.ValueIdeal.Head.lean ====
/-
  The last region read as a whole array over the extended reals: its one block is the whole output, and it holds the
  pooled features times the head's weights plus the bias row; so the output array is `Spec.head` of the three operand
  arrays as the region found them.
-/
import proofs.«415668_j39204461478219_1_alg».proof.Proof.FrameIdeal.Region5
import proofs.«415668_j39204461478219_1_alg».proof.Proof.Spec
import proofs.«415668_j39204461478219_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

-- the TensorCore's buffer contents when the region is entered, over the extended reals
variable (V : (c : Dev nD) → (b : Ref sig .tc) → Buf (Elt Ideal) ((c : Thread nD τ).loc b))

/-- The origin of a rank-2 array, as the constant function zero. -/
theorem origin5 : (![0, 0] : Fin 2 → Nat) = fun _ => 0 := funext fun a => by fin_cases a <;> rfl

/-- One entry of the block the body stores: row r of the pooled features against column q of the weights, summed
    over the 128 shared coordinates, plus the bias row's entry in column q. The roundings to the narrower type are
    the identity over the extended reals, the product is a plain matrix product into the zero accumulator, the
    reshapes are to the shapes the operands already have, and the row is repeated down the 64 rows. -/
theorem head5_entry (x0 : Vec Ideal S64x128 .f32) (x1 : Vec Ideal S128x32 .f32) (x2 : Vec Ideal S1x32 .f32)
    (r : Fin 64) (q : Fin 32) :
    k5_pay1 x0 x1 x2 (ix2 r q) = (∑ k : Fin 128, x0 (ix2 r k) * x1 (ix2 k q)) + x2 (ix2 (0 : Fin 1) q) := by
  unfold k5_pay1
  rw [addf_apply, shapeCast_self, shapeCast_self]
  rw [broadcastTo_apply x2 _ (ix2 r q) (ix2 (0 : Fin 1) q) (fun a => by
    match a with
    | ⟨0, _⟩ => rfl
    | ⟨1, _⟩ => rfl)]
  refine congrArg (· + x2 (ix2 (0 : Fin 1) q)) ?_
  refine (Cert.PlainMatmul.apply (M := 64) (K := 128) (N := 32) none (truncf .bf16 x0 bitsLt_bf16_f32)
    (truncf .bf16 x1 bitsLt_bf16_f32) r q).trans ?_
  simp only [truncf_apply]

/-- At the region's one grid point every window's block is the block at the origin: the whole array. -/
theorem whole5_index : ∀ t : Fin cfg5.N, win5_0.index t (0 : Fin 2) = 0
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0 :=
  (by decide +kernel : ∀ t : Fin grid5.N, _)

/-- The pooled features' block is the whole array. -/
theorem pooled5_block_entry (c : Dev nD) (t : Fin cfg5.N) (x : S64x128.Idx) (k : S64x128.Idx)
    (hk0 : (k 0).val = (x 0).val) (hk1 : (k 1).val = (x 1).val) :
    (iblk5 V c 0 t : Vec Ideal S64x128 .f32) x = (V c main_v75 : S64x128.Idx → Elt Ideal .f32) k := by
  obtain ⟨e0, e1, e2, e3, e4, e5, e6, e7⟩ := whole5_index t
  unfold iblk5
  rw [View.read_apply]
  show V c main_v75 _ = V c main_v75 _
  congr 1
  funext a
  apply Fin.ext
  match a with
  | ⟨0, _⟩ => show win5_0.index t 0 * 64 + 1 * (x 0).val = (k 0).val; rw [e0, hk0]; omega
  | ⟨1, _⟩ => show win5_0.index t 1 * 128 + 1 * (x 1).val = (k 1).val; rw [e1, hk1]; omega

/-- The weights' block is the whole array. -/
theorem weights5_block_entry (c : Dev nD) (t : Fin cfg5.N) (x : S128x32.Idx) (k : S128x32.Idx)
    (hk0 : (k 0).val = (x 0).val) (hk1 : (k 1).val = (x 1).val) :
    (iblk5 V c 1 t : Vec Ideal S128x32 .f32) x = (V c main_arg7 : S128x32.Idx → Elt Ideal .f32) k := by
  obtain ⟨e0, e1, e2, e3, e4, e5, e6, e7⟩ := whole5_index t
  unfold iblk5
  rw [View.read_apply]
  show V c main_arg7 _ = V c main_arg7 _
  congr 1
  funext a
  apply Fin.ext
  match a with
  | ⟨0, _⟩ => show win5_1.index t 0 * 128 + 1 * (x 0).val = (k 0).val; rw [e2, hk0]; omega
  | ⟨1, _⟩ => show win5_1.index t 1 * 32 + 1 * (x 1).val = (k 1).val; rw [e3, hk1]; omega

/-- The bias row's block is the whole row. -/
theorem bias5_block_entry (c : Dev nD) (t : Fin cfg5.N) (x : S1x32.Idx) (k : S1x32.Idx)
    (hk1 : (k 1).val = (x 1).val) :
    (iblk5 V c 2 t : Vec Ideal S1x32 .f32) x = (V c main_v76 : S1x32.Idx → Elt Ideal .f32) k := by
  obtain ⟨e0, e1, e2, e3, e4, e5, e6, e7⟩ := whole5_index t
  unfold iblk5
  rw [View.read_apply]
  show V c main_v76 _ = V c main_v76 _
  congr 1
  funext a
  apply Fin.ext
  match a with
  | ⟨0, _⟩ =>
    show win5_2.index t 0 * 1 + 1 * (x 0).val = (k 0).val
    have hx : (x 0).val < 1 := (x 0).isLt
    have hk : (k 0).val < 1 := (k 0).isLt
    rw [e4]; omega
  | ⟨1, _⟩ => show win5_2.index t 1 * 32 + 1 * (x 1).val = (k 1).val; rw [e5, hk1]; omega

/-- What the one point writes back is the one block of `Spec.head` of the three operand arrays: entry (r, q) of the
    block is entry (r, q) of the array, on both sides. -/
theorem whole5_written (c : Dev nD) (t : Fin cfg5.N) :
    (dat5 (F := Ideal) V c).flushed 3 t
      = ((cfg5.win 3).blk t).view.read (Elt Ideal) (Cert.Spec.head (V c main_v75) (V c main_arg7) (V c main_v76)) := by
  show (cfg5.win 3).cut (grid5.coords t) ((dat5 V c).after 3 t) = _
  rw [after5_3]
  unfold out5_3
  rw [View.canon_unit_zero origin5]
  simp only [View.ld_unit_zero (S := S64x128) origin5, View.ld_unit_zero (S := S128x32) origin5,
    View.ld_unit_zero (S := S1x32) origin5]
  funext j
  obtain ⟨r, q, rfl⟩ : ∃ (r : Fin 64) (q : Fin 32), j = ix2 r q := ⟨j 0, j 1, eq_ix2 j⟩
  rw [View.read_apply]
  show k5_pay1 (iblk5 V c 0 t) (iblk5 V c 1 t) (iblk5 V c 2 t) (ix2 r q) = _
  refine (head5_entry _ _ _ r q).trans ?_
  obtain ⟨e0, e1, e2, e3, e4, e5, e6, e7⟩ := whole5_index t
  have hk0 : ((((cfg5.win 3).blk t).view.emb (ix2 r q)) 0).val = r.val := by
    show win5_3.index t 0 * 64 + 1 * r.val = _; rw [e6]; omega
  have hk1 : ((((cfg5.win 3).blk t).view.emb (ix2 r q)) 1).val = q.val := by
    show win5_3.index t 1 * 32 + 1 * q.val = _; rw [e7]; omega
  show _ = Spec.head (V c main_v75) (V c main_arg7) (V c main_v76) (((cfg5.win 3).blk t).view.emb (ix2 r q))
  exact congrArg₂ (fun u v : EReal => u + v)
    (Finset.sum_congr rfl fun k _ => congrArg₂ (fun u v : EReal => u * v)
      (pooled5_block_entry V c t (ix2 r k) _ hk0 rfl)
      (weights5_block_entry V c t (ix2 k q) _ rfl hk1))
    (bias5_block_entry V c t (ix2 (0 : Fin 1) q) _ hk1)

/-- An index of the output array is in the point's block iff each coordinate is in the block's range on its axis. -/
theorem mem_whole5 (t : Fin cfg5.N) (i : S64x32.Idx) :
    i ∈ ((cfg5.win 3).blk t).view.set ↔ ∀ a : Fin 2, win5_3.index t a * S64x32.size a ≤ (i a).val
      ∧ (i a).val < win5_3.index t a * S64x32.size a + S64x32.size a := by
  show i ∈ ((View.whole main_v77).slice (win5_3.rect t)).set ↔ _
  rw [View.set_slice_whole, Rect.mem_set_unit]
  exact Iff.rfl

/-- The one block is the whole output array. -/
theorem whole5_covers (i : S64x32.Idx) :
    ∃ t : Fin cfg5.N, (cfg5.win 3).flush t = true ∧ i ∈ ((cfg5.win 3).blk t).view.set := by
  have hi0 : (i 0).val < 64 := (i 0).isLt
  have hi1 : (i 1).val < 32 := (i 1).isLt
  obtain ⟨e0, e1, e2, e3, e4, e5, e6, e7⟩ := whole5_index t5_0
  refine ⟨t5_0, flush5_3 t5_0, ?_⟩
  rw [mem_whole5]
  intro a
  match a with
  | ⟨0, _⟩ =>
    show win5_3.index t5_0 0 * 64 ≤ (i 0).val ∧ (i 0).val < win5_3.index t5_0 0 * 64 + 64
    rw [e6]; omega
  | ⟨1, _⟩ =>
    show win5_3.index t5_0 1 * 32 ≤ (i 1).val ∧ (i 1).val < win5_3.index t5_0 1 * 32 + 32
    rw [e7]; omega

/-- After region 5 its output array is the pooled features times the head's weights, plus the bias row. -/
theorem head5_final (c : Dev nD) :
    (dat5 (F := Ideal) V c).arrAt 3 cfg5.N = Cert.Spec.head (V c main_v75) (V c main_arg7) (V c main_v76) :=
  (dat5 V c).arrAt_eq_of_cover 3 (Cert.Spec.head (V c main_v75) (V c main_arg7) (V c main_v76))
    (fun t _ => whole5_written V c t) whole5_covers

end Cert.KernelIdeal.Hand

end
-- ==== Proof.ValueIdeal.Pool.lean ====
/-
  The pooling region read as a whole array over the extended reals: the scratch after point n is the sum over the
  node blocks up to n of the transposed indicator block times the feature block, the output is stored once, at the
  last point, from the scratch, and written back then; the 25 blocks of 4000 nodes partition the 100000 nodes, so the
  output array is `Spec.poolSum` of the two operand arrays as the region found them (sums of extended reals may be
  regrouped freely: addition there is commutative and associative).
-/
import proofs.«415668_j39204461478219_1_alg».proof.Proof.FrameIdeal.Region4
import proofs.«415668_j39204461478219_1_alg».proof.Proof.Spec
import Idealize.ShloMosaic.Lib.Pipeline.Value
import Idealize.ShloMosaic.Lib.ValueIdx
import Idealize.ShloMosaic.Lib.ValueLayout
import Idealize.ShloMosaic.PureOps.Ideal.Laws
import Mathlib.Logic.Equiv.Fin.Basic
import Mathlib.Algebra.BigOperators.Fin

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

/-- The 100000 nodes are 25 blocks of 4000: a sum over the nodes is the sum over the blocks of the sums inside them. -/
theorem pool_sum_node_blocks {M : Type} [AddCommMonoid M] (f : Fin 100000 → M) :
    ∑ n : Fin 100000, f n
      = ∑ t : Fin 25, ∑ k : Fin 4000, f ⟨4000 * t.val + k.val, by have := t.isLt; have := k.isLt; omega⟩ := by
  rw [← Equiv.sum_comp (finProdFinEquiv : Fin 25 × Fin 4000 ≃ Fin 100000) f, Fintype.sum_prod_type]
  refine Finset.sum_congr rfl fun t _ => Finset.sum_congr rfl fun k _ => congrArg f (Fin.ext ?_)
  show k.val + 4000 * t.val = 4000 * t.val + k.val
  omega

/-! The pooling product contracts axis 0 of both operands: the left operand is read at the contraction coordinate and
    the output's row, the right one at the contraction coordinate and the output's column. -/

theorem lhs_pool_0 (j : S64x128.Idx) (q : dot_S4000x64_S4000x128_S64x128_0_0_1_1_n_n.contr.Idx) :
    (dot_S4000x64_S4000x128_S64x128_0_0_1_1_n_n.lhsIdx j q 0).val = (q ⟨0, Nat.one_pos⟩).val :=
  dot_S4000x64_S4000x128_S64x128_0_0_1_1_n_n.lhsIdx_val_of_single rfl j q

theorem lhs_pool_1 (j : S64x128.Idx) (q : dot_S4000x64_S4000x128_S64x128_0_0_1_1_n_n.contr.Idx) :
    (dot_S4000x64_S4000x128_S64x128_0_0_1_1_n_n.lhsIdx j q 1).val = (j 0).val := by
  unfold DotDims.lhsIdx
  rw [dif_neg (show ¬(1 : Fin S4000x64.rank) ∈ dot_S4000x64_S4000x128_S64x128_0_0_1_1_n_n.lhsBatch from List.not_mem_nil),
    dif_pos (show (1 : Fin S4000x64.rank) ∈ dot_S4000x64_S4000x128_S64x128_0_0_1_1_n_n.lhsNonContracting from List.mem_singleton.mpr rfl)]
  rfl

theorem rhs_pool_0 (j : S64x128.Idx) (q : dot_S4000x64_S4000x128_S64x128_0_0_1_1_n_n.contr.Idx) :
    (dot_S4000x64_S4000x128_S64x128_0_0_1_1_n_n.rhsIdx j q 0).val = (q ⟨0, Nat.one_pos⟩).val :=
  dot_S4000x64_S4000x128_S64x128_0_0_1_1_n_n.rhsIdx_val_of_single rfl j q

theorem rhs_pool_1 (j : S64x128.Idx) (q : dot_S4000x64_S4000x128_S64x128_0_0_1_1_n_n.contr.Idx) :
    (dot_S4000x64_S4000x128_S64x128_0_0_1_1_n_n.rhsIdx j q 1).val = (j 1).val := by
  unfold DotDims.rhsIdx
  rw [dif_neg (show ¬(1 : Fin S4000x128.rank) ∈ dot_S4000x64_S4000x128_S64x128_0_0_1_1_n_n.rhsBatch from List.not_mem_nil),
    dif_pos (show (1 : Fin S4000x128.rank) ∈ dot_S4000x64_S4000x128_S64x128_0_0_1_1_n_n.rhsNonContracting from List.mem_singleton.mpr rfl)]
  rfl

/-- Entry (g, q) of the transposed product into the zero accumulator: the sum over the block's rows k of a (k, g) * b (k, q). -/
theorem pool_matmul_apply {φ₁ φ₂ : FTy} (a : FVec Ideal S4000x64 φ₁) (b : FVec Ideal S4000x128 φ₂) (g : Fin 64) (q : Fin 128) :
    FloatOps.matmul dot_S4000x64_S4000x128_S64x128_0_0_1_1_n_n none a b (constant S64x128 .f32 0x00000000#32) (ix2 g q)
      = ∑ k : Fin 4000, a (ix2 k g) * b (ix2 k q) := by
  rw [Ideal.matmul_constant_zero_apply, ← Equiv.sum_comp (contrEquiv1 dot_S4000x64_S4000x128_S64x128_0_0_1_1_n_n 4000 rfl rfl).symm]
  refine Finset.sum_congr rfl fun k _ => ?_
  have hk := contrEquiv1_symm_val dot_S4000x64_S4000x128_S64x128_0_0_1_1_n_n 4000 rfl rfl k
  have el : dot_S4000x64_S4000x128_S64x128_0_0_1_1_n_n.lhsIdx (ix2 g q) ((contrEquiv1 dot_S4000x64_S4000x128_S64x128_0_0_1_1_n_n 4000 rfl rfl).symm k) = ix2 k g :=
    funext fun x => Fin.ext (by
      match x with
      | ⟨0, _⟩ => exact (lhs_pool_0 _ _).trans hk
      | ⟨1, _⟩ => exact lhs_pool_1 _ _)
  have er : dot_S4000x64_S4000x128_S64x128_0_0_1_1_n_n.rhsIdx (ix2 g q) ((contrEquiv1 dot_S4000x64_S4000x128_S64x128_0_0_1_1_n_n 4000 rfl rfl).symm k) = ix2 k q :=
    funext fun x => Fin.ext (by
      match x with
      | ⟨0, _⟩ => exact (rhs_pool_0 _ _).trans hk
      | ⟨1, _⟩ => exact rhs_pool_1 _ _)
  rw [el, er]

/-- The reset value of the scratch is zero everywhere. -/
theorem pool_reset_apply (g : Fin 64) (q : Fin 128) : (k4_pay1 (F := Ideal)) (ix2 g q) = 0 := by
  unfold k4_pay1
  rw [shapeCast_self]
  exact Ideal.ofBits_zero_f32

/-- One accumulation step at an entry: what the scratch held plus the block's transposed product. -/
theorem pool_step_apply (x0 : Vec Ideal S4000x64 .bf16) (x1 : Vec Ideal S4000x128 .f32) (acc : Vec Ideal S64x128 .f32)
    (g : Fin 64) (q : Fin 128) :
    k4_pay2 x0 x1 acc (ix2 g q) = acc (ix2 g q) + ∑ k : Fin 4000, x0 (ix2 k g) * x1 (ix2 k q) := by
  unfold k4_pay2
  rw [shapeCast_self, shapeCast_self, shapeCast_self]
  refine (addf_apply _ _ _).trans ?_
  refine congrArg (fun z => acc (ix2 g q) + z) ?_
  refine (pool_matmul_apply _ _ g q).trans ?_
  rfl

-- the TensorCore's buffer contents when the region is entered, over the extended reals
variable (V : (c : Dev nD) → (b : Ref sig .tc) → Buf (Elt Ideal) ((c : Thread nD τ).loc b))

/-- The indicator matrix and the features as the region finds them, as functions of two coordinates. -/
abbrev poolOhArr (c : Dev nD) : Cert.Spec.SOH.Idx → EReal := V c main_v67
abbrev poolFtArr (c : Dev nD) : Cert.Spec.SN.Idx → EReal := V c main_v60

/-- The block index maps over the grid: the two operands' blocks move down the rows with the point, the output has one block. -/
theorem pool_index : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0 :=
  (by decide +kernel : ∀ t : Fin grid4.N, _)

/-- Row k of the indicator block at point t is row 4000 t + k of the indicator matrix. -/
theorem pool_oh_block_apply (c : Dev nD) (t : Fin cfg4.N) (k : Fin 4000) (g : Fin 64) (hn : 4000 * t.val + k.val < 100000) :
    (iblk4 V c 0 t : Vec Ideal S4000x64 .bf16) (ix2 k g) = poolOhArr V c (ix2 (⟨4000 * t.val + k.val, hn⟩ : Fin 100000) g) := by
  obtain ⟨e0, e1, -, -, -, -⟩ := pool_index t
  unfold iblk4
  rw [View.read_apply]
  show V c main_v67 _ = V c main_v67 _
  congr 1
  funext a
  apply Fin.ext
  match a with
  | ⟨0, _⟩ => show win4_0.index t (0 : Fin 2) * 4000 + 1 * k.val = 4000 * t.val + k.val; rw [e0]; omega
  | ⟨1, _⟩ => show win4_0.index t (1 : Fin 2) * 64 + 1 * g.val = g.val; rw [e1]; omega

/-- Row k of the feature block at point t is row 4000 t + k of the features. -/
theorem pool_ft_block_apply (c : Dev nD) (t : Fin cfg4.N) (k : Fin 4000) (q : Fin 128) (hn : 4000 * t.val + k.val < 100000) :
    (iblk4 V c 1 t : Vec Ideal S4000x128 .f32) (ix2 k q) = poolFtArr V c (ix2 (⟨4000 * t.val + k.val, hn⟩ : Fin 100000) q) := by
  obtain ⟨-, -, e0, e1, -, -⟩ := pool_index t
  unfold iblk4
  rw [View.read_apply]
  show V c main_v60 _ = V c main_v60 _
  congr 1
  funext a
  apply Fin.ext
  match a with
  | ⟨0, _⟩ => show win4_1.index t (0 : Fin 2) * 4000 + 1 * k.val = 4000 * t.val + k.val; rw [e0]; omega
  | ⟨1, _⟩ => show win4_1.index t (1 : Fin 2) * 128 + 1 * q.val = q.val; rw [e1]; omega

/-- Block t's share of entry (g, q): the sum over its 4000 rows of indicator times feature. -/
def poolShare (oh : Cert.Spec.SOH.Idx → EReal) (ft : Cert.Spec.SN.Idx → EReal) (g : Fin 64) (q : Fin 128) (t : ℕ) (ht : t < 25) : EReal :=
  ∑ k : Fin 4000, oh (ix2 (⟨4000 * t + k.val, by have := k.isLt; omega⟩ : Fin 100000) g)
    * ft (ix2 (⟨4000 * t + k.val, by have := k.isLt; omega⟩ : Fin 100000) q)

/-- One accumulation step at point t adds block t's share to every entry. -/
theorem pool_point (c : Dev nD) (t : Fin cfg4.N) (acc : Vec Ideal S64x128 .f32) (g : Fin 64) (q : Fin 128) (ht : t.val < 25) :
    k4_pay2 (iblk4 V c 0 t) (iblk4 V c 1 t) acc (ix2 g q) = acc (ix2 g q) + poolShare (poolOhArr V c) (poolFtArr V c) g q t.val ht := by
  refine (pool_step_apply (iblk4 V c 0 t) (iblk4 V c 1 t) acc g q).trans ?_
  refine congrArg (fun z => acc (ix2 g q) + z) ?_
  unfold poolShare
  refine Finset.sum_congr rfl fun k _ => ?_
  exact congrArg₂ (fun a b : EReal => a * b)
    (pool_oh_block_apply V c t k g (by have := k.isLt; omega)) (pool_ft_block_apply V c t k q (by have := k.isLt; omega))

/-- The scratch after point n, at an entry: the shares of the blocks up to n, added in the grid's order. -/
theorem sc4_apply (c : Dev nD) (g : Fin 64) (q : Fin 128) (n : ℕ) : ∀ (hn : n < cfg4.N) (h25 : n < 25),
    sc4 V c n hn (ix2 g q)
      = ∑ t : Fin (n + 1), poolShare (poolOhArr V c) (poolFtArr V c) g q t.val (by have := t.isLt; omega) := by
  induction n with
  | zero =>
    intro hn h25
    rw [sc4_zero]
    refine (pool_point V c ⟨0, hn⟩ (k4_pay1 (F := Ideal)) g q h25).trans ?_
    rw [pool_reset_apply, zero_add]
    exact (Fin.sum_univ_one (fun t : Fin 1 => poolShare (poolOhArr V c) (poolFtArr V c) g q t.val (by have := t.isLt; omega))).symm
  | succ n ih =>
    intro hn h25
    rw [sc4_succ]
    refine (pool_point V c ⟨n + 1, hn⟩ (sc4 V c n (Nat.lt_of_succ_lt hn)) g q h25).trans ?_
    rw [ih (Nat.lt_of_succ_lt hn) (by omega)]
    exact (Fin.sum_univ_castSucc (fun t : Fin (n + 1 + 1) => poolShare (poolOhArr V c) (poolFtArr V c) g q t.val (by have := t.isLt; omega))).symm

/-- After the last point the scratch holds the indicator matrix transposed times the features. -/
theorem sc4_last (c : Dev nD) (n : ℕ) (hn : n < cfg4.N) (h24 : n = 24) :
    sc4 V c n hn = Cert.Spec.poolSum (poolOhArr V c) (poolFtArr V c) := by
  subst h24
  funext j
  obtain ⟨g, q, rfl⟩ : ∃ (g : Fin 64) (q : Fin 128), j = ix2 g q := ⟨j 0, j 1, eq_ix2 j⟩
  refine (sc4_apply V c g q 24 hn (by omega)).trans ?_
  rw [Cert.Spec.poolSum_apply, pool_sum_node_blocks]
  rfl

/-- The last grid point. -/
abbrev poolLastPt : Fin cfg4.N := ⟨24, (by decide : 24 < grid4.N)⟩

/-- After region 4 its output array is the indicator matrix transposed times the features. -/
theorem pool4_final (c : Dev nD) :
    (dat4 (F := Ideal) V c).arrAt 2 cfg4.N = Cert.Spec.poolSum (V c main_v67) (V c main_v60) := by
  have hN : cfg4.N = 25 := N_4
  refine (dat4 (F := Ideal) V c).arrAt_eq_of_cover 2 (Cert.Spec.poolSum (V c main_v67) (V c main_v60)) (fun t hf => ?_) (fun i => ?_)
  · have h24 : t.val = 24 := by have := (flush4_2 t).mp hf; have := t.isLt; omega
    obtain ⟨-, -, -, -, e0, e1⟩ := pool_index t
    show (cfg4.win 2).cut (grid4.coords t) ((dat4 V c).after 2 t) = _
    rw [after4_2, sc4_last V c t.val t.isLt h24]
    have hz' : (fun a => win4_2.index t a * main_v68.ty.shape.size a) = fun _ => 0 := funext fun a => by
      match a with
      | ⟨0, _⟩ => show win4_2.index t (0 : Fin 2) * _ = 0; rw [e0, Nat.zero_mul]
      | ⟨1, _⟩ => show win4_2.index t (1 : Fin 2) * _ = 0; rw [e1, Nat.zero_mul]
    exact (Memref.read_access_unit_zero (Elt Ideal) main_v68 hz' (fun a => by rw [congrFun hz' a]; simp)
      (Cert.Spec.poolSum (V c main_v67) (V c main_v60))).symm
  · refine ⟨poolLastPt, (flush4_2 poolLastPt).mpr rfl, ?_⟩
    show i ∈ ((View.whole main_v68).slice (win4_2.rect poolLastPt)).set
    rw [View.set_slice_whole, Rect.mem_set_unit]
    intro a
    have h0 : (i 0 : Nat) < 64 := (i 0).isLt
    have h1 : (i 1 : Nat) < 128 := (i 1).isLt
    match a with
    | ⟨0, _⟩ =>
      show win4_2.index poolLastPt 0 * win4_2.size 0 ≤ (i 0 : Nat)
        ∧ (i 0 : Nat) < win4_2.index poolLastPt 0 * win4_2.size 0 + win4_2.xsize (grid4.coords poolLastPt) 0
      rw [show win4_2.index poolLastPt 0 * win4_2.size 0 = 0 from by decide +kernel,
        show win4_2.xsize (grid4.coords poolLastPt) 0 = 64 from by decide +kernel]
      omega
    | ⟨1, _⟩ =>
      show win4_2.index poolLastPt 1 * win4_2.size 1 ≤ (i 1 : Nat)
        ∧ (i 1 : Nat) < win4_2.index poolLastPt 1 * win4_2.size 1 + win4_2.xsize (grid4.coords poolLastPt) 1
      rw [show win4_2.index poolLastPt 1 * win4_2.size 1 = 0 from by decide +kernel,
        show win4_2.xsize (grid4.coords poolLastPt) 1 = 128 from by decide +kernel]
      omega

end Cert.KernelIdeal.Hand

end
-- ==== Proof.RefImports.lean ====
/-
  The reference's run and its read-at-an-index lemmas, gathered under one import for the modules that
  read the reference's result.
-/
import proofs.«415668_j39204461478219_1_alg».proof.Proof.Gen.ReferenceIdeal.Run
import proofs.«415668_j39204461478219_1_alg».proof.Proof.Gen.ReferenceIdeal.Read
-- ==== Proof.ValueIdeal.OneHot.lean ====
/-
  The pooling step's two identities over the extended reals. The program builds an indicator matrix from each
  node's graph index: entry (n, g) is one where node n's index equals g as a signed 32-bit word and zero elsewhere.
  (i) The indicator matrix transposed times the features is the scatter-add of the features' rows by graph index
  into a zero array of 64 rows: a row whose index is not one of 0 .. 63 lands nowhere in the scatter and meets only
  zeros in the product, and zero times anything is zero on the extended reals. (ii) The column sums of the indicator
  matrix are the scatter-add of ones by graph index: the count of each graph's nodes.
-/
import proofs.«415668_j39204461478219_1_alg».proof.Proof.Gen.KernelIdeal
import proofs.«415668_j39204461478219_1_alg».proof.Proof.RefImports
import proofs.«415668_j39204461478219_1_alg».proof.Proof.Spec
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import Idealize.ShloMosaic.Lib.StableHlo.Predicate

noncomputable section

namespace Cert.KernelIdeal.Hand

open Cert.KernelIdeal Cert.KernelIdeal.Gen
open Idealize.ShloMosaic Idealize.ShloMosaic.TcCoe Idealize.ShloMosaic.ValueIdx

/-- The indicator matrix as the program builds it from the nodes' graph indices: both index arrays broadcast to
    100000 by 64, compared for equality, the bit converted to a float. -/
def onehot (batch : IVec S100000 32) : FVec Ideal S100000x64 .bf16 :=
  uitofp .bf16 (cmpi .eq
    (broadcastInDim S100000x64 ![0, 1] bcast_S100000x1_S100000x64_0_1 (broadcastInDim S100000x1 ![0] bcast_S100000_S100000x1_0 batch))
    (broadcastInDim S100000x64 ![0, 1] bcast_S1x64_S100000x64_0_1 (broadcastInDim S1x64 ![1] bcast_S64_S1x64_1 (iotaInDim S64 32 0))))

/-- Entry (n, g) of the indicator matrix: one where node n's graph index is the word g, zero elsewhere. -/
theorem onehot_apply (batch : IVec S100000 32) (n : Fin 100000) (g : Fin 64) :
    onehot batch (ix2 n g) = if batch (ix1 n) = BitVec.ofNat 32 g.val then 1 else 0 := by
  have hij : ∀ {a b : Nat} (p : Fin a) (r : Fin b), StableHlo.Predicate.ij p r = ix2 p r := by
    intro a b p r; funext c; match c with | ⟨0, _⟩ => rfl | ⟨1, _⟩ => rfl
  have hof : Shape.Idx.ofFin n = ix1 n := (Shape.Idx.eq_ofFin (ix1 n)).symm
  -- the column of graph indices spread along the rows reads node n's index at (n, g)
  have e1 : broadcastInDim S100000x64 ![0, 1] bcast_S100000x1_S100000x64_0_1
      (broadcastInDim S100000x1 ![0] bcast_S100000_S100000x1_0 batch) (ix2 n g) = batch (ix1 n) := by
    rw [← hij, ← hof]
    exact StableHlo.Predicate.bcast_rows (m := 64) bcast_S100000_S100000x1_0 bcast_S100000x1_S100000x64_0_1 batch n g
  -- the row 0, 1, …, 63 spread down the columns reads g at (n, g)
  have e2 : broadcastInDim S100000x64 ![0, 1] bcast_S1x64_S100000x64_0_1
      (broadcastInDim S1x64 ![1] bcast_S64_S1x64_1 (iotaInDim S64 32 0)) (ix2 n g) = BitVec.ofNat 32 g.val := by
    rw [← hij]
    exact StableHlo.Predicate.bcast_cols (n := 100000) bcast_S64_S1x64_1 bcast_S1x64_S100000x64_0_1 (iotaInDim S64 32 0) n g
  unfold onehot
  show FloatOps.uitofp (F := Ideal) .bf16 (IntOp.cmpi .eq _ _) = _
  rw [e1, e2]
  show (((IntOp.cmpi .eq (batch (ix1 n)) (BitVec.ofNat 32 g.val)).toNat : ℝ) : EReal) = _
  by_cases hb : batch (ix1 n) = BitVec.ofNat 32 g.val
  · rw [if_pos hb, StableHlo.Predicate.cmpi_eq_iff.2 hb]; simp
  · rw [if_neg hb]
    have hc : IntOp.cmpi .eq (batch (ix1 n)) (BitVec.ofNat 32 g.val) = 0#1 := by
      have h := mt StableHlo.Predicate.cmpi_eq_iff.1 hb
      generalize IntOp.cmpi .eq (batch (ix1 n)) (BitVec.ofNat 32 g.val) = c at h
      revert h; revert c; decide
    rw [hc]; simp

namespace OneHot

/-- A scatter's update lands at an operand index exactly when, on every axis, the start plus the window coordinate
    is that index's coordinate. -/
theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  constructor
  · intro h a
    split at h
    · next hh =>
      have h1 := congrFun (Option.some.inj h) a
      have h2 := congrArg Fin.val h1
      simp only at h2
      have h3 := (hh a).1
      omega
    · exact absurd h (by simp)
  · intro h
    have hh : ∀ a, 0 ≤ d.start j idx a + d.window j a ∧ d.start j idx a + d.window j a < s.size a := by
      intro a; have h1 := h a; have h2 := (i a).isLt; omega
    rw [dif_pos hh]
    congr 1
    funext a
    apply Fin.ext
    have h1 := h a
    simp only
    omega

/-- A graph index below 64 is itself when its 32-bit word is read signed; so a word read signed is that index
    exactly when it is that word. -/
theorem toInt_eq_iff (b : BitVec 32) (g : Fin 64) : b.toInt = (g.val : Int) ↔ b = BitVec.ofNat 32 g.val := by
  have hg : (BitVec.ofNat 32 g.val).toInt = (g.val : Int) :=
    StableHlo.Predicate.toInt_ofNat_small g.val (by have := g.isLt; omega)
  constructor
  · intro h; exact BitVec.toInt_inj.1 (h.trans hg.symm)
  · intro h; rw [h, hg]

/-- The scatter of the features' rows: operand 64 by 128, indices a column of 100000, updates 100000 by 128. -/
abbrev dP := Cert.ReferenceIdeal.scatter_S64x128_S100000x1_S100000x128_1_0_0_1
/-- The scatter of ones: operand 64, indices a column of 100000, updates 100000. -/
abbrev dC := Cert.ReferenceIdeal.scatter_S64_S100000x1_S100000_n_0_0_1

/-! ### Where update (n, q) of the features' scatter lands: row = node n's graph index read signed, column = q -/

theorem pool_siIdx (n : Fin 100000) (q : Fin 128) (c : Fin dP.scatterDimsToOperandDims.length) :
    dP.siIdx (ix2 n q) c = ix2 n (0 : Fin 1) := by
  funext b
  match b with
  | ⟨0, _⟩ => exact Fin.ext rfl
  | ⟨1, _⟩ => apply Fin.ext; show c.val = 0; have hc := c.isLt; change c.val < 1 at hc; omega

theorem pool_start0 (idx : IVec Cert.ReferenceIdeal.S100000x1 32) (n : Fin 100000) (q : Fin 128) :
    dP.start (ix2 n q) idx 0 = (idx (ix2 n (0 : Fin 1))).toInt := by
  show (idx (dP.siIdx (ix2 n q) _)).toInt = _
  rw [pool_siIdx]

theorem pool_start1 (idx : IVec Cert.ReferenceIdeal.S100000x1 32) (n : Fin 100000) (q : Fin 128) :
    dP.start (ix2 n q) idx 1 = 0 := rfl

theorem pool_window0 (n : Fin 100000) (q : Fin 128) : dP.window (ix2 n q) 0 = 0 := rfl

theorem pool_window1 (n : Fin 100000) (q : Fin 128) : dP.window (ix2 n q) 1 = q.val := rfl

/-- Update (n, q') lands on (g, q) exactly when node n's graph index is the word g and q' is q. -/
theorem pool_lands (batch : IVec S100000 32) (n : Fin 100000) (q q' : Fin 128) (g : Fin 64) :
    dP.resultIdx? (ix2 n q') (Cert.ReferenceIdeal.Read.val_main_v91 (F := Ideal) batch) = some (ix2 g q)
      ↔ batch (ix1 n) = BitVec.ofNat 32 g.val ∧ q' = q := by
  rw [resultIdx?_eq_some_iff]
  have hv : Cert.ReferenceIdeal.Read.val_main_v91 (F := Ideal) batch (ix2 n (0 : Fin 1)) = batch (ix1 n) := by
    rw [Cert.ReferenceIdeal.Read.val_main_v91_apply]
    congr 1
    funext a; match a with | ⟨0, _⟩ => exact Fin.ext rfl
  constructor
  · intro h
    have h0 := h 0
    have h1 := h 1
    rw [pool_start0, pool_window0, hv] at h0
    rw [pool_start1, pool_window1] at h1
    refine ⟨(toInt_eq_iff _ g).1 (by simpa using h0), Fin.ext ?_⟩
    have h2 : ((q'.val : Int)) = (q.val : Int) := by simpa using h1
    omega
  · rintro ⟨hb, rfl⟩ a
    match a with
    | ⟨0, _⟩ =>
      show dP.start (ix2 n q') _ 0 + (dP.window (ix2 n q') 0 : Int) = _
      rw [pool_start0, pool_window0, hv, (toInt_eq_iff _ g).2 hb]; simp
    | ⟨1, _⟩ =>
      show dP.start (ix2 n q') _ 1 + (dP.window (ix2 n q') 1 : Int) = _
      rw [pool_start1, pool_window1]; simp

/-! ### Where update n of the scatter of ones lands: node n's graph index read signed -/

theorem count_siIdx (n : Fin 100000) (c : Fin dC.scatterDimsToOperandDims.length) :
    dC.siIdx (ix1 n) c = ix2 n (0 : Fin 1) := by
  funext b
  match b with
  | ⟨0, _⟩ => exact Fin.ext rfl
  | ⟨1, _⟩ => apply Fin.ext; show c.val = 0; have hc := c.isLt; change c.val < 1 at hc; omega

theorem count_start0 (idx : IVec Cert.ReferenceIdeal.S100000x1 32) (n : Fin 100000) :
    dC.start (ix1 n) idx 0 = (idx (ix2 n (0 : Fin 1))).toInt := by
  show (idx (dC.siIdx (ix1 n) _)).toInt = _
  rw [count_siIdx]

theorem count_window0 (n : Fin 100000) : dC.window (ix1 n) 0 = 0 := rfl

/-- Update n lands on g exactly when node n's graph index is the word g. -/
theorem count_lands (batch : IVec S100000 32) (n : Fin 100000) (g : Fin 64) :
    dC.resultIdx? (ix1 n) (Cert.ReferenceIdeal.Read.val_main_v95 (F := Ideal) batch) = some (ix1 g)
      ↔ batch (ix1 n) = BitVec.ofNat 32 g.val := by
  rw [resultIdx?_eq_some_iff]
  have hv : Cert.ReferenceIdeal.Read.val_main_v95 (F := Ideal) batch (ix2 n (0 : Fin 1)) = batch (ix1 n) := by
    rw [Cert.ReferenceIdeal.Read.val_main_v95_apply]
    congr 1
    funext a; match a with | ⟨0, _⟩ => exact Fin.ext rfl
  constructor
  · intro h
    have h0 := h 0
    rw [count_start0, count_window0, hv] at h0
    exact (toInt_eq_iff _ g).1 (by simpa using h0)
  · intro hb a
    match a with
    | ⟨0, _⟩ =>
      show dC.start (ix1 n) _ 0 + (dC.window (ix1 n) 0 : Int) = _
      rw [count_start0, count_window0, hv, (toInt_eq_iff _ g).2 hb]; simp

end OneHot

open OneHot in
/-- The indicator matrix transposed times the features is the reference's scatter-add of the features by graph index. -/
theorem pool_eq_scatter (batch : IVec S100000 32) (h : FVec Ideal S100000x128 .f32) :
    Cert.Spec.poolSum (onehot batch) h
      = Host.scatterAdd (F := Ideal) Cert.ReferenceIdeal.scatter_S64x128_S100000x1_S100000x128_1_0_0_1
          (Cert.ReferenceIdeal.Read.val_main_v90 (F := Ideal)) (Cert.ReferenceIdeal.Read.val_main_v91 (F := Ideal) batch) h := by
  funext i
  obtain ⟨g, q, rfl⟩ : ∃ (g : Fin 64) (q : Fin 128), i = ix2 g q := ⟨i 0, i 1, eq_ix2 i⟩
  rw [Cert.Spec.poolSum_apply]
  -- the scatter at (g, q): the zero array's entry plus the updates that land there
  show _ = Cert.ReferenceIdeal.Read.val_main_v90 (F := Ideal) (ix2 g q)
      + ∑ j ∈ Finset.univ.filter (fun j => dP.resultIdx? j (Cert.ReferenceIdeal.Read.val_main_v91 (F := Ideal) batch) = some (ix2 g q)), h j
  have hz : Cert.ReferenceIdeal.Read.val_main_v90 (F := Ideal) (ix2 g q) = 0 := by
    rw [Cert.ReferenceIdeal.Read.val_main_v90_apply, Cert.ReferenceIdeal.Read.val_main_cst_18_apply]
    exact Ideal.ofBits_zero_f32
  rw [hz, zero_add]
  -- one times x is x and zero times x is zero on the extended reals: the product keeps the nodes of graph g
  have hl : ∀ n : Fin 100000, onehot batch (ix2 n g) * h (ix2 n q)
      = if batch (ix1 n) = BitVec.ofNat 32 g.val then h (ix2 n q) else 0 := by
    intro n; rw [onehot_apply]; split <;> simp
  rw [Finset.sum_congr rfl (fun n _ => hl n), ← Finset.sum_filter]
  -- the nodes of graph g correspond one to one, by n ↦ (n, q), to the updates landing on (g, q)
  refine Finset.sum_bij (fun n _ => ix2 n q) ?_ ?_ ?_ ?_
  · intro n hn
    rw [Finset.mem_filter] at hn ⊢
    exact ⟨Finset.mem_univ _, (pool_lands batch n q q g).2 ⟨hn.2, rfl⟩⟩
  · intro n _ n' _ e
    exact congrFun e 0
  · intro j hj
    rw [Finset.mem_filter] at hj
    have hj2 := hj.2
    rw [eq_ix2 j] at hj2
    obtain ⟨hb, hq⟩ := (pool_lands batch (j 0) q (j 1) g).1 hj2
    refine ⟨j 0, Finset.mem_filter.2 ⟨Finset.mem_univ _, hb⟩, ?_⟩
    show ix2 (j 0) q = j
    rw [← hq]; exact (eq_ix2 j).symm
  · intro n _; rfl

open OneHot in
/-- The column sums of the indicator matrix are the reference's scatter-add of ones by graph index. -/
theorem count_eq_scatter (batch : IVec S100000 32) :
    Host.reduceAdd (F := Ideal) (extf .f32 (onehot batch) bitsLt_bf16_f32) (constant S_ .f32 0x00000000#32) reducesTo_S100000x64_S64_d0 h_S_
      = Cert.ReferenceIdeal.Read.val_main_v96 (F := Ideal) batch := by
  funext i
  obtain ⟨g, rfl⟩ : ∃ g : Fin 64, i = ix1 g := ⟨i 0, eq_ix1 i⟩
  have hR : S100000x64.Reduces [0] S64 := by decide
  -- the column sum at g: the initial zero plus the sum over the nodes of entry (n, g)
  rw [hostReduceAdd_apply, Ideal.hostReduceAdd_single reducesTo_S100000x64_S64_d0 hR]
  -- the scatter at g: the zero array's entry plus the ones that land there
  show Ideal.ofBits .f32 0x00000000#32 + _ = Cert.ReferenceIdeal.Read.val_main_v94 (F := Ideal) (ix1 g)
      + ∑ j ∈ Finset.univ.filter (fun j => dC.resultIdx? j (Cert.ReferenceIdeal.Read.val_main_v95 (F := Ideal) batch) = some (ix1 g)),
          Cert.ReferenceIdeal.Read.val_main_v93 (F := Ideal) j
  have hz : Cert.ReferenceIdeal.Read.val_main_v94 (F := Ideal) (ix1 g) = 0 := by
    rw [Cert.ReferenceIdeal.Read.val_main_v94_apply, Cert.ReferenceIdeal.Read.val_main_cst_20_apply]
    exact Ideal.ofBits_zero_f32
  have h1 : ∀ j, Cert.ReferenceIdeal.Read.val_main_v93 (F := Ideal) j = 1 := by
    intro j
    rw [Cert.ReferenceIdeal.Read.val_main_v93_apply, Cert.ReferenceIdeal.Read.val_main_cst_19_apply]
    exact Ideal.ofBits_one_f32
  rw [hz, Ideal.ofBits_zero_f32, zero_add, zero_add]
  have hl : ∀ n : Fin 100000, (extf .f32 (onehot batch) bitsLt_bf16_f32 : FVec Ideal S100000x64 .f32) (hR.lift (ix1 g) n)
      = if batch (ix1 n) = BitVec.ofNat 32 g.val then 1 else 0 := by
    intro n
    rw [extf_apply]
    have hix : hR.lift (ix1 g) n = ix2 n g := by
      funext a; match a with | ⟨0, _⟩ => exact Fin.ext rfl | ⟨1, _⟩ => exact Fin.ext rfl
    rw [hix, onehot_apply]
  refine (Finset.sum_congr rfl (fun n _ => hl n) : ∑ n : Fin 100000, _ = ∑ n : Fin 100000, _).trans ?_
  rw [← Finset.sum_filter, Finset.sum_congr rfl (fun j _ => h1 j)]
  -- the nodes of graph g correspond one to one to the updates landing on g
  refine Finset.sum_bij (fun n _ => ix1 n) ?_ ?_ ?_ ?_
  · intro n hn
    rw [Finset.mem_filter] at hn ⊢
    exact ⟨Finset.mem_univ _, (count_lands batch n g).2 hn.2⟩
  · intro n _ n' _ e
    exact congrFun e 0
  · intro j hj
    rw [Finset.mem_filter] at hj
    have hj2 := hj.2
    rw [eq_ix1 j] at hj2
    exact ⟨j 0, Finset.mem_filter.2 ⟨Finset.mem_univ _, (count_lands batch (j 0) g).1 hj2⟩, (eq_ix1 j).symm⟩
  · intro n _; rfl

end Cert.KernelIdeal.Hand

end
-- ==== Proof.ValueIdeal.RefSide.lean ====
/-
  The reference program's dense steps over the extended reals are the specification's functions, index by index:
  its `dot_general` of the features with a weight matrix is `Spec.lin`; its bias broadcast over the rows, added, and
  the maximum with the zero array is `Spec.biasRelu` of the bias as a one-row matrix; its head (a `dot_general` plus
  the bias broadcast over the rows) is `Spec.head`. A bias enters the kernel program reshaped to one row and the
  reference broadcast to one row: the same row.
-/
import proofs.«415668_j39204461478219_1_alg».proof.Proof.RefImports
import proofs.«415668_j39204461478219_1_alg».proof.Proof.Spec
import proofs.«415668_j39204461478219_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.ReferenceIdeal.RefValue

open Cert.ReferenceIdeal Cert.ReferenceIdeal.Gen
open Idealize.ShloMosaic Idealize.ShloMosaic.TcCoe Idealize.ShloMosaic.ValueIdx

/-- The reference's product of the features with a square weight matrix is the specification's. -/
theorem ref_lin (x : FVec Ideal S100000x128 .f32) (w : FVec Ideal S128x128 .f32) :
    Host.dotGeneral (F := Ideal) dot_S100000x128_S128x128_S100000x128_1_0_0_1_n_n none x w = Cert.Spec.lin x w := by
  funext i
  obtain ⟨p, q, rfl⟩ : ∃ (p : Fin 100000) (q : Fin 128), i = ix2 p q := ⟨i 0, i 1, eq_ix2 i⟩
  refine (Read.val_main_v4_apply x w (ix2 p q)).trans ?_
  rw [Cert.Spec.lin_apply]
  refine Finset.sum_congr rfl fun k _ => ?_
  have el : Read.lidx_main_v4 (ix2 p q) k = ix2 p k :=
    funext fun a => Fin.ext (by match a with | ⟨0, _⟩ => rfl | ⟨1, _⟩ => rfl)
  have er : Read.ridx_main_v4 (ix2 p q) k = ix2 k q :=
    funext fun a => Fin.ext (by match a with | ⟨0, _⟩ => rfl | ⟨1, _⟩ => rfl)
  rw [el, er]

/-- The reference's bias step — the bias broadcast to a row, the row to every row, added, the maximum with the zero
    array — is the specification's, the bias given as a one-row matrix by a reshape. -/
theorem ref_biasRelu (a : FVec Ideal S100000x128 .f32) (b : FVec Ideal S128 .f32) (hsc : S128.ShapeCasts S1x128) :
    maximumf (addf a (broadcastInDim S100000x128 ![0, 1] bcast_S1x128_S100000x128_0_1 (broadcastInDim S1x128 ![1] bcast_S128_S1x128_1 b)))
        (broadcastInDim S100000x128 ![] bcast_S_S100000x128 (constant S_ .f32 0x00000000#32))
      = Cert.Spec.biasRelu a (shapeCast S1x128 b hsc) := by
  funext i
  obtain ⟨p, q, rfl⟩ : ∃ (p : Fin 100000) (q : Fin 128), i = ix2 p q := ⟨i 0, i 1, eq_ix2 i⟩
  rw [Cert.Spec.biasRelu_apply, maximumf_apply, addf_apply]
  have hz : broadcastInDim S100000x128 ![] bcast_S_S100000x128 (constant (F := Ideal) S_ .f32 0x00000000#32) (ix2 p q) = 0 :=
    (Read.val_main_call0_v0_apply (F := Ideal) (ix2 p q)).trans Ideal.ofBits_zero_f32
  have hb : broadcastInDim S100000x128 ![0, 1] bcast_S1x128_S100000x128_0_1 (broadcastInDim S1x128 ![1] bcast_S128_S1x128_1 b) (ix2 p q)
      = b (ix1 q) :=
    ((Read.val_main_v44_apply (F := Ideal) b (ix2 p q)).trans (Read.val_main_v43_apply (F := Ideal) b _)).trans
      (congrArg b (funext fun a => Fin.ext (by match a with | ⟨0, _⟩ => rfl)))
  have hs : shapeCast S1x128 b hsc (ix2 (0 : Fin 1) q) = b (ix1 q) :=
    shapeCast_apply b hsc (ix2 (0 : Fin 1) q) (ix1 q)
      (by rw [Shape.rowMajor_val_two, Shape.rowMajor_val_one]; show q.val = 0 * 128 + q.val; omega)
  rw [hz, hb, hs]

/-- The reference's head — the product of the pooled features with the head's weights plus the bias broadcast to a
    row and to every row — is the specification's, the bias given as a one-row matrix by a reshape. -/
theorem ref_head (g : FVec Ideal S64x128 .f32) (w : FVec Ideal S128x32 .f32) (b : FVec Ideal S32 .f32) (hsc : S32.ShapeCasts S1x32) :
    addf (Host.dotGeneral (F := Ideal) dot_S64x128_S128x32_S64x32_1_0_0_1_n_n none g w)
        (broadcastInDim S64x32 ![0, 1] bcast_S1x32_S64x32_0_1 (broadcastInDim S1x32 ![1] bcast_S32_S1x32_1 b))
      = Cert.Spec.head g w (shapeCast S1x32 b hsc) := by
  funext i
  obtain ⟨r, q, rfl⟩ : ∃ (r : Fin 64) (q : Fin 32), i = ix2 r q := ⟨i 0, i 1, eq_ix2 i⟩
  rw [Cert.Spec.head_apply, addf_apply]
  have hd : Host.dotGeneral (F := Ideal) dot_S64x128_S128x32_S64x32_1_0_0_1_n_n none g w (ix2 r q)
      = ∑ k : Fin 128, g (ix2 r k) * w (ix2 k q) := by
    simp only [Host.dotGeneral]
    rw [Ideal.dotGeneral_apply,
      ← Equiv.sum_comp (contrEquiv1 dot_S64x128_S128x32_S64x32_1_0_0_1_n_n 128 rfl rfl).symm]
    refine Finset.sum_congr rfl fun k _ => ?_
    have hk := contrEquiv1_symm_val dot_S64x128_S128x32_S64x32_1_0_0_1_n_n 128 rfl rfl k
    have el : dot_S64x128_S128x32_S64x32_1_0_0_1_n_n.lhsIdx (ix2 r q)
        ((contrEquiv1 dot_S64x128_S128x32_S64x32_1_0_0_1_n_n 128 rfl rfl).symm k) = ix2 r k :=
      funext fun a => Fin.ext (by
        match a with
        | ⟨0, _⟩ => exact Read.lhs_main_v102_0 _ _
        | ⟨1, _⟩ => exact (Read.lhs_main_v102_1 _ _).trans hk)
    have er : dot_S64x128_S128x32_S64x32_1_0_0_1_n_n.rhsIdx (ix2 r q)
        ((contrEquiv1 dot_S64x128_S128x32_S64x32_1_0_0_1_n_n 128 rfl rfl).symm k) = ix2 k q :=
      funext fun a => Fin.ext (by
        match a with
        | ⟨0, _⟩ => exact (Read.rhs_main_v102_0 _ _).trans hk
        | ⟨1, _⟩ => exact Read.rhs_main_v102_1 _ _)
    rw [el, er]
  have hb : broadcastInDim S64x32 ![0, 1] bcast_S1x32_S64x32_0_1 (broadcastInDim S1x32 ![1] bcast_S32_S1x32_1 b) (ix2 r q)
      = b (ix1 q) :=
    ((Read.val_main_v104_apply (F := Ideal) b (ix2 r q)).trans (Read.val_main_v103_apply (F := Ideal) b _)).trans
      (congrArg b (funext fun a => Fin.ext (by match a with | ⟨0, _⟩ => rfl)))
  have hs : shapeCast S1x32 b hsc (ix2 (0 : Fin 1) q) = b (ix1 q) :=
    shapeCast_apply b hsc (ix2 (0 : Fin 1) q) (ix1 q)
      (by rw [Shape.rowMajor_val_two, Shape.rowMajor_val_one]; show q.val = 0 * 32 + q.val; omega)
  rw [hd, hb, hs]

end Cert.ReferenceIdeal.RefValue

end
-- ==== Proof.ValueIdeal.Chain.lean ====
/-
  The kernel program's result over the extended reals, stage by stage, is the reference's. The two programs apply the
  same host operations around the dense steps: the edge lists with self-loops, the degree normalisation, the gather of
  source rows scaled by the normalisation and scatter-added at the targets — the same operations on equal operands
  give equal arrays. The dense steps are the specification's functions on both sides: the kernel regions' output
  arrays by the regions' value lemmas, the reference's by its operations read index by index. The pooling joins a
  product with an indicator matrix to a scatter-add by graph index, and a column sum of the indicator matrix to a
  scatter-add of ones. So every buffer the kernel program holds between items is the reference's stage of the same
  name, up to the result.
-/
import proofs.«415668_j39204461478219_1_alg».proof.Proof.FrameIdeal.Run
import proofs.«415668_j39204461478219_1_alg».proof.Proof.ValueIdeal.Lin
import proofs.«415668_j39204461478219_1_alg».proof.Proof.ValueIdeal.Relu
import proofs.«415668_j39204461478219_1_alg».proof.Proof.ValueIdeal.Head
import proofs.«415668_j39204461478219_1_alg».proof.Proof.ValueIdeal.Pool
import proofs.«415668_j39204461478219_1_alg».proof.Proof.ValueIdeal.OneHot
import proofs.«415668_j39204461478219_1_alg».proof.Proof.ValueIdeal.RefSide
import proofs.«415668_j39204461478219_1_alg».proof.Proof.RefImports
import Idealize.ShloMosaic.Lib.StableHlo.Run

set_option maxRecDepth 8192

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Read (val_main_v4 val_main_v6 val_main_v7 val_main_v29 val_main_v42 val_main_v46 val_main_v47 val_main_v85 val_main_v89
  val_main_v92 val_main_v96 val_main_v101 val_main_v105)

variable (m : (ℓ : Loc nD τ sig) → Buf (Elt Ideal) ℓ)

/-! ## What an item leaves alone -/

theorem U1_of (c : Dev nD) (r : Ref sig .tc) (h : r ∉ hostOps0_W) : U1 m c r = m ((c : Thread nD τ).loc r) := V1_of m c r h
theorem U2_of (c : Dev nD) (r : Ref sig .tc) (h : r ≠ main_v29) : U2 m c r = U1 m c r := by
  unfold U2; exact Function.update_of_ne (StableHlo.devRef_ne_of_ne h) _ _
theorem U2_out (c : Dev nD) : U2 m c main_v29 = o2 m c := by unfold U2; exact Function.update_self _ _ _
theorem U3_of (c : Dev nD) (r : Ref sig .tc) (h : r ∉ hostOps1_W) : U3 m c r = U2 m c r :=
  StableHlo.after_of_writes_sub hostOps1 _ hostOps1_writes h
theorem U4_of (c : Dev nD) (r : Ref sig .tc) (h : r ≠ main_v44) : U4 m c r = U3 m c r := by
  unfold U4; exact Function.update_of_ne (StableHlo.devRef_ne_of_ne h) _ _
theorem U4_out (c : Dev nD) : U4 m c main_v44 = o4 m c := by unfold U4; exact Function.update_self _ _ _
theorem U5_of (c : Dev nD) (r : Ref sig .tc) (h : r ≠ main_v45) : U5 m c r = U4 m c r := by
  unfold U5; exact Function.update_of_ne (StableHlo.devRef_ne_of_ne h) _ _
theorem U5_out (c : Dev nD) : U5 m c main_v45 = o5 m c := by unfold U5; exact Function.update_self _ _ _
theorem U6_of (c : Dev nD) (r : Ref sig .tc) (h : r ∉ hostOps3_W) : U6 m c r = U5 m c r :=
  StableHlo.after_of_writes_sub hostOps3 _ hostOps3_writes h
theorem U7_of (c : Dev nD) (r : Ref sig .tc) (h : r ≠ main_v60) : U7 m c r = U6 m c r := by
  unfold U7; exact Function.update_of_ne (StableHlo.devRef_ne_of_ne h) _ _
theorem U7_out (c : Dev nD) : U7 m c main_v60 = o7 m c := by unfold U7; exact Function.update_self _ _ _
theorem U8_of (c : Dev nD) (r : Ref sig .tc) (h : r ∉ hostOps4_W) : U8 m c r = U7 m c r :=
  StableHlo.after_of_writes_sub hostOps4 _ hostOps4_writes h
theorem U9_of (c : Dev nD) (r : Ref sig .tc) (h : r ≠ main_v68) : U9 m c r = U8 m c r := by
  unfold U9; exact Function.update_of_ne (StableHlo.devRef_ne_of_ne h) _ _
theorem U9_out (c : Dev nD) : U9 m c main_v68 = o9 m c := by unfold U9; exact Function.update_self _ _ _
theorem U10_of (c : Dev nD) (r : Ref sig .tc) (h : r ∉ hostOps5_W) : U10 m c r = U9 m c r :=
  StableHlo.after_of_writes_sub hostOps5 _ hostOps5_writes h

/-- An argument is as launched at every boundary. -/
theorem U2_arg (c : Dev nD) (r : Ref sig .tc) (h0 : r ∉ hostOps0_W) (h : r ≠ main_v29) : U2 m c r = m ((c : Thread nD τ).loc r) :=
  (U2_of m c r h).trans (U1_of m c r h0)
theorem U3_arg (c : Dev nD) (r : Ref sig .tc) (h0 : r ∉ hostOps0_W) (h1 : r ≠ main_v29) (h2 : r ∉ hostOps1_W) :
    U3 m c r = m ((c : Thread nD τ).loc r) := (U3_of m c r h2).trans (U2_arg m c r h0 h1)
theorem U4_arg (c : Dev nD) (r : Ref sig .tc) (h0 : r ∉ hostOps0_W) (h1 : r ≠ main_v29) (h2 : r ∉ hostOps1_W) (h3 : r ≠ main_v44) :
    U4 m c r = m ((c : Thread nD τ).loc r) := (U4_of m c r h3).trans (U3_arg m c r h0 h1 h2)
theorem U5_arg (c : Dev nD) (r : Ref sig .tc) (h0 : r ∉ hostOps0_W) (h1 : r ≠ main_v29) (h2 : r ∉ hostOps1_W) (h3 : r ≠ main_v44)
    (h4 : r ≠ main_v45) : U5 m c r = m ((c : Thread nD τ).loc r) := (U5_of m c r h4).trans (U4_arg m c r h0 h1 h2 h3)
theorem U6_arg (c : Dev nD) (r : Ref sig .tc) (h0 : r ∉ hostOps0_W) (h1 : r ≠ main_v29) (h2 : r ∉ hostOps1_W) (h3 : r ≠ main_v44)
    (h4 : r ≠ main_v45) (h5 : r ∉ hostOps3_W) : U6 m c r = m ((c : Thread nD τ).loc r) :=
  (U6_of m c r h5).trans (U5_arg m c r h0 h1 h2 h3 h4)
theorem U7_arg (c : Dev nD) (r : Ref sig .tc) (h0 : r ∉ hostOps0_W) (h1 : r ≠ main_v29) (h2 : r ∉ hostOps1_W) (h3 : r ≠ main_v44)
    (h4 : r ≠ main_v45) (h5 : r ∉ hostOps3_W) (h6 : r ≠ main_v60) : U7 m c r = m ((c : Thread nD τ).loc r) :=
  (U7_of m c r h6).trans (U6_arg m c r h0 h1 h2 h3 h4 h5)
theorem U9_arg (c : Dev nD) (r : Ref sig .tc) (h0 : r ∉ hostOps0_W) (h1 : r ≠ main_v29) (h2 : r ∉ hostOps1_W) (h3 : r ≠ main_v44)
    (h4 : r ≠ main_v45) (h5 : r ∉ hostOps3_W) (h6 : r ≠ main_v60) (h7 : r ∉ hostOps4_W) (h8 : r ≠ main_v68) :
    U9 m c r = m ((c : Thread nD τ).loc r) :=
  (U9_of m c r h8).trans ((U8_of m c r h7).trans (U7_arg m c r h0 h1 h2 h3 h4 h5 h6))
theorem U10_arg (c : Dev nD) (r : Ref sig .tc) (h0 : r ∉ hostOps0_W) (h1 : r ≠ main_v29) (h2 : r ∉ hostOps1_W) (h3 : r ≠ main_v44)
    (h4 : r ≠ main_v45) (h5 : r ∉ hostOps3_W) (h6 : r ≠ main_v60) (h7 : r ∉ hostOps4_W) (h8 : r ≠ main_v68) (h9 : r ∉ hostOps5_W) :
    U10 m c r = m ((c : Thread nD τ).loc r) :=
  (U10_of m c r h9).trans (U9_arg m c r h0 h1 h2 h3 h4 h5 h6 h7 h8)

/-! ## The launch arguments -/

abbrev a0 (c : Dev nD) := m ((c : Thread nD τ).loc main_arg0)
abbrev a1 (c : Dev nD) := m ((c : Thread nD τ).loc main_arg1)
abbrev a2 (c : Dev nD) := m ((c : Thread nD τ).loc main_arg2)
abbrev a3 (c : Dev nD) := m ((c : Thread nD τ).loc main_arg3)
abbrev a4 (c : Dev nD) := m ((c : Thread nD τ).loc main_arg4)
abbrev a5 (c : Dev nD) := m ((c : Thread nD τ).loc main_arg5)
abbrev a6 (c : Dev nD) := m ((c : Thread nD τ).loc main_arg6)
abbrev a7 (c : Dev nD) := m ((c : Thread nD τ).loc main_arg7)
abbrev a8 (c : Dev nD) := m ((c : Thread nD τ).loc main_arg8)

/-! ## The first host stretch: the edge lists and the normalisation -/

set_option maxHeartbeats 8000000 in
/-- The source list with self-loops. -/
theorem s1_src (c : Dev nD) : U1 m c main_v5 = val_main_v6 (F := Ideal) (a1 m c) := by
  dsimp only [U1, V1, V0, hostOps0]
  after_results
  rfl
set_option maxHeartbeats 8000000 in
/-- The target list with self-loops. -/
theorem s1_dst (c : Dev nD) : U1 m c main_v6 = val_main_v7 (F := Ideal) (a1 m c) := by
  dsimp only [U1, V1, V0, hostOps0]
  after_results
  rfl
set_option maxHeartbeats 8000000 in
/-- The edge normalisation. -/
theorem s1_norm (c : Dev nD) : U1 m c main_v28 = val_main_v29 (F := Ideal) (a1 m c) := by
  dsimp only [U1, V1, V0, hostOps0]
  after_results
  rfl

/-- The edge lists and the normalisation are untouched up to the second aggregation. -/
theorem U2_src (c : Dev nD) : U2 m c main_v5 = val_main_v6 (F := Ideal) (a1 m c) := (U2_of m c main_v5 (by decide)).trans (s1_src m c)
theorem U2_dst (c : Dev nD) : U2 m c main_v6 = val_main_v7 (F := Ideal) (a1 m c) := (U2_of m c main_v6 (by decide)).trans (s1_dst m c)
theorem U2_norm (c : Dev nD) : U2 m c main_v28 = val_main_v29 (F := Ideal) (a1 m c) := (U2_of m c main_v28 (by decide)).trans (s1_norm m c)
theorem U5_src (c : Dev nD) : U5 m c main_v5 = val_main_v6 (F := Ideal) (a1 m c) :=
  (U5_of m c main_v5 (by decide)).trans <| (U4_of m c main_v5 (by decide)).trans <| (U3_of m c main_v5 (by decide)).trans (U2_src m c)
theorem U5_dst (c : Dev nD) : U5 m c main_v6 = val_main_v7 (F := Ideal) (a1 m c) :=
  (U5_of m c main_v6 (by decide)).trans <| (U4_of m c main_v6 (by decide)).trans <| (U3_of m c main_v6 (by decide)).trans (U2_dst m c)
theorem U5_norm (c : Dev nD) : U5 m c main_v28 = val_main_v29 (F := Ideal) (a1 m c) :=
  (U5_of m c main_v28 (by decide)).trans <| (U4_of m c main_v28 (by decide)).trans <| (U3_of m c main_v28 (by decide)).trans (U2_norm m c)

/-! ## The first layer -/

/-- After region 0 its output is the reference's first product. -/
theorem s2_lin (c : Dev nD) : U2 m c main_v29 = val_main_v4 (F := Ideal) (a0 m c) (a3 m c) :=
  (U2_out m c).trans <| (lin0_final (Vr (U1 m)) c).trans <| by
    show Cert.Spec.lin (U1 m c main_arg0) (U1 m c main_arg3) = _
    rw [U1_of m c main_arg0 (by decide), U1_of m c main_arg3 (by decide)]
    exact (Cert.ReferenceIdeal.RefValue.ref_lin _ _).symm

set_option maxHeartbeats 8000000 in
/-- The first aggregation: the same gather, scale and scatter-add on equal operands. -/
theorem s3_agg (c : Dev nD) : U3 m c main_v42 = val_main_v42 (F := Ideal) (a0 m c) (a1 m c) (a3 m c) := by
  show StableHlo.after hostOps1 (U2 m c) (Proc.devRef .tc main_v42) = _
  dsimp only [hostOps1]
  after_results
  rw [s2_lin, U2_src, U2_dst, U2_norm]
  rfl

set_option maxHeartbeats 8000000 in
/-- The first bias as a one-row matrix. -/
theorem s3_bias (c : Dev nD) : U3 m c main_v43 = shapeCast S1x128 (a4 m c) shapeCasts_S128_S1x128 := by
  show StableHlo.after hostOps1 (U2 m c) (Proc.devRef .tc main_v43) = _
  dsimp only [hostOps1]
  after_results
  rw [U2_arg m c main_arg4 (by decide) (by decide)]
  rfl

/-- After region 1 its output is the reference's first layer. -/
theorem s4_relu (c : Dev nD) : U4 m c main_v44 = val_main_v46 (F := Ideal) (a0 m c) (a1 m c) (a3 m c) (a4 m c) :=
  (U4_out m c).trans <| (relu1_final (Vr (U3 m)) c).trans <| by
    show Cert.Spec.biasRelu (U3 m c main_v42) (U3 m c main_v43) = _
    rw [s3_agg, s3_bias]
    exact (Cert.ReferenceIdeal.RefValue.ref_biasRelu _ _ _).symm

/-! ## The second layer -/

/-- After region 2 its output is the reference's second product. -/
theorem s5_lin (c : Dev nD) : U5 m c main_v45 = val_main_v47 (F := Ideal) (a0 m c) (a1 m c) (a3 m c) (a4 m c) (a5 m c) :=
  (U5_out m c).trans <| (lin2_final (Vr (U4 m)) c).trans <| by
    show Cert.Spec.lin (U4 m c main_v44) (U4 m c main_arg5) = _
    rw [s4_relu, U4_arg m c main_arg5 (by decide) (by decide) (by decide) (by decide)]
    exact (Cert.ReferenceIdeal.RefValue.ref_lin _ _).symm

set_option maxHeartbeats 8000000 in
/-- The second aggregation (the reference recomputes the edge lists and the normalisation: the same terms). -/
theorem s6_agg (c : Dev nD) : U6 m c main_v58 = val_main_v85 (F := Ideal) (a0 m c) (a1 m c) (a3 m c) (a4 m c) (a5 m c) := by
  show StableHlo.after hostOps3 (U5 m c) (Proc.devRef .tc main_v58) = _
  dsimp only [hostOps3]
  after_results
  rw [s5_lin, U5_src, U5_dst, U5_norm]
  rfl

set_option maxHeartbeats 8000000 in
/-- The second bias as a one-row matrix. -/
theorem s6_bias (c : Dev nD) : U6 m c main_v59 = shapeCast S1x128 (a6 m c) shapeCasts_S128_S1x128 := by
  show StableHlo.after hostOps3 (U5 m c) (Proc.devRef .tc main_v59) = _
  dsimp only [hostOps3]
  after_results
  rw [U5_arg m c main_arg6 (by decide) (by decide) (by decide) (by decide) (by decide)]
  rfl

/-- After region 3 its output is the reference's second layer. -/
theorem s7_relu (c : Dev nD) :
    U7 m c main_v60 = val_main_v89 (F := Ideal) (a0 m c) (a1 m c) (a3 m c) (a4 m c) (a5 m c) (a6 m c) :=
  (U7_out m c).trans <| (relu3_final (Vr (U6 m)) c).trans <| by
    show Cert.Spec.biasRelu (U6 m c main_v58) (U6 m c main_v59) = _
    rw [s6_agg, s6_bias]
    exact (Cert.ReferenceIdeal.RefValue.ref_biasRelu _ _ _).symm

/-! ## The pooling -/

set_option maxHeartbeats 8000000 in
/-- The indicator matrix of the nodes' graph indices. -/
theorem s8_onehot (c : Dev nD) : U8 m c main_v67 = onehot (a2 m c) := by
  show StableHlo.after hostOps4 (U7 m c) (Proc.devRef .tc main_v67) = _
  dsimp only [hostOps4]
  after_results
  rw [U7_arg m c main_arg2 (by decide) (by decide) (by decide) (by decide) (by decide) (by decide) (by decide)]
  rfl

/-- After region 4 its output is the reference's pooled sum. -/
theorem s9_pool (c : Dev nD) :
    U9 m c main_v68 = val_main_v92 (F := Ideal) (a0 m c) (a1 m c) (a2 m c) (a3 m c) (a4 m c) (a5 m c) (a6 m c) :=
  (U9_out m c).trans <| (pool4_final (Vr (U8 m)) c).trans <| by
    show Cert.Spec.poolSum (U8 m c main_v67) (U8 m c main_v60) = _
    rw [s8_onehot, U8_of m c main_v60 (by decide), s7_relu]
    exact pool_eq_scatter _ _

set_option maxHeartbeats 8000000 in
/-- The pooled mean: the pooled sum over the count, the count at least one. -/
theorem s10_mean (c : Dev nD) :
    U10 m c main_v75 = val_main_v101 (F := Ideal) (a0 m c) (a1 m c) (a2 m c) (a3 m c) (a4 m c) (a5 m c) (a6 m c) := by
  show StableHlo.after hostOps5 (U9 m c) (Proc.devRef .tc main_v75) = _
  dsimp only [hostOps5]
  after_results
  rw [s9_pool, U9_of m c main_v67 (by decide), s8_onehot, count_eq_scatter]
  rfl

set_option maxHeartbeats 8000000 in
/-- The head's bias as a one-row matrix. -/
theorem s10_bias (c : Dev nD) : U10 m c main_v76 = shapeCast S1x32 (a8 m c) shapeCasts_S32_S1x32 := by
  show StableHlo.after hostOps5 (U9 m c) (Proc.devRef .tc main_v76) = _
  dsimp only [hostOps5]
  after_results
  rw [U9_arg m c main_arg8 (by decide) (by decide) (by decide) (by decide) (by decide) (by decide) (by decide) (by decide) (by decide)]
  rfl

/-! ## The result -/

/-- The last region's output array is the reference's result, as a function of the launch arguments. -/
theorem kernel_result (c : Dev nD) :
    o11 m c = val_main_v105 (F := Ideal) (a0 m c) (a1 m c) (a2 m c) (a3 m c) (a4 m c) (a5 m c) (a6 m c) (a7 m c) (a8 m c) :=
  (head5_final (Vr (U10 m)) c).trans <| by
    show Cert.Spec.head (U10 m c main_v75) (U10 m c main_arg7) (U10 m c main_v76) = _
    rw [s10_mean, s10_bias, U10_arg m c main_arg7 (by decide) (by decide) (by decide) (by decide) (by decide) (by decide) (by decide) (by decide) (by decide) (by decide)]
    exact (Cert.ReferenceIdeal.RefValue.ref_head _ _ _ _).symm

end Cert.KernelIdeal.Hand

end
-- ==== Proof.lean ====
/-
  A two-layer graph convolution with mean pooling and a linear head, as six dense kernel regions among host gathers
  and scatter-adds, against the same network written with whole-array operations.

  Frames. Each of the two printed kernel programs runs to the end, faults nowhere and leaves its nine arguments as
  launched: every host stretch writes only buffers of its own, every region writes only its output array, and the
  regions' bodies are run once per grid point (five regions load their blocks and store one payload; the pooling
  region carries an accumulator in scratch, reset at the first point and copied out at the last). The reference is
  host operations only.

  Values, over the extended reals. The products of the two layers and of the head are sums over the contracted axis on
  both sides (a change of float format is the identity, the row blocks tile the arrays); the bias and positive part are
  entry by entry the same; the gathers and scatter-adds between them are the same operations on equal operands; the
  pooled sum is a product with the indicator matrix of the graph indices on one side and a scatter-add by graph index
  on the other, equal because an indicator entry is one exactly where the scatter lands and zero times anything is
  zero; the node counts are column sums of the indicator matrix against a scatter-add of ones; both divide by the
  count raised to at least one. Only commutativity and associativity of the extended reals' addition are used, so the
  precondition (finite inputs) is not needed.
-/
import proofs.«415668_j39204461478219_1_alg».proof.Defs
import proofs.«415668_j39204461478219_1_alg».proof.Proof.Gen.Kernel
import proofs.«415668_j39204461478219_1_alg».proof.Proof.Gen.KernelIdeal
import proofs.«415668_j39204461478219_1_alg».proof.Proof.Gen.ReferenceIdeal
import proofs.«415668_j39204461478219_1_alg».proof.Proof.Gen.Pre_finite_inputs
import proofs.«415668_j39204461478219_1_alg».proof.Proof.FrameBits.Run
import proofs.«415668_j39204461478219_1_alg».proof.Proof.FrameIdeal.Run
import proofs.«415668_j39204461478219_1_alg».proof.Proof.ValueIdeal.Chain
import proofs.«415668_j39204461478219_1_alg».proof.Proof.RefImports

noncomputable section

namespace Cert.Proof

open Idealize.ShloMosaic Idealize.SL.Sem

/-- The word-level kernel program runs and leaves its arguments as launched. -/
theorem frame_k : Cert.frame_Kernel := fun m ρ _ => Cert.Kernel.Hand.frame m ρ

/-- The idealized kernel program runs and leaves its arguments as launched. -/
theorem frame_ki : Cert.frame_KernelIdeal := fun m ρ _ => Cert.KernelIdeal.Hand.frame m ρ

/-- The reference runs and leaves its arguments as launched: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs run, and the kernel program's result — its last region's
    output array — is the reference's result term of the same arguments. -/
theorem algebraic : Cert.algebraic_KernelIdeal_ReferenceIdeal := by
  intro m ρ m' ρ' _ hagree
  refine ⟨fun c => Cert.KernelIdeal.Hand.o11 m c, Cert.KernelIdeal.Hand.run_result (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v105_eq, (hagree c).1, (hagree c).2.1, (hagree c).2.2.1, (hagree c).2.2.2.1,
    (hagree c).2.2.2.2.1, (hagree c).2.2.2.2.2.1, (hagree c).2.2.2.2.2.2.1, (hagree c).2.2.2.2.2.2.2.1, (hagree c).2.2.2.2.2.2.2.2]
  exact (Cert.KernelIdeal.Hand.kernel_result m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
